-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S100000x2 : Shape := ⟨2, ![100000, 2]⟩
abbrev S640000x128 : Shape := ⟨2, ![640000, 128]⟩
abbrev S640000 : Shape := ⟨1, ![640000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S100000x2 : S_.BroadcastsInDim S100000x2 (![] : Fin 0 → Fin S100000x2.rank)
  reducesTo_S100000x2_S_d0_1 : S100000x2.ReducesTo [0, 1] S_
  bcast_S_S640000x128 : S_.BroadcastsInDim S640000x128 (![] : Fin 0 → Fin S640000x128.rank)
  reducesTo_S640000x128_S_d0_1 : S640000x128.ReducesTo [0, 1] S_
  bcast_S_S640000 : S_.BroadcastsInDim S640000 (![] : Fin 0 → Fin S640000.rank)
  reducesTo_S640000_S_d0 : S640000.ReducesTo [0] S_

variable [Facts]

def fn_part2 {F : FTy → Type} [FloatOps F] (main_v30 : IVec S_ 1) (main_v32 : IVec S640000 1) : IVec S_ 1 :=
  let main_c_13 : IVec S_ 1 := constantI S_ 1 1#1
  let main_v33 : IVec S_ 1 := (fun x v => Host.reduce IntOp.andi x v reducesTo_S640000_S_d0 h_S_) main_v32 main_c_13
  let main_v34 : IVec S_ 1 := andi main_v30 main_v33
  main_v34

def fn_part1 {F : FTy → Type} [FloatOps F] (main_arg4 : IVec S640000 32) (main_arg6 : IVec S640000 32) (main_v13 : IVec S_ 1) (main_v16 : IVec S640000x128 1) : IVec S_ 1 :=
  let main_c_5 : IVec S_ 1 := constantI S_ 1 1#1
  let main_v17 : IVec S_ 1 := (fun x v => Host.reduce IntOp.andi x v reducesTo_S640000x128_S_d0_1 h_S_) main_v16 main_c_5
  let main_v18 : IVec S_ 1 := andi main_v13 main_v17
  let main_c_6 : IVec S_ 32 := constantI S_ 32 0#32
  let main_v19 : IVec S640000 32 := broadcastInDim S640000 ![] bcast_S_S640000 main_c_6
  let main_v20 : IVec S640000 1 := cmpi .sge main_arg4 main_v19
  let main_c_7 : IVec S_ 1 := constantI S_ 1 1#1
  let main_v21 : IVec S_ 1 := (fun x v => Host.reduce IntOp.andi x v reducesTo_S640000_S_d0 h_S_) main_v20 main_c_7
  let main_v22 : IVec S_ 1 := andi main_v18 main_v21
  let main_c_8 : IVec S_ 32 := constantI S_ 32 100000#32
  let main_v23 : IVec S640000 32 := broadcastInDim S640000 ![] bcast_S_S640000 main_c_8
  let main_v24 : IVec S640000 1 := cmpi .slt main_arg4 main_v23
  let main_c_9 : IVec S_ 1 := constantI S_ 1 1#1
  let main_v25 : IVec S_ 1 := (fun x v => Host.reduce IntOp.andi x v reducesTo_S640000_S_d0 h_S_) main_v24 main_c_9
  let main_v26 : IVec S_ 1 := andi main_v22 main_v25
  let main_c_10 : IVec S_ 32 := constantI S_ 32 0#32
  let main_v27 : IVec S640000 32 := broadcastInDim S640000 ![] bcast_S_S640000 main_c_10
  let main_v28 : IVec S640000 1 := cmpi .sge main_arg6 main_v27
  let main_c_11 : IVec S_ 1 := constantI S_ 1 1#1
  let main_v29 : IVec S_ 1 := (fun x v => Host.reduce IntOp.andi x v reducesTo_S640000_S_d0 h_S_) main_v28 main_c_11
  let main_v30 : IVec S_ 1 := andi main_v26 main_v29
  let main_c_12 : IVec S_ 32 := constantI S_ 32 100000#32
  let main_v31 : IVec S640000 32 := broadcastInDim S640000 ![] bcast_S_S640000 main_c_12
  let main_v32 : IVec S640000 1 := cmpi .slt main_arg6 main_v31
  fn_part2 (F := F) main_v30 main_v32

def fn {F : FTy → Type} [FloatOps F] (main_arg0 : FVec F S100000x128 .f32) (main_arg1 : FVec F S100000x2 .f32) (main_arg2 : FVec F S640000x128 .f32) (main_arg3 : FVec F S640000x128 .f32) (main_arg4 : IVec S640000 32) (main_arg5 : IVec S640000 32) (main_arg6 : IVec S640000 32) (main_arg7 : IVec S640000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S100000x2 .f32 := Host.absf main_arg1
  let main_cst_0 : FVec F S_ .f32 := constant S_ .f32 0x7F800000#32
  let main_v5 : FVec F S100000x2 .f32 := broadcastInDim S100000x2 ![] bcast_S_S100000x2 main_cst_0
  let main_v6 : IVec S100000x2 1 := cmpf .olt main_v4 main_v5
  let main_c_1 : IVec S_ 1 := constantI S_ 1 1#1
  let main_v7 : IVec S_ 1 := (fun x v => Host.reduce IntOp.andi x v reducesTo_S100000x2_S_d0_1 h_S_) main_v6 main_c_1
  let main_v8 : IVec S_ 1 := andi main_v3 main_v7
  let main_v9 : FVec F S640000x128 .f32 := Host.absf main_arg2
  let main_cst_2 : FVec F S_ .f32 := constant S_ .f32 0x7F800000#32
  let main_v10 : FVec F S640000x128 .f32 := broadcastInDim S640000x128 ![] bcast_S_S640000x128 main_cst_2
  let main_v11 : IVec S640000x128 1 := cmpf .olt main_v9 main_v10
  let main_c_3 : IVec S_ 1 := constantI S_ 1 1#1
  let main_v12 : IVec S_ 1 := (fun x v => Host.reduce IntOp.andi x v reducesTo_S640000x128_S_d0_1 h_S_) main_v11 main_c_3
  let main_v13 : IVec S_ 1 := andi main_v8 main_v12
  let main_v14 : FVec F S640000x128 .f32 := Host.absf main_arg3
  let main_cst_4 : FVec F S_ .f32 := constant S_ .f32 0x7F800000#32
  let main_v15 : FVec F S640000x128 .f32 := broadcastInDim S640000x128 ![] bcast_S_S640000x128 main_cst_4
  let main_v16 : IVec S640000x128 1 := cmpf .olt main_v14 main_v15
  fn_part1 (F := F) main_arg4 main_arg6 main_v13 main_v16
-- ==== Kernel.lean ====
abbrev S100000x128 : Shape := ⟨2, ![100000, 128]⟩
abbrev S100000x2 : Shape := ⟨2, ![100000, 2]⟩
abbrev S640000x128 : Shape := ⟨2, ![640000, 128]⟩
abbrev S640000 : Shape := ⟨1, ![640000]⟩
abbrev S640000x1 : Shape := ⟨2, ![640000, 1]⟩
abbrev S1024 : Shape := ⟨1, ![1024]⟩
abbrev S5000x128 : Shape := ⟨2, ![5000, 128]⟩
abbrev S1024x128 : Shape := ⟨2, ![1024, 128]⟩
abbrev S1024x5000 : Shape := ⟨2, ![1024, 5000]⟩
abbrev S1024x1 : Shape := ⟨2, ![1024, 1]⟩
abbrev S5120 : Shape := ⟨1, ![5120]⟩
abbrev S5120x128 : Shape := ⟨2, ![5120, 128]⟩
abbrev S1000x128 : Shape := ⟨2, ![1000, 128]⟩
abbrev S1000x5120 : Shape := ⟨2, ![1000, 5120]⟩
abbrev S1x5120 : Shape := ⟨2, ![1, 5120]⟩
abbrev S100000x1 : Shape := ⟨2, ![100000, 1]⟩
abbrev S5000x1 : Shape := ⟨2, ![5000, 1]⟩

abbrev nBuf : Space → Nat
  | .hbm => 16
  | .vmem => 42
  | .smem => 0
  | _ => 0

abbrev bufTy : (tb : Table) → Fin (tcTables nBuf tb) → BufTy
  | .hbm, ⟨0, _⟩ => ⟨S100000x128, .f32⟩
  | .hbm, ⟨1, _⟩ => ⟨S100000x2, .f32⟩
  | .hbm, ⟨2, _⟩ => ⟨S640000x128, .f32⟩
  | .hbm, ⟨3, _⟩ => ⟨S640000x128, .f32⟩
  | .hbm, ⟨4, _⟩ => ⟨S640000, .i32⟩
  | .hbm, ⟨5, _⟩ => ⟨S640000, .i32⟩
  | .hbm, ⟨6, _⟩ => ⟨S640000, .i32⟩
  | .hbm, ⟨7, _⟩ => ⟨S640000, .i32⟩
  | .hbm, ⟨8, _⟩ => ⟨S640000x1, .f32⟩
  | .hbm, ⟨9, _⟩ => ⟨S640000, .f32⟩
  | .hbm, ⟨10, _⟩ => ⟨S640000x128, .bf16⟩
  | .hbm, ⟨11, _⟩ => ⟨S640000x128, .bf16⟩
  | .hbm, ⟨12, _⟩ => ⟨S100000x128, .f32⟩
  | .hbm, ⟨13, _⟩ => ⟨S100000x128, .f32⟩
  | .hbm, ⟨14, _⟩ => ⟨S100000x1, .f32⟩
  | .hbm, ⟨15, _⟩ => ⟨S100000x128, .f32⟩
  | .local _ .vmem, ⟨0, _⟩ => ⟨S1024, .i32⟩
  | .local _ .vmem, ⟨1, _⟩ => ⟨S1024, .i32⟩
  | .local _ .vmem, ⟨2, _⟩ => ⟨S1024, .f32⟩
  | .local _ .vmem, ⟨3, _⟩ => ⟨S1024, .f32⟩
  | .local _ .vmem, ⟨4, _⟩ => ⟨S5000x128, .f32⟩
  | .local _ .vmem, ⟨5, _⟩ => ⟨S5000x128, .f32⟩
  | .local _ .vmem, ⟨6, _⟩ => ⟨S1024x128, .bf16⟩
  | .local _ .vmem, ⟨7, _⟩ => ⟨S1024x128, .bf16⟩
  | .local _ .vmem, ⟨8, _⟩ => ⟨S1024x128, .f32⟩
  | .local _ .vmem, ⟨9, _⟩ => ⟨S1024, .i32⟩
  | .local _ .vmem, ⟨10, _⟩ => ⟨S1024, .i32⟩
  | .local _ .vmem, ⟨11, _⟩ => ⟨S1024x128, .f32⟩
  | .local _ .vmem, ⟨12, _⟩ => ⟨S1024x128, .f32⟩
  | .local _ .vmem, ⟨13, _⟩ => ⟨S5000x128, .f32⟩
  | .local _ .vmem, ⟨14, _⟩ => ⟨S5000x128, .f32⟩
  | .local _ .vmem, ⟨15, _⟩ => ⟨S1024x128, .bf16⟩
  | .local _ .vmem, ⟨16, _⟩ => ⟨S1024x128, .bf16⟩
  | .local _ .vmem, ⟨17, _⟩ => ⟨S1024x128, .f32⟩
  | .local _ .vmem, ⟨18, _⟩ => ⟨S5120, .i32⟩
  | .local _ .vmem, ⟨19, _⟩ => ⟨S5120, .i32⟩
  | .local _ .vmem, ⟨20, _⟩ => ⟨S5120x128, .bf16⟩
  | .local _ .vmem, ⟨21, _⟩ => ⟨S5120x128, .bf16⟩
  | .local _ .vmem, ⟨22, _⟩ => ⟨S1000x128, .f32⟩
  | .local _ .vmem, ⟨23, _⟩ => ⟨S1000x128, .f32⟩
  | .local _ .vmem, ⟨24, _⟩ => ⟨S1000x128, .f32⟩
  | .local _ .vmem, ⟨25, _⟩ => ⟨S5120, .i32⟩
  | .local _ .vmem, ⟨26, _⟩ => ⟨S5120, .i32⟩
  | .local _ .vmem, ⟨27, _⟩ => ⟨S5120x128, .bf16⟩
  | .local _ .vmem, ⟨28, _⟩ => ⟨S5120x128, .bf16⟩
  | .local _ .vmem, ⟨29, _⟩ => ⟨S1000x128, .f32⟩
  | .local _ .vmem, ⟨30, _⟩ => ⟨S1000x128, .f32⟩
  | .local _ .vmem, ⟨31, _⟩ => ⟨S1000x128, .f32⟩
  | .local _ .vmem, ⟨32, _⟩ => ⟨S5000x1, .f32⟩
  | .local _ .vmem, ⟨33, _⟩ => ⟨S5000x1, .f32⟩
  | .local _ .vmem, ⟨34, _⟩ => ⟨S5000x128, .f32⟩
  | .local _ .vmem, ⟨35, _⟩ => ⟨S5000x128, .f32⟩
  | .local _ .vmem, ⟨36, _⟩ => ⟨S5000x128, .f32⟩
  | .local _ .vmem, ⟨37, _⟩ => ⟨S5000x128, .f32⟩
  | .local _ .vmem, ⟨38, _⟩ => ⟨S5000x128, .f32⟩
  | .local _ .vmem, ⟨39, _⟩ => ⟨S5000x128, .f32⟩
  | .local _ .vmem, ⟨40, _⟩ => ⟨S5000x128, .f32⟩
  | .local _ .vmem, ⟨41, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc1_scratch0 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg2_1 : Ref sig .tc := ⟨.vmem, 23, rfl⟩
abbrev cc2_scratch0 : Ref sig .tc := ⟨.vmem, 24, rfl⟩
abbrev cc3_stg0_0 : Ref sig .tc := ⟨.vmem, 25, rfl⟩
abbrev cc3_stg0_1 : Ref sig .tc := ⟨.vmem, 26, rfl⟩
abbrev cc3_stg1_0 : Ref sig .tc := ⟨.vmem, 27, rfl⟩
abbrev cc3_stg1_1 : Ref sig .tc := ⟨.vmem, 28, rfl⟩
abbrev cc3_stg2_0 : Ref sig .tc := ⟨.vmem, 29, rfl⟩
abbrev cc3_stg2_1 : Ref sig .tc := ⟨.vmem, 30, rfl⟩
abbrev cc3_scratch0 : Ref sig .tc := ⟨.vmem, 31, rfl⟩
abbrev cc4_stg0_0 : Ref sig .tc := ⟨.vmem, 32, rfl⟩
abbrev cc4_stg0_1 : Ref sig .tc := ⟨.vmem, 33, rfl⟩
abbrev cc4_stg1_0 : Ref sig .tc := ⟨.vmem, 34, rfl⟩
abbrev cc4_stg1_1 : Ref sig .tc := ⟨.vmem, 35, rfl⟩
abbrev cc4_stg2_0 : Ref sig .tc := ⟨.vmem, 36, rfl⟩
abbrev cc4_stg2_1 : Ref sig .tc := ⟨.vmem, 37, rfl⟩
abbrev cc4_stg3_0 : Ref sig .tc := ⟨.vmem, 38, rfl⟩
abbrev cc4_stg3_1 : Ref sig .tc := ⟨.vmem, 39, rfl⟩
abbrev cc4_stg4_0 : Ref sig .tc := ⟨.vmem, 40, rfl⟩
abbrev cc4_stg4_1 : Ref sig .tc := ⟨.vmem, 41, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21
abbrev cc3_sem0_0 : DmaSem sig := 22
abbrev cc3_sem0_1 : DmaSem sig := 23
abbrev cc3_sem1_0 : DmaSem sig := 24
abbrev cc3_sem1_1 : DmaSem sig := 25
abbrev cc3_sem2_0 : DmaSem sig := 26
abbrev cc3_sem2_1 : DmaSem sig := 27
abbrev cc4_sem0_0 : DmaSem sig := 28
abbrev cc4_sem0_1 : DmaSem sig := 29
abbrev cc4_sem1_0 : DmaSem sig := 30
abbrev cc4_sem1_1 : DmaSem sig := 31
abbrev cc4_sem2_0 : DmaSem sig := 32
abbrev cc4_sem2_1 : DmaSem sig := 33
abbrev cc4_sem3_0 : DmaSem sig := 34
abbrev cc4_sem3_1 : DmaSem sig := 35
abbrev cc4_sem4_0 : DmaSem sig := 36
abbrev cc4_sem4_1 : DmaSem sig := 37

abbrev nD : Nat := 1
abbrev τ : Topo := Topo.v7x

variable {F : FTy → Type} [FloatOps F]

abbrev grid0 : Pipeline.Grid := ⟨2, ![625, 20], ![false, false]⟩

def k0_cond2 (i : grid0.Coords) : BitVec 1 :=
  let arg1 : BitVec 32 := BitVec.ofNat 32 (i 1).val
  let c19_i32 : BitVec 32 := 19#32
  let v22 : BitVec 1 := Scalar.cmpi .eq arg1 c19_i32
  let v23 : BitVec 32 := Scalar.extui v22
  let c0_i32_7 : BitVec 32 := 0#32
  let v24 : BitVec 1 := Scalar.cmpi .ne v23 c0_i32_7
  v24

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  ![arg0.toNat]

def cc0_transform_1 (i : grid0.Coords) : Fin 1 → Nat :=
  let arg0 : BitVec 32 := BitVec.ofNat 32 (i 0).val
  let arg1 : BitVec 32 := BitVec.ofNat 32 (i 1).val
  let c0_i32 : BitVec 32 := 0#32
  ![arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨2, ![625, 20], ![false, false]⟩

def k1_cond2 (i : grid1.Coords) : BitVec 1 :=
  let arg1 : BitVec 32 := BitVec.ofNat 32 (i 1).val
  let c19_i32 : BitVec 32 := 19#32
  let v22 : BitVec 1 := Scalar.cmpi .eq arg1 c19_i32
  let v23 : BitVec 32 := Scalar.extui v22
  let c0_i32_7 : BitVec 32 := 0#32
  let v24 : BitVec 1 := Scalar.cmpi .ne v23 c0_i32_7
  v24

def cc1_transform_0 (i : grid1.Coords) : Fin 1 → Nat :=
  let arg0 : BitVec 32 := BitVec.ofNat 32 (i 0).val
  let arg1 : BitVec 32 := BitVec.ofNat 32 (i 1).val
  let c0_i32 : BitVec 32 := 0#32
  ![arg0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1024x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S1024x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev grid2 : Pipeline.Grid := ⟨2, ![100, 125], ![false, false]⟩

def k2_cond2 (i : grid2.Coords) : BitVec 1 :=
  let arg1 : BitVec 32 := BitVec.ofNat 32 (i 1).val
  let c124_i32 : BitVec 32 := 124#32
  let v22 : BitVec 1 := Scalar.cmpi .eq arg1 c124_i32
  let v23 : BitVec 32 := Scalar.extui v22
  let c0_i32_7 : BitVec 32 := 0#32
  let v24 : BitVec 1 := Scalar.cmpi .ne v23 c0_i32_7
  v24

def cc2_transform_0 (i : grid2.Coords) : Fin 1 → Nat :=
  let arg0 : BitVec 32 := BitVec.ofNat 32 (i 0).val
  let arg1 : BitVec 32 := BitVec.ofNat 32 (i 1).val
  let c0_i32 : BitVec 32 := 0#32
  ![arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S5120 .i32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true]

abbrev stage2_1 : Fin 2 → Memref sig .tc .vmem S5120x128 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev grid3 : Pipeline.Grid := ⟨2, ![100, 125], ![false, false]⟩

def k3_cond2 (i : grid3.Coords) : BitVec 1 :=
  let arg1 : BitVec 32 := BitVec.ofNat 32 (i 1).val
  let c124_i32 : BitVec 32 := 124#32
  let v22 : BitVec 1 := Scalar.cmpi .eq arg1 c124_i32
  let v23 : BitVec 32 := Scalar.extui v22
  let c0_i32_7 : BitVec 32 := 0#32
  let v24 : BitVec 1 := Scalar.cmpi .ne v23 c0_i32_7
  v24

def cc3_transform_0 (i : grid3.Coords) : Fin 1 → Nat :=
  let arg0 : BitVec 32 := BitVec.ofNat 32 (i 0).val
  let arg1 : BitVec 32 := BitVec.ofNat 32 (i 1).val
  let c0_i32 : BitVec 32 := 0#32
  ![arg1.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage3_0 : Fin 2 → Memref sig .tc .vmem S5120 .i32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![false, true]

abbrev stage3_1 : Fin 2 → Memref sig .tc .vmem S5120x128 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S1000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, false]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x1 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S5000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S5000x128 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 2 → Memref sig .tc .vmem S5000x128 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

class Facts₀ : Prop where
  slices_S640000x128_S640000x1_0_1 : S640000x128.Slices ![0, 1] S640000x1
  shapeCasts_S640000x1_S640000 : S640000x1.ShapeCasts S640000
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S1024_S1024_0 : ∀ a, (![0] : Fin 1 → Nat) a + S1024.size a ≤ S1024.size a
  h_S1024 : 0 < S1024.numel
  iota_S1024x5000_d1_w32 : S1024x5000.Iotas .tc 32 [1]
  shapeCasts_S1024_S1024x1 : S1024.ShapeCasts S1024x1
  broadcasts_S1024x1_S1024x5000 : S1024x1.Broadcasts S1024x5000
  natLt_1_32 : 1 < 32
  bitsLt_bf16_f32 : FTy.bits .bf16 < FTy.bits .f32
  inb_S5000x128_S5000x128_0_0 : ∀ a, (![0, 0] : Fin 2 → Nat) a + S5000x128.size a ≤ S5000x128.size a
  h_S5000x128 : 0 < S5000x128.numel
  shapeCasts_S1024_S1024 : S1024.ShapeCasts S1024
  broadcasts_S1024x1_S1024x128 : S1024x1.Broadcasts S1024x128
  packedbf16_S1024x128_S1024x128_0_0 : (Rect.unit (s := S1024x128) ![0, 0] S1024x128.size inb_S1024x128_S1024x128_0_0).PackedRows (EltTy.packing .bf16)
  inb_S1000x128_S1000x128_0_0 : ∀ a, (![0, 0] : Fin 2 → Nat) a + S1000x128.size a ≤ S1000x128.size a
  h_S1000x128 : 0 < S1000x128.numel
  shapeCasts_S1000x128_S1000x128 : S1000x128.ShapeCasts S1000x128
  inb_S5120_S5120_0 : ∀ a, (![0] : Fin 1 → Nat) a + S5120.size a ≤ S5120.size a
  h_S5120 : 0 < S5120.numel
  iota_S1000x5120_d0_w32 : S1000x5120.Iotas .tc 32 [0]
  shapeCasts_S5120_S1x5120 : S5120.ShapeCasts S1x5120
  broadcasts_S1x5120_S1000x5120 : S1x5120.Broadcasts S1000x5120
  inb_S5120x128_S5120x128_0_0 : ∀ a, (![0, 0] : Fin 2 → Nat) a + S5120x128.size a ≤ S5120x128.size a
  h_S5120x128 : 0 < S5120x128.numel
  shapeCasts_S5120x128_S5120x128 : S5120x128.ShapeCasts S5120x128
  slices_S100000x2_S100000x1_0_1 : S100000x2.Slices ![0, 1] S100000x1
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  shapeCasts_S5000x128_S5000x128 : S5000x128.ShapeCasts S5000x128
  broadcasts_S5000x1_S5000x128 : S5000x1.Broadcasts S5000x128
  dot_S1024x5000_S5000x128_S1024x128_1_0_0_1_n_n_wf : DotDims.WF S1024x5000 S5000x128 S1024x128 [1] [0] [0] [1] [] []
  dot_S1000x5120_S5120x128_S1000x128_1_0_0_1_n_n_wf : DotDims.WF S1000x5120 S5120x128 S1000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024.size a ≤ S640000.size a
  hwx0_0 : ∀ i : grid0.Coords, EltTy.bits .i32 = 32 ∨ (Rect.block (s := S640000) S1024.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024.size a ≤ S640000.size a
  hwx0_1 : ∀ i : grid0.Coords, EltTy.bits .f32 = 32 ∨ (Rect.block (s := S640000) S1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x128.size a ≤ S640000x128.size a
  hwx0_3 : ∀ i : grid0.Coords, EltTy.bits .bf16 = 32 ∨ (Rect.block (s := S640000x128) S1024x128.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024.size a ≤ S640000.size a
  hwx1_0 : ∀ i : grid1.Coords, EltTy.bits .i32 = 32 ∨ (Rect.block (s := S640000) S1024.size (cc1_transform_0 i) (hinb1_0 i)).WholeWords (EltTy.packing .i32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x128.size a ≤ S640000x128.size a
  hwx1_1 : ∀ i : grid1.Coords, EltTy.bits .f32 = 32 ∨ (Rect.block (s := S640000x128) S1024x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x128.size a ≤ S640000x128.size a
  hwx1_3 : ∀ i : grid1.Coords, EltTy.bits .bf16 = 32 ∨ (Rect.block (s := S640000x128) S1024x128.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5120.size a ≤ S640000.size a
  hwx2_0 : ∀ i : grid2.Coords, EltTy.bits .i32 = 32 ∨ (Rect.block (s := S640000) S5120.size (cc2_transform_0 i) (hinb2_0 i)).WholeWords (EltTy.packing .i32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5120x128.size a ≤ S640000x128.size a
  hwx2_1 : ∀ i : grid2.Coords, EltTy.bits .bf16 = 32 ∨ (Rect.block (s := S640000x128) S5120x128.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1000x128.size a ≤ S100000x128.size a
  hwx2_2 : ∀ i : grid2.Coords, EltTy.bits .f32 = 32 ∨ (Rect.block (s := S100000x128) S1000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5120.size a ≤ S640000.size a
  hwx3_0 : ∀ i : grid3.Coords, EltTy.bits .i32 = 32 ∨ (Rect.block (s := S640000) S5120.size (cc3_transform_0 i) (hinb3_0 i)).WholeWords (EltTy.packing .i32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5120x128.size a ≤ S640000x128.size a
  hwx3_1 : ∀ i : grid3.Coords, EltTy.bits .bf16 = 32 ∨ (Rect.block (s := S640000x128) S5120x128.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1000x128.size a ≤ S100000x128.size a
  hwx3_2 : ∀ i : grid3.Coords, EltTy.bits .f32 = 32 ∨ (Rect.block (s := S100000x128) S1000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x1.size a ≤ S100000x1.size a
  hwx4_0 : ∀ i : grid4.Coords, EltTy.bits .f32 = 32 ∨ (Rect.block (s := S100000x1) S5000x1.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x128.size a ≤ S100000x128.size a
  hwx4_1 : ∀ i : grid4.Coords, EltTy.bits .f32 = 32 ∨ (Rect.block (s := S100000x128) S5000x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x128.size a ≤ S100000x128.size a
  hwx4_2 : ∀ i : grid4.Coords, EltTy.bits .f32 = 32 ∨ (Rect.block (s := S100000x128) S5000x128.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x128.size a ≤ S100000x128.size a
  hwx4_3 : ∀ i : grid4.Coords, EltTy.bits .f32 = 32 ∨ (Rect.block (s := S100000x128) S5000x128.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S5000x128.size a ≤ S100000x128.size a
  hwx4_4 : ∀ i : grid4.Coords, EltTy.bits .f32 = 32 ∨ (Rect.block (s := S100000x128) S5000x128.size (cc4_transform_4 i) (hinb4_4 i)).WholeWords (EltTy.packing .f32)

variable [Facts₀]

def dot_S1024x5000_S5000x128_S1024x128_1_0_0_1_n_n : DotDims S1024x5000 S5000x128 S1024x128 where
  lhsContracting := [1]
  rhsContracting := [0]
  lhsNonContracting := [0]
  rhsNonContracting := [1]
  lhsBatch := []
  rhsBatch := []
  wf := dot_S1024x5000_S5000x128_S1024x128_1_0_0_1_n_n_wf
def dot_S1000x5120_S5120x128_S1000x128_1_0_0_1_n_n : DotDims S1000x5120 S5120x128 S1000x128 where
  lhsContracting := [1]
  rhsContracting := [0]
  lhsNonContracting := [0]
  rhsNonContracting := [1]
  lhsBatch := []
  rhsBatch := []
  wf := dot_S1000x5120_S5120x128_S1000x128_1_0_0_1_n_n_wf

abbrev win0_0 : Pipeline.Window sig grid0 :=
  Pipeline.Window.ofSpec (Memref.whole main_arg4) S1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S5000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1024x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_arg6) S1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S1024x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg0) S5000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v3) S1024x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

abbrev win2_0 : Pipeline.Window sig grid2 :=
  Pipeline.Window.ofSpec (Memref.whole main_arg5) S5120.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v2) S5120x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v4) S1000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev idle2 : Fin 3 → grid2.Coords → Bool := fun | 0 => fun _ => false | 1 => fun _ => false | 2 => fun i => !(k2_cond2 i == 1#1) | ⟨_ + 3, h⟩ => absurd h (Nat.not_lt.2 (Nat.le_add_left _ _))

abbrev win3_0 : Pipeline.Window sig grid3 :=
  Pipeline.Window.ofSpec (Memref.whole main_arg7) S5120.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v3) S5120x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v5) S1000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev idle3 : Fin 3 → grid3.Coords → Bool := fun | 0 => fun _ => false | 1 => fun _ => false | 2 => fun i => !(k3_cond2 i == 1#1) | ⟨_ + 3, h⟩ => absurd h (Nat.not_lt.2 (Nat.le_add_left _ _))

abbrev win4_0 : Pipeline.Window sig grid4 :=
  Pipeline.Window.ofSpec (Memref.whole main_v6) S5000x1.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg0) S5000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v4) S5000x128.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v5) S5000x128.size cc4_transform_3 reads4_3 false false 2 stage4_3 sem4_3
    hrank4 hreads4_3 hinb4_3 nbuf4_3 (Memref.isWhole_whole _) hwx4_3 hstage4_3

abbrev win4_4 : Pipeline.Window sig grid4 :=
  Pipeline.Window.ofSpec (Memref.whole main_v7) S5000x128.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

class Facts : Prop extends Facts₀ where

variable [Facts]
-- ==== ReferenceIdeal.lean ====
abbrev S100000x128 : Shape := ⟨2, ![100000, 128]⟩
abbrev S100000x2 : Shape := ⟨2, ![100000, 2]⟩
abbrev S640000x128 : Shape := ⟨2, ![640000, 128]⟩
abbrev S640000 : Shape := ⟨1, ![640000]⟩
abbrev S100000x1 : Shape := ⟨2, ![100000, 1]⟩
abbrev S640000x1 : Shape := ⟨2, ![640000, 1]⟩
abbrev S_ : Shape := ⟨0, ![]⟩

abbrev nBuf : Space → Nat
  | .hbm => 54
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S100000x2, .f32⟩
  | .hbm, ⟨2, _⟩ => ⟨S640000x128, .f32⟩
  | .hbm, ⟨3, _⟩ => ⟨S640000x128, .f32⟩
  | .hbm, ⟨4, _⟩ => ⟨S640000, .i32⟩
  | .hbm, ⟨5, _⟩ => ⟨S640000, .i32⟩
  | .hbm, ⟨6, _⟩ => ⟨S640000, .i32⟩
  | .hbm, ⟨7, _⟩ => ⟨S640000, .i32⟩
  | .hbm, ⟨8, _⟩ => ⟨S100000x1, .f32⟩
  | .hbm, ⟨9, _⟩ => ⟨S100000x128, .f32⟩
  | .hbm, ⟨10, _⟩ => ⟨S100000x128, .f32⟩
  | .hbm, ⟨11, _⟩ => ⟨S640000x1, .f32⟩
  | .hbm, ⟨12, _⟩ => ⟨S_, .i32⟩
  | .hbm, ⟨13, _⟩ => ⟨S640000, .i32⟩
  | .hbm, ⟨14, _⟩ => ⟨S640000, .i1⟩
  | .hbm, ⟨15, _⟩ => ⟨S_, .i32⟩
  | .hbm, ⟨16, _⟩ => ⟨S640000, .i32⟩
  | .hbm, ⟨17, _⟩ => ⟨S640000, .i32⟩
  | .hbm, ⟨18, _⟩ => ⟨S640000, .i32⟩
  | .hbm, ⟨19, _⟩ => ⟨S640000x1, .i32⟩
  | .hbm, ⟨20, _⟩ => ⟨S640000x128, .f32⟩
  | .hbm, ⟨21, _⟩ => ⟨S640000x128, .f32⟩
  | .hbm, ⟨22, _⟩ => ⟨S640000x128, .f32⟩
  | .hbm, ⟨23, _⟩ => ⟨S_, .f32⟩
  | .hbm, ⟨24, _⟩ => ⟨S100000x128, .f32⟩
  | .hbm, ⟨25, _⟩ => ⟨S640000x1, .i32⟩
  | .hbm, ⟨26, _⟩ => ⟨S100000x128, .f32⟩
  | .hbm, ⟨27, _⟩ => ⟨S_, .i32⟩
  | .hbm, ⟨28, _⟩ => ⟨S640000, .i32⟩
  | .hbm, ⟨29, _⟩ => ⟨S640000, .i1⟩
  | .hbm, ⟨30, _⟩ => ⟨S_, .i32⟩
  | .hbm, ⟨31, _⟩ => ⟨S640000, .i32⟩
  | .hbm, ⟨32, _⟩ => ⟨S640000, .i32⟩
  | .hbm, ⟨33, _⟩ => ⟨S640000, .i32⟩
  | .hbm, ⟨34, _⟩ => ⟨S640000x1, .i32⟩
  | .hbm, ⟨35, _⟩ => ⟨S640000x128, .f32⟩
  | .hbm, ⟨36, _⟩ => ⟨S640000x128, .f32⟩
  | .hbm, ⟨37, _⟩ => ⟨S_, .f32⟩
  | .hbm, ⟨38, _⟩ => ⟨S100000x128, .f32⟩
  | .hbm, ⟨39, _⟩ => ⟨S640000x1, .i32⟩
  | .hbm, ⟨40, _⟩ => ⟨S100000x128, .f32⟩
  | .hbm, ⟨41, _⟩ => ⟨S100000x128, .f32⟩
  | .hbm, ⟨42, _⟩ => ⟨S100000x128, .f32⟩
  | .hbm, ⟨43, _⟩ => ⟨S100000x128, .f32⟩
  | .hbm, ⟨44, _⟩ => ⟨S100000x128, .f32⟩
  | .hbm, ⟨45, _⟩ => ⟨S100000x128, .f32⟩
  | .hbm, ⟨46, _⟩ => ⟨S100000x128, .f32⟩
  | .hbm, ⟨47, _⟩ => ⟨S_, .f32⟩
  | .hbm, ⟨48, _⟩ => ⟨S100000x128, .f32⟩
  | .hbm, ⟨49, _⟩ => ⟨S100000x128, .f32⟩
  | .hbm, ⟨50, _⟩ => ⟨S_, .f32⟩
  | .hbm, ⟨51, _⟩ => ⟨S100000x128, .f32⟩
  | .hbm, ⟨52, _⟩ => ⟨S100000x128, .f32⟩
  | .hbm, ⟨53, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_c_1 : Ref sig .tc := ⟨.hbm, 27, rfl⟩
abbrev main_v16 : Ref sig .tc := ⟨.hbm, 28, rfl⟩
abbrev main_v17 : Ref sig .tc := ⟨.hbm, 29, rfl⟩
abbrev main_c_2 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_3 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_4 : Ref sig .tc := ⟨.hbm, 47, rfl⟩
abbrev main_v33 : Ref sig .tc := ⟨.hbm, 48, rfl⟩
abbrev main_v34 : Ref sig .tc := ⟨.hbm, 49, rfl⟩
abbrev main_call0_cst : Ref sig .tc := ⟨.hbm, 50, rfl⟩
abbrev main_call0_v0 : Ref sig .tc := ⟨.hbm, 51, rfl⟩
abbrev main_v35 : Ref sig .tc := ⟨.hbm, 52, rfl⟩
abbrev main_v36 : Ref sig .tc := ⟨.hbm, 53, rfl⟩

abbrev nD : Nat := 1
abbrev τ : Topo := Topo.v7x

variable {F : FTy → Type} [FloatOps F]

class Facts₀ : Prop where
  slices_S100000x2_S100000x1_0_1 : S100000x2.Slices ![0, 1] S100000x1
  bcast_S100000x1_S100000x128_0_1 : S100000x1.BroadcastsInDim S100000x128 (![0, 1] : Fin 2 → Fin S100000x128.rank)
  slices_S640000x128_S640000x1_0_1 : S640000x128.Slices ![0, 1] S640000x1
  bcast_S_S640000 : S_.BroadcastsInDim S640000 (![] : Fin 0 → Fin S640000.rank)
  bcast_S640000_S640000x1_0 : S640000.BroadcastsInDim S640000x1 (![0] : Fin 1 → Fin S640000x1.rank)
  bcast_S640000x1_S640000x128_0_1 : S640000x1.BroadcastsInDim S640000x128 (![0, 1] : Fin 2 → Fin S640000x128.rank)
  bcast_S_S100000x128 : S_.BroadcastsInDim S100000x128 (![] : Fin 0 → Fin S100000x128.rank)
  gather_S100000x128_S640000x1_S640000x128_1_0_n_n_0_1_1128_wf : GatherDims.WF S100000x128 S640000x1 S640000x128 [1] [0] [] [0] [] 1 ![1, 128]
  scatter_S100000x128_S640000x1_S640000x128_1_0_0_1_wf : ScatterDims.WF S100000x128 S640000x1 S640000x128 [1] [0] [0] 1

variable [Facts₀]

def gather_S100000x128_S640000x1_S640000x128_1_0_n_n_0_1_1128 : GatherDims S100000x128 S640000x1 S640000x128 where
  offsetDims := [1]
  collapsedSliceDims := [0]
  operandBatchingDims := []
  startIndicesBatchingDims := []
  startIndexMap := [0]
  indexVectorDim := 1
  sliceSizes := ![1, 128]
  wf := gather_S100000x128_S640000x1_S640000x128_1_0_n_n_0_1_1128_wf
def scatter_S100000x128_S640000x1_S640000x128_1_0_0_1 : ScatterDims S100000x128 S640000x1 S640000x128 where
  updateWindowDims := [1]
  insertedWindowDims := [0]
  scatterDimsToOperandDims := [0]
  indexVectorDim := 1
  wf := scatter_S100000x128_S640000x1_S640000x128_1_0_0_1_wf

class Facts : Prop extends Facts₀ where

variable [Facts]
-- ==== Proof.KI.R0Defs.lean ====
import proofs.«423799_j14568529068221_1_alg».proof.Proof.Gen.KernelIdeal.Launch
import proofs.«423799_j14568529068221_1_alg».proof.Proof.Gen.KernelIdeal.Skeleton
import proofs.«423799_j14568529068221_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # Region 0: rows gathered by a one-hot product, scaled by a scalar per edge

The grid is 625 edge tiles by 20 node tiles; along the node tiles the kernel accumulates, in a scratch buffer, the
product of the tile's one-hot selector with the tile's feature rows, and at the last node tile stores the accumulator
times the edge weights as the output block. -/

variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof data
    whose array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for any proof data
    whose array is `V`'s and whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not, for any proof data
    whose array is `V`'s and whose body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's two branch conditions, in closed form over the grid -/

/-- The first condition: the reduction coordinate is 0 (the accumulator is reset). -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 20 = 0 :=
  (by decide +kernel : ∀ t : Fin grid0.N, cond0_0 (grid0.coords t) ↔ t.val % 20 = 0)
/-- The second condition: the reduction coordinate is the last (the output block is stored). -/
abbrev cond0_1 (i : grid0.Coords) : Prop := k0_cond2 i = 1#1
theorem hcond0_1 : ∀ t : Fin cfg0.N, cond0_1 (grid0.coords t) ↔ t.val % 20 = 19 :=
  (by decide +kernel : ∀ t : Fin grid0.N, cond0_1 (grid0.coords t) ↔ t.val % 20 = 19)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- Away from the reduction's last point the output window is idle and not written back. -/
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
theorem liveAt0_3 : ∀ t : Fin cfg0.N, cond0_1 (grid0.coords t) → cfg0.idle 3 (grid0.coords t) = false := by decide +kernel

/-! ## The staging and scratch memrefs at a point -/

abbrev ms0_0 (t : Fin cfg0.N) := win0_0.stage (cfg0.slots t 0)
abbrev hs0_0 (t : Fin cfg0.N) : (ms0_0 t).IsWhole := hstage0_0 ((cfg0.slots t 0).cast nbuf0_0)
abbrev ms0_1 (t : Fin cfg0.N) := win0_1.stage (cfg0.slots t 1)
abbrev hs0_1 (t : Fin cfg0.N) : (ms0_1 t).IsWhole := hstage0_1 ((cfg0.slots t 1).cast nbuf0_1)
abbrev ms0_2 (t : Fin cfg0.N) := win0_2.stage (cfg0.slots t 2)
abbrev hs0_2 (t : Fin cfg0.N) : (ms0_2 t).IsWhole := hstage0_2 ((cfg0.slots t 2).cast nbuf0_2)
abbrev ms0_3 (t : Fin cfg0.N) := win0_3.stage (cfg0.slots t 3)
abbrev hs0_3 (t : Fin cfg0.N) : (ms0_3 t).IsWhole := hstage0_3 ((cfg0.slots t 3).cast nbuf0_3)
/-- The scratch accumulator: a whole scoped buffer of the kernel's own, passed beside the windows. -/
abbrev scM0 : Memref sig .tc .vmem S1024x128 .f32 := Memref.whole cc0_scratch0

/-- The launch's invariant with the scratch accumulator split out of the scoped rest (owned at some contents). -/
theorem PhiA0_eq (c : Dev nD) :
    (Pipeline.ΦA spec0 c : sProp 𝕄)
      = iprop(iprop((∃ d, owns (c : Thread nD τ) scM0 fullShare d) ∗ Pipeline.scopedRestBut (Ix := Unit) (Name := ℕ) (U := UR sig nD τ) (Lvl := ℕ) (Val := Elt F) spec0 c [cc0_scratch0]) ∗ (∃ r, prngReg c r)) := by
  unfold Pipeline.ΦA; rw [scopedRest0_split]; simp only [scM0, owns_whole]; try rfl

/-! ## What the accumulator and the output block hold after each point -/

/-- THE ACCUMULATION. What the scratch accumulator holds after the body at position `n`: at the first point of a
    reduction run the step applied to the reset value, at every later point the step applied to what the point before
    left. -/
def accAt0 (c : Dev nD) : (n : ℕ) → n < cfg0.N → Vec F S1024x128 .f32
  | 0, hn => k0_pay2 (grid0.coords ⟨0, hn⟩) (iblk0 V c 0 ⟨0, hn⟩) (iblk0 V c 2 ⟨0, hn⟩) (k0_pay1 (F := F))
  | n + 1, hn =>
    if (n + 1) % 20 = 0 then k0_pay2 (grid0.coords ⟨n + 1, hn⟩) (iblk0 V c 0 ⟨n + 1, hn⟩) (iblk0 V c 2 ⟨n + 1, hn⟩) (k0_pay1 (F := F))
    else k0_pay2 (grid0.coords ⟨n + 1, hn⟩) (iblk0 V c 0 ⟨n + 1, hn⟩) (iblk0 V c 2 ⟨n + 1, hn⟩) (accAt0 c n (Nat.lt_of_succ_lt hn))

/-- At a reduction run's first point. -/
theorem accAt0_reset (c : Dev nD) (t : Fin cfg0.N) (hz : t.val % 20 = 0) :
    accAt0 V c t.val t.isLt = k0_pay2 (grid0.coords t) (iblk0 V c 0 t) (iblk0 V c 2 t) (k0_pay1 (F := F)) := by
  obtain ⟨n, hn⟩ := t
  cases n with
  | zero => rfl
  | succ n => exact (if_pos hz)

/-- At every other point: over what the point before left. -/
theorem accAt0_step (c : Dev nD) (t : Fin cfg0.N) (hz : ¬t.val % 20 = 0) :
    accAt0 V c t.val t.isLt = k0_pay2 (grid0.coords t) (iblk0 V c 0 t) (iblk0 V c 2 t) (accAt0 V c (t.val - 1) (Nat.lt_of_le_of_lt (Nat.sub_le _ _) t.isLt)) := by
  obtain ⟨n, hn⟩ := t
  cases n with
  | zero => exact absurd (Nat.zero_mod _) hz
  | succ n => exact (if_neg hz)

/-- What the output block's staging buffer holds after the body at a point that stores it (the reduction's last).
    (At the other points the window is idle: nothing consults this.) -/
def outAt0 (c : Dev nD) (t : Fin cfg0.N) : Vec F S1024x128 .bf16 :=
  k0_pay3 (iblk0 V c 1 t) (accAt0 V c t.val t.isLt)

/-- The region invariant before position `n`: before the first point the launch's (every scratch at anything);
    afterwards the scratch accumulator at what the point before left, the other scoped buffers and the generator register
    at some state. -/
def PhiS0 (c : Dev nD) : (n : ℕ) → n ≤ cfg0.N → sProp 𝕄
  | 0, _ => Pipeline.ΦA spec0 c
  | n + 1, hn => iprop(iprop(owns (c : Thread nD τ) scM0 fullShare (accAt0 V c n hn) ∗ Pipeline.scopedRestBut (Ix := Unit) (Name := ℕ) (U := UR sig nD τ) (Lvl := ℕ) (Val := Elt F) spec0 c [cc0_scratch0]) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(iprop(owns (c : Thread nD τ) scM0 fullShare (accAt0 V c n hn) ∗ Pipeline.scopedRestBut (Ix := Unit) (Name := ℕ) (U := UR sig nD τ) (Lvl := ℕ) (Val := Elt F) spec0 c [cc0_scratch0]) ∗ (∃ r, prngReg c r)) := rfl
theorem PhiS0_pos (c : Dev nD) (n : ℕ) (h : n ≤ cfg0.N) (hz : n ≠ 0) :
    PhiS0 V c n h = iprop(iprop(owns (c : Thread nD τ) scM0 fullShare (accAt0 V c (n - 1) (by omega)) ∗ Pipeline.scopedRestBut (Ix := Unit) (Name := ℕ) (U := UR sig nD τ) (Lvl := ℕ) (Val := Elt F) spec0 c [cc0_scratch0]) ∗ (∃ r, prngReg c r)) := by
  cases n with
  | zero => exact absurd rfl hz
  | succ n => rfl

/-! ## The pipeline's proof data -/

/-- The proof data of this pipeline on core `c`: the arrays as the region finds them (`V`); after the body at point
    `t` each input's buffer at its block and the output's at `outAt0`; the invariant `PhiS0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => outAt0 V c t
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = outAt0 V c t := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

end Cert.KernelIdeal.Hand

end
-- ==== Proof.KI.R2Defs.lean ====
import proofs.«423799_j14568529068221_1_alg».proof.Proof.Gen.KernelIdeal.Launch
import proofs.«423799_j14568529068221_1_alg».proof.Proof.Gen.KernelIdeal.Skeleton
import proofs.«423799_j14568529068221_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # Region 2: messages summed into their destination nodes by a one-hot product

The grid is 100 node tiles by 125 edge tiles; along the edge tiles the kernel accumulates, in a scratch buffer, the
product of the tile's one-hot selector (node against destination word) with the tile's messages, and at the last edge
tile stores the accumulator as the output block. -/

variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for any proof data
    whose array is `V`'s and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not, for any proof data
    whose array is `V`'s and whose body leaves the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The body's two branch conditions, in closed form over the grid -/

/-- The first condition: the reduction coordinate is 0 (the accumulator is reset). -/
abbrev cond2_0 (i : grid2.Coords) : Prop := (Scalar.cmpi .ne (Scalar.extui (Scalar.cmpi .eq (BitVec.ofNat 32 (i 1).val) 0#32)) 0#32) = 1#1
theorem hcond2_0 : ∀ t : Fin cfg2.N, cond2_0 (grid2.coords t) ↔ t.val % 125 = 0 :=
  (by decide +kernel : ∀ t : Fin grid2.N, cond2_0 (grid2.coords t) ↔ t.val % 125 = 0)
/-- The second condition: the reduction coordinate is the last (the output block is stored). -/
abbrev cond2_1 (i : grid2.Coords) : Prop := k2_cond2 i = 1#1
theorem hcond2_1 : ∀ t : Fin cfg2.N, cond2_1 (grid2.coords t) ↔ t.val % 125 = 124 :=
  (by decide +kernel : ∀ t : Fin grid2.N, cond2_1 (grid2.coords t) ↔ t.val % 125 = 124)

/-! ## Where the windows are idle -/

theorem liveAt2_0 : ∀ t : Fin cfg2.N, cfg2.idle 0 (grid2.coords t) = false := by decide +kernel
theorem liveAt2_1 : ∀ t : Fin cfg2.N, cfg2.idle 1 (grid2.coords t) = false := by decide +kernel
/-- Away from the reduction's last point the output window is idle and not written back. -/
theorem idleAt2_2 : ∀ t : Fin cfg2.N, ¬cond2_1 (grid2.coords t) → cfg2.idle 2 (grid2.coords t) = true := by decide +kernel
theorem noFlush2_2 : ∀ t : Fin cfg2.N, ¬cond2_1 (grid2.coords t) → (cfg2.win 2).flush t = false := by decide +kernel
theorem liveAt2_2 : ∀ t : Fin cfg2.N, cond2_1 (grid2.coords t) → cfg2.idle 2 (grid2.coords t) = false := by decide +kernel

/-! ## The staging and scratch memrefs at a point -/

abbrev ms2_0 (t : Fin cfg2.N) := win2_0.stage (cfg2.slots t 0)
abbrev hs2_0 (t : Fin cfg2.N) : (ms2_0 t).IsWhole := hstage2_0 ((cfg2.slots t 0).cast nbuf2_0)
abbrev ms2_1 (t : Fin cfg2.N) := win2_1.stage (cfg2.slots t 1)
abbrev hs2_1 (t : Fin cfg2.N) : (ms2_1 t).IsWhole := hstage2_1 ((cfg2.slots t 1).cast nbuf2_1)
abbrev ms2_2 (t : Fin cfg2.N) := win2_2.stage (cfg2.slots t 2)
abbrev hs2_2 (t : Fin cfg2.N) : (ms2_2 t).IsWhole := hstage2_2 ((cfg2.slots t 2).cast nbuf2_2)
/-- The scratch accumulator: a whole scoped buffer of the kernel's own, passed beside the windows. -/
abbrev scM2 : Memref sig .tc .vmem S1000x128 .f32 := Memref.whole cc2_scratch0

/-- The launch's invariant with the scratch accumulator split out of the scoped rest (owned at some contents). -/
theorem PhiA2_eq (c : Dev nD) :
    (Pipeline.ΦA spec2 c : sProp 𝕄)
      = iprop(iprop((∃ d, owns (c : Thread nD τ) scM2 fullShare d) ∗ Pipeline.scopedRestBut (Ix := Unit) (Name := ℕ) (U := UR sig nD τ) (Lvl := ℕ) (Val := Elt F) spec2 c [cc2_scratch0]) ∗ (∃ r, prngReg c r)) := by
  unfold Pipeline.ΦA; rw [scopedRest2_split]; simp only [scM2, owns_whole]; try rfl

/-! ## What the accumulator and the output block hold after each point -/

/-- THE ACCUMULATION. What the scratch accumulator holds after the body at position `n`: at the first point of a
    reduction run the step applied to the reset value, at every later point the step applied to what the point before
    left. -/
def accAt2 (c : Dev nD) : (n : ℕ) → n < cfg2.N → Vec F S1000x128 .f32
  | 0, hn => k2_pay2 (grid2.coords ⟨0, hn⟩) (iblk2 V c 0 ⟨0, hn⟩) (k2_pay1 (F := F)) (iblk2 V c 1 ⟨0, hn⟩)
  | n + 1, hn =>
    if (n + 1) % 125 = 0 then k2_pay2 (grid2.coords ⟨n + 1, hn⟩) (iblk2 V c 0 ⟨n + 1, hn⟩) (k2_pay1 (F := F)) (iblk2 V c 1 ⟨n + 1, hn⟩)
    else k2_pay2 (grid2.coords ⟨n + 1, hn⟩) (iblk2 V c 0 ⟨n + 1, hn⟩) (accAt2 c n (Nat.lt_of_succ_lt hn)) (iblk2 V c 1 ⟨n + 1, hn⟩)

/-- At a reduction run's first point. -/
theorem accAt2_reset (c : Dev nD) (t : Fin cfg2.N) (hz : t.val % 125 = 0) :
    accAt2 V c t.val t.isLt = k2_pay2 (grid2.coords t) (iblk2 V c 0 t) (k2_pay1 (F := F)) (iblk2 V c 1 t) := by
  obtain ⟨n, hn⟩ := t
  cases n with
  | zero => rfl
  | succ n => exact (if_pos hz)

/-- At every other point: over what the point before left. -/
theorem accAt2_step (c : Dev nD) (t : Fin cfg2.N) (hz : ¬t.val % 125 = 0) :
    accAt2 V c t.val t.isLt = k2_pay2 (grid2.coords t) (iblk2 V c 0 t) (accAt2 V c (t.val - 1) (Nat.lt_of_le_of_lt (Nat.sub_le _ _) t.isLt)) (iblk2 V c 1 t) := by
  obtain ⟨n, hn⟩ := t
  cases n with
  | zero => exact absurd (Nat.zero_mod _) hz
  | succ n => exact (if_neg hz)

/-- What the output block's staging buffer holds after the body at a point that stores it (the reduction's last).
    (At the other points the window is idle: nothing consults this.) -/
def outAt2 (c : Dev nD) (t : Fin cfg2.N) : Vec F S1000x128 .f32 :=
  (accAt2 V c t.val t.isLt)

/-- The region invariant before position `n`: before the first point the launch's (every scratch at anything);
    afterwards the scratch accumulator at what the point before left, the other scoped buffers and the generator register
    at some state. -/
def PhiS2 (c : Dev nD) : (n : ℕ) → n ≤ cfg2.N → sProp 𝕄
  | 0, _ => Pipeline.ΦA spec2 c
  | n + 1, hn => iprop(iprop(owns (c : Thread nD τ) scM2 fullShare (accAt2 V c n hn) ∗ Pipeline.scopedRestBut (Ix := Unit) (Name := ℕ) (U := UR sig nD τ) (Lvl := ℕ) (Val := Elt F) spec2 c [cc2_scratch0]) ∗ (∃ r, prngReg c r))

theorem PhiS2_zero (c : Dev nD) (n : ℕ) (h : n ≤ cfg2.N) (hz : n = 0) : PhiS2 V c n h = Pipeline.ΦA spec2 c := by
  subst hz; rfl
theorem PhiS2_succ (c : Dev nD) (n : ℕ) (hn : n < cfg2.N) :
    PhiS2 V c (n + 1) hn = iprop(iprop(owns (c : Thread nD τ) scM2 fullShare (accAt2 V c n hn) ∗ Pipeline.scopedRestBut (Ix := Unit) (Name := ℕ) (U := UR sig nD τ) (Lvl := ℕ) (Val := Elt F) spec2 c [cc2_scratch0]) ∗ (∃ r, prngReg c r)) := rfl
theorem PhiS2_pos (c : Dev nD) (n : ℕ) (h : n ≤ cfg2.N) (hz : n ≠ 0) :
    PhiS2 V c n h = iprop(iprop(owns (c : Thread nD τ) scM2 fullShare (accAt2 V c (n - 1) (by omega)) ∗ Pipeline.scopedRestBut (Ix := Unit) (Name := ℕ) (U := UR sig nD τ) (Lvl := ℕ) (Val := Elt F) spec2 c [cc2_scratch0]) ∗ (∃ r, prngReg c r)) := by
  cases n with
  | zero => exact absurd rfl hz
  | succ n => rfl

/-! ## The pipeline's proof data -/

/-- The proof data of this pipeline on core `c`: the arrays as the region finds them (`V`); after the body at point
    `t` each input's buffer at its block and the output's at `outAt2`; the invariant `PhiS2`; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => outAt2 V c t
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem PhiS2_castSucc (c : Dev nD) (t : Fin cfg2.N) :
    (dat2 V c).Φ t.castSucc = PhiS2 V c t.val (Nat.le_of_lt t.isLt) := by
  dsimp only [dat2]; simp only [Fin.coe_castSucc]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = outAt2 V c t := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

end Cert.KernelIdeal.Hand

end
-- ==== Proof.KI.R4Defs.lean ====
import proofs.«423799_j14568529068221_1_alg».proof.Proof.Gen.KernelIdeal.Launch
import proofs.«423799_j14568529068221_1_alg».proof.Proof.Gen.KernelIdeal.Skeleton
import proofs.«423799_j14568529068221_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # Region 4: the fused pointwise kernel

The grid is 20 node tiles; at each the kernel reads a tile of the scale column, of the features and of the two
received sums, and stores `max(S₁ · S₂, 0) + scale · feature` as the output block. Nothing is kept between points. -/

variable (V : (c : Dev nD) → (b : Ref sig .tc) → Buf (Elt F) ((c : Thread nD τ).loc b))

/-- Window `w`'s block at point `t`, read off its array as the region finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Each input window's current staging buffer holds its block at every point, for any proof data whose array is
    `V`'s and whose body leaves the block in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-- What the output block's staging buffer holds after the body at point `t`: the body's one payload of the four input
    blocks. -/
def outAt4 (c : Dev nD) (t : Fin cfg4.N) : Vec F S5000x128 .f32 :=
  k4_pay1 (iblk4 V c 0 t) (iblk4 V c 1 t) (iblk4 V c 2 t) (iblk4 V c 3 t)

/-- The proof data of this pipeline on core `c`: the arrays as the region finds them; after the body each input's
    buffer at its block and the output's at `outAt4`; the launch's invariant untouched; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => outAt4 V c t
  Φ _ := Pipeline.ΦA spec4 c
  q _ := fullShare
  owed _ := 0

theorem A_eq4 (c : Dev nD) (w : Fin cfg4.W) : (dat4 V c).A w = V c (Pipeline.arrRef spec4 w) := by
  dsimp only [dat4]
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = outAt4 V c t := by dsimp only [dat4]
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d

end Cert.KernelIdeal.Hand

end
-- ==== Proof.KI.Fold.lean ====
import proofs.«423799_j14568529068221_1_alg».proof.Proof.KI.R0Defs
import proofs.«423799_j14568529068221_1_alg».proof.Proof.KI.R1Defs
import proofs.«423799_j14568529068221_1_alg».proof.Proof.KI.R2Defs
import proofs.«423799_j14568529068221_1_alg».proof.Proof.KI.R3Defs
import proofs.«423799_j14568529068221_1_alg».proof.Proof.KI.R4Defs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # The buffers' contents at each boundary between @main's items

@main is: two host operations (the scalar weight column cut out of `e_sim` and flattened), the two gather regions, the
two scatter regions, one host operation (the scale column cut out of `self_alpha`), the fused region. The contents
of core `c`'s buffers after each item are a fold from the launch memory: a host stretch applies its operations, a
region leaves its arrays at what its write-backs fold to and every other buffer as it found it. -/

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
/-- After the first host stretch (region 0's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At region 0's exit: its arrays at what the pipeline leaves (the inputs as entered, the output's write-backs folded),
    every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references. -/
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At region 1's exit: its arrays at what the pipeline leaves (the inputs as entered, the output's write-backs folded),
    every other buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- The same read at the TensorCore's references. -/
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- At region 2's exit: its arrays at what the pipeline leaves (the inputs as entered, the output's write-backs folded),
    every other buffer as entered. -/
def W4 (c : Dev nD) : Valuation τ sig (Elt F) :=
  Pipeline.withArrays spec2 c (W3 m ρ c) fun w => (dat2 (V3 m ρ) c).arrAt w cfg2.N
theorem W4_arr (c : Dev nD) (w : Fin cfg2.W) :
    W4 m ρ c (Proc.devRef .tc (Pipeline.arrRef spec2 w)) = (dat2 (V3 m ρ) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
/-- The same read at the TensorCore's references. -/
abbrev V4 : (c : Dev nD) → (b : Ref sig .tc) → Buf (Elt F) ((c : Thread nD τ).loc b) := fun c b => W4 m ρ c b
theorem hF2 (c : Dev nD) (w : Fin cfg2.W) : (dat2 (V3 m ρ) c).arrAt w cfg2.N = V4 m ρ c (Pipeline.arrRef spec2 w) :=
  (W4_arr m ρ c w).symm
theorem hrest2 (c : Dev nD) : ∀ b, b ∉ Finset.univ.image (Pipeline.arrRef spec2) → V4 m ρ c b = V3 m ρ c b :=
  fun b hb => W4_of_ne m ρ c b fun w e => hb (Finset.mem_image.mpr ⟨w, Finset.mem_univ _, e⟩)

/-- At region 3's exit: its arrays at what the pipeline leaves (the inputs as entered, the output's write-backs folded),
    every other buffer as entered. -/
def W5 (c : Dev nD) : Valuation τ sig (Elt F) :=
  Pipeline.withArrays spec3 c (W4 m ρ c) fun w => (dat3 (V4 m ρ) c).arrAt w cfg3.N
theorem W5_arr (c : Dev nD) (w : Fin cfg3.W) :
    W5 m ρ c (Proc.devRef .tc (Pipeline.arrRef spec3 w)) = (dat3 (V4 m ρ) c).arrAt w cfg3.N := by
  unfold W5; exact Pipeline.withArrays_arr spec3 launch3.win.arr_inj c _ _ w
theorem W5_of_ne (c : Dev nD) (b : Ref sig .tc) (hb : ∀ w, Pipeline.arrRef spec3 w ≠ b) :
    W5 m ρ c (Proc.devRef .tc b) = W4 m ρ c (Proc.devRef .tc b) := by
  unfold W5; exact Pipeline.withArrays_of_ne spec3 c _ _ b hb
/-- The same read at the TensorCore's references. -/
abbrev V5 : (c : Dev nD) → (b : Ref sig .tc) → Buf (Elt F) ((c : Thread nD τ).loc b) := fun c b => W5 m ρ c b
theorem hF3 (c : Dev nD) (w : Fin cfg3.W) : (dat3 (V4 m ρ) c).arrAt w cfg3.N = V5 m ρ c (Pipeline.arrRef spec3 w) :=
  (W5_arr m ρ c w).symm
theorem hrest3 (c : Dev nD) : ∀ b, b ∉ Finset.univ.image (Pipeline.arrRef spec3) → V5 m ρ c b = V4 m ρ c b :=
  fun b hb => W5_of_ne m ρ c b fun w e => hb (Finset.mem_image.mpr ⟨w, Finset.mem_univ _, e⟩)

/-- After the second host stretch (region 4's entry). -/
abbrev W6 : Dev nD → Valuation τ sig (Elt F) := fun c => StableHlo.after hostOps4 (W5 m ρ c)
abbrev V6 : (c : Dev nD) → (b : Ref sig .tc) → Buf (Elt F) ((c : Thread nD τ).loc b) := fun c b => W6 m ρ c b
/-- At region 4's exit: its arrays at what the pipeline leaves (the inputs as entered, the output's write-backs folded),
    every other buffer as entered. -/
def W7 (c : Dev nD) : Valuation τ sig (Elt F) :=
  Pipeline.withArrays spec4 c (W6 m ρ c) fun w => (dat4 (V6 m ρ) c).arrAt w cfg4.N
theorem W7_arr (c : Dev nD) (w : Fin cfg4.W) :
    W7 m ρ c (Proc.devRef .tc (Pipeline.arrRef spec4 w)) = (dat4 (V6 m ρ) c).arrAt w cfg4.N := by
  unfold W7; exact Pipeline.withArrays_arr spec4 launch4.win.arr_inj c _ _ w
theorem W7_of_ne (c : Dev nD) (b : Ref sig .tc) (hb : ∀ w, Pipeline.arrRef spec4 w ≠ b) :
    W7 m ρ c (Proc.devRef .tc b) = W6 m ρ c (Proc.devRef .tc b) := by
  unfold W7; exact Pipeline.withArrays_of_ne spec4 c _ _ b hb
/-- The same read at the TensorCore's references. -/
abbrev V7 : (c : Dev nD) → (b : Ref sig .tc) → Buf (Elt F) ((c : Thread nD τ).loc b) := fun c b => W7 m ρ c b
theorem hF4 (c : Dev nD) (w : Fin cfg4.W) : (dat4 (V6 m ρ) c).arrAt w cfg4.N = V7 m ρ c (Pipeline.arrRef spec4 w) :=
  (W7_arr m ρ c w).symm
theorem hrest4 (c : Dev nD) : ∀ b, b ∉ Finset.univ.image (Pipeline.arrRef spec4) → V7 m ρ c b = V6 m ρ c b :=
  fun b hb => W7_of_ne m ρ c b fun w e => hb (Finset.mem_image.mpr ⟨w, Finset.mem_univ _, e⟩)

end Cert.KernelIdeal.Hand

end
-- ==== Proof.KI.R0Body.lean ====
import proofs.«423799_j14568529068221_1_alg».proof.Proof.KI.R0Defs
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The shape of the weights' block. -/
local notation "𝕎" => S1024

variable (V : (c : Dev nD) → (b : Ref sig .tc) → Buf (Elt F) ((c : Thread nD τ).loc b))

/-! ## The whole-buffer rectangle

Every load and store of the body goes through the rectangle at zero offsets of the buffer's own sizes: a load through it
reads the contents, a store through it leaves its payload. -/

theorem R0_offs_one : (![0] : Fin 1 → Nat) = fun _ => 0 := funext fun a => by fin_cases a <;> rfl
theorem R0_offs_two : (![0, 0] : Fin 2 → Nat) = fun _ => 0 := funext fun a => by fin_cases a <;> rfl
/-- The weights' block's. -/
local notation "offs_w" => R0_offs_one

/-- The output block, from the weights' block and the accumulator. -/
abbrev R0_out (xb : Vec F 𝕎 .f32) (acc : Vec F S1024x128 .f32) : Vec F S1024x128 .bf16 := k0_pay3 xb acc

/-! ## The body on any whole memrefs, case by case

The printed function is its skeleton of loads and stores over the payloads; the two conditions are decided by the case's
hypotheses. What the accumulator and the output's memref end with is read off the stores: the last covering store's
payload, whose loaded arguments are the contents found (an input's block, the accumulator as handed over) or, for a load
that follows a store of the same run, that store's payload. -/

set_option maxHeartbeats 1000000 in
/-- THE BODY AT A REDUCTION RUN'S FIRST POINT (the first condition holds, the second does not). On whole memrefs, the
    inputs' at `xa`, `xb`, `xc`, the output's at `xo`, the accumulator's at anything: the accumulator is stored the reset
    value, read back, and stored the step over it; everything else is left as found. -/
theorem sound_kernel0_reset (c : Dev nD) (i : grid0.Coords)
    (mA : Memref sig .tc .vmem S1024 .i32) (hA : mA.IsWhole) (mB : Memref sig .tc .vmem 𝕎 .f32) (hB : mB.IsWhole)
    (mC : Memref sig .tc .vmem S5000x128 .f32) (hC : mC.IsWhole) (mO : Memref sig .tc .vmem S1024x128 .bf16) (hO : mO.IsWhole)
    (mS : Memref sig .tc .vmem S1024x128 .f32) (hS : mS.IsWhole) (hca : cond0_0 i) (hcb : ¬cond0_1 i)
    (xa : Vec F S1024 .i32) (xb : Vec F 𝕎 .f32) (xc : Vec F S5000x128 .f32) (xo : Vec F S1024x128 .bf16) (E : Set ℕ) (K : PUnit → sProp 𝕄) :
    iprop(owns (c : Thread nD τ) mA fullShare xa ∗ owns (c : Thread nD τ) mB fullShare xb ∗ owns (c : Thread nD τ) mC fullShare xc
        ∗ owns (c : Thread nD τ) mO fullShare xo ∗ (∃ d, owns (c : Thread nD τ) mS fullShare d)
        ∗ (iprop(owns (c : Thread nD τ) mA fullShare xa ∗ owns (c : Thread nD τ) mB fullShare xb ∗ owns (c : Thread nD τ) mC fullShare xc
            ∗ owns (c : Thread nD τ) mO fullShare xo ∗ owns (c : Thread nD τ) mS fullShare (k0_pay2 i xa xc (k0_pay1 (F := F)))) -∗ K ⟨⟩))
      ⊢ wp frame (wpE (defs₀ (F := F)) Variants.none c none) E (cc0__gather_kernel i mA hA mB hB mC hC mO hO mS hS) K := by
  simp only [cc0__gather_kernel_eq_skeleton]; unfold cc0__gather_kernel_skel
  unfold owns
  iintro ⟨⟨%fa, %hfa, Ha⟩, ⟨%fb, %hfb, Hb⟩, ⟨%fc, %hfc, Hc⟩, ⟨%fo, %hfo, Ho⟩, ⟨%ds, %fs, -, Hs⟩, Hk⟩
  obtain rfl := hA.eq_unread hfa; obtain rfl := hB.eq_unread hfb; obtain rfl := hC.eq_unread hfc; obtain rfl := hO.eq_unread hfo
  sl_exec (disch := first | exact hca | exact hcb)
  sl_step
  iapply Hk
  isplitl [Ha]
  · iexists _; isplitr; · ipureintro; exact hA.read_unread _
    iexact Ha
  isplitl [Hb]
  · iexists _; isplitr; · ipureintro; exact hB.read_unread _
    iexact Hb
  isplitl [Hc]
  · iexists _; isplitr; · ipureintro; exact hC.read_unread _
    iexact Hc
  isplitl [Ho]
  · iexists _; isplitr; · ipureintro; exact hO.read_unread _
    iexact Ho
  iexists _; isplitr
  swap; · iexact Hs
  ipureintro
  sl_unfold_run_names
  rw [View.read_writes_eq_canon _ _ _ (fun y => ⟨_, List.mem_cons.mpr (Or.inl rfl), View.mem_set_unit_zero R0_offs_two inb_S1024x128_S1024x128_0_0 y⟩),
    View.canon_cons_unit_zero (S := S1024x128) R0_offs_two]
  simp only [View.readAt_eq_ld, hA.read_unread, hB.read_unread, hC.read_unread, hS.read_unread, View.ld_unit_zero (S := S1024) R0_offs_one,
    View.ld_unit_zero (S := 𝕎) offs_w, View.ld_unit_zero (S := S5000x128) R0_offs_two, View.ld_unit_zero (S := S1024x128) R0_offs_two,
    View.readCov_unit_zero (S := S1024x128) _ R0_offs_two]

set_option maxHeartbeats 1000000 in
/-- THE BODY AT A POINT INSIDE A REDUCTION RUN (neither condition holds). The accumulator, found at `xs`, is stored the
    step over `xs`; everything else is left as found. -/
theorem sound_kernel0_step (c : Dev nD) (i : grid0.Coords)
    (mA : Memref sig .tc .vmem S1024 .i32) (hA : mA.IsWhole) (mB : Memref sig .tc .vmem 𝕎 .f32) (hB : mB.IsWhole)
    (mC : Memref sig .tc .vmem S5000x128 .f32) (hC : mC.IsWhole) (mO : Memref sig .tc .vmem S1024x128 .bf16) (hO : mO.IsWhole)
    (mS : Memref sig .tc .vmem S1024x128 .f32) (hS : mS.IsWhole) (hca : ¬cond0_0 i) (hcb : ¬cond0_1 i)
    (xa : Vec F S1024 .i32) (xb : Vec F 𝕎 .f32) (xc : Vec F S5000x128 .f32) (xo : Vec F S1024x128 .bf16) (xs : Vec F S1024x128 .f32)
    (E : Set ℕ) (K : PUnit → sProp 𝕄) :
    iprop(owns (c : Thread nD τ) mA fullShare xa ∗ owns (c : Thread nD τ) mB fullShare xb ∗ owns (c : Thread nD τ) mC fullShare xc
        ∗ owns (c : Thread nD τ) mO fullShare xo ∗ owns (c : Thread nD τ) mS fullShare xs
        ∗ (iprop(owns (c : Thread nD τ) mA fullShare xa ∗ owns (c : Thread nD τ) mB fullShare xb ∗ owns (c : Thread nD τ) mC fullShare xc
            ∗ owns (c : Thread nD τ) mO fullShare xo ∗ owns (c : Thread nD τ) mS fullShare (k0_pay2 i xa xc xs)) -∗ K ⟨⟩))
      ⊢ wp frame (wpE (defs₀ (F := F)) Variants.none c none) E (cc0__gather_kernel i mA hA mB hB mC hC mO hO mS hS) K := by
  simp only [cc0__gather_kernel_eq_skeleton]; unfold cc0__gather_kernel_skel
  unfold owns
  iintro ⟨⟨%fa, %hfa, Ha⟩, ⟨%fb, %hfb, Hb⟩, ⟨%fc, %hfc, Hc⟩, ⟨%fo, %hfo, Ho⟩, ⟨%fs, %hfs, Hs⟩, Hk⟩
  obtain rfl := hA.eq_unread hfa; obtain rfl := hB.eq_unread hfb; obtain rfl := hC.eq_unread hfc; obtain rfl := hO.eq_unread hfo
  obtain rfl := hS.eq_unread hfs
  sl_exec (disch := first | exact hca | exact hcb)
  sl_step
  iapply Hk
  isplitl [Ha]
  · iexists _; isplitr; · ipureintro; exact hA.read_unread _
    iexact Ha
  isplitl [Hb]
  · iexists _; isplitr; · ipureintro; exact hB.read_unread _
    iexact Hb
  isplitl [Hc]
  · iexists _; isplitr; · ipureintro; exact hC.read_unread _
    iexact Hc
  isplitl [Ho]
  · iexists _; isplitr; · ipureintro; exact hO.read_unread _
    iexact Ho
  iexists _; isplitr
  swap; · iexact Hs
  ipureintro
  sl_unfold_run_names
  rw [View.read_writes_eq_canon _ _ _ (fun y => ⟨_, List.mem_cons.mpr (Or.inl rfl), View.mem_set_unit_zero R0_offs_two inb_S1024x128_S1024x128_0_0 y⟩),
    View.canon_cons_unit_zero (S := S1024x128) R0_offs_two]
  simp only [View.readAt_eq_ld, hA.read_unread, hB.read_unread, hC.read_unread, hS.read_unread, View.ld_unit_zero (S := S1024) R0_offs_one,
    View.ld_unit_zero (S := 𝕎) offs_w, View.ld_unit_zero (S := S5000x128) R0_offs_two, View.ld_unit_zero (S := S1024x128) R0_offs_two,
    View.readCov_unit_zero (S := S1024x128) _ R0_offs_two]

set_option maxHeartbeats 1000000 in
/-- THE BODY AT A REDUCTION RUN'S LAST POINT (the second condition holds, the first does not). The accumulator, found at
    `xs`, is stored the step over `xs`, read back, and the output's memref, found at anything, is stored the output block
    of the weights and that accumulator; the inputs are left as found. -/
theorem sound_kernel0_last (c : Dev nD) (i : grid0.Coords)
    (mA : Memref sig .tc .vmem S1024 .i32) (hA : mA.IsWhole) (mB : Memref sig .tc .vmem 𝕎 .f32) (hB : mB.IsWhole)
    (mC : Memref sig .tc .vmem S5000x128 .f32) (hC : mC.IsWhole) (mO : Memref sig .tc .vmem S1024x128 .bf16) (hO : mO.IsWhole)
    (mS : Memref sig .tc .vmem S1024x128 .f32) (hS : mS.IsWhole) (hca : ¬cond0_0 i) (hcb : cond0_1 i)
    (xa : Vec F S1024 .i32) (xb : Vec F 𝕎 .f32) (xc : Vec F S5000x128 .f32) (xs : Vec F S1024x128 .f32)
    (E : Set ℕ) (K : PUnit → sProp 𝕄) :
    iprop(owns (c : Thread nD τ) mA fullShare xa ∗ owns (c : Thread nD τ) mB fullShare xb ∗ owns (c : Thread nD τ) mC fullShare xc
        ∗ (∃ d, owns (c : Thread nD τ) mO fullShare d) ∗ owns (c : Thread nD τ) mS fullShare xs
        ∗ (iprop(owns (c : Thread nD τ) mA fullShare xa ∗ owns (c : Thread nD τ) mB fullShare xb ∗ owns (c : Thread nD τ) mC fullShare xc
            ∗ owns (c : Thread nD τ) mO fullShare (R0_out xb (k0_pay2 i xa xc xs)) ∗ owns (c : Thread nD τ) mS fullShare (k0_pay2 i xa xc xs)) -∗ K ⟨⟩))
      ⊢ wp frame (wpE (defs₀ (F := F)) Variants.none c none) E (cc0__gather_kernel i mA hA mB hB mC hC mO hO mS hS) K := by
  simp only [cc0__gather_kernel_eq_skeleton]; unfold cc0__gather_kernel_skel
  unfold owns
  iintro ⟨⟨%fa, %hfa, Ha⟩, ⟨%fb, %hfb, Hb⟩, ⟨%fc, %hfc, Hc⟩, ⟨%dd, %fo, -, Ho⟩, ⟨%fs, %hfs, Hs⟩, Hk⟩
  obtain rfl := hA.eq_unread hfa; obtain rfl := hB.eq_unread hfb; obtain rfl := hC.eq_unread hfc
  obtain rfl := hS.eq_unread hfs
  sl_exec (disch := first | exact hca | exact hcb)
  sl_step
  iapply Hk
  isplitl [Ha]
  · iexists _; isplitr; · ipureintro; exact hA.read_unread _
    iexact Ha
  isplitl [Hb]
  · iexists _; isplitr; · ipureintro; exact hB.read_unread _
    iexact Hb
  isplitl [Hc]
  · iexists _; isplitr; · ipureintro; exact hC.read_unread _
    iexact Hc
  isplitl [Ho]
  · iexists _; isplitr
    swap; · iexact Ho
    ipureintro
    sl_unfold_run_names
    rw [View.read_writes_eq_canon _ _ _ (fun y => ⟨_, List.mem_cons.mpr (Or.inl rfl), View.mem_set_unit_zero R0_offs_two inb_S1024x128_S1024x128_0_0 y⟩),
      View.canon_cons_unit_zero (S := S1024x128) R0_offs_two]
    simp only [View.readAt_eq_ld, hA.read_unread, hB.read_unread, hC.read_unread, hS.read_unread, View.ld_unit_zero (S := S1024) R0_offs_one,
      View.ld_unit_zero (S := 𝕎) offs_w, View.ld_unit_zero (S := S5000x128) R0_offs_two, View.ld_unit_zero (S := S1024x128) R0_offs_two,
      View.readCov_unit_zero (S := S1024x128) _ R0_offs_two]
  iexists _; isplitr
  swap; · iexact Hs
  ipureintro
  sl_unfold_run_names
  rw [View.read_writes_eq_canon _ _ _ (fun y => ⟨_, List.mem_cons.mpr (Or.inl rfl), View.mem_set_unit_zero R0_offs_two inb_S1024x128_S1024x128_0_0 y⟩),
    View.canon_cons_unit_zero (S := S1024x128) R0_offs_two]
  simp only [View.readAt_eq_ld, hA.read_unread, hB.read_unread, hC.read_unread, hS.read_unread, View.ld_unit_zero (S := S1024) R0_offs_one,
    View.ld_unit_zero (S := 𝕎) offs_w, View.ld_unit_zero (S := S5000x128) R0_offs_two, View.ld_unit_zero (S := S1024x128) R0_offs_two,
    View.readCov_unit_zero (S := S1024x128) _ R0_offs_two]

/-! ## The body obligation, at a generic point -/

/-- What the body is called with at point `t` (the windows one by one), -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4800000 in
/-- The body at any point. The inputs' memrefs hold their blocks; the closed forms of the two conditions say which of
    the three cases the point is in. At a run's first point the accumulator is handed over at anything (the launch's
    invariant at the grid's first point, what the point before left elsewhere) and comes back at the step over the reset
    value; at the other points it is handed over at what the point before left and comes back at the step over that. The
    output's memref is handed back as found except at a run's last point, where it comes back at the output block. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  have hN : t.val < 12500 := lt_of_lt_of_eq t.isLt (show cfg0.N = 12500 from N_0)
  rw [PhiS0_castSucc V c t]
  by_cases hz : t.val % 20 = 0
  · have hl : ¬t.val % 20 = 19 := by omega
    rw [Dat.leavesExact_idle (dat0 V c) 3 t (idleAt0_3 t (fun h => hl ((hcond0_1 t).mp h))) (noFlush0_3 t (fun h => hl ((hcond0_1 t).mp h)))]
    rw [accAt0_reset V c t hz]
    by_cases hfirst : t.val = 0
    · rw [PhiS0_zero V c _ _ hfirst, PhiA0_eq]
      iintro ⟨⟨⟨Hs, Hrest⟩, Hg⟩, Ho, ⟨%da, Ha⟩, ⟨%db, Hb⟩, ⟨%dc, Hc⟩, ⟨%dd, Hd⟩⟩
      iapply (sound_kernel0_reset c (grid0.coords t) _ _ _ _ _ _ _ _ _ _ ((hcond0_0 t).mpr hz) (fun h => hl ((hcond0_1 t).mp h))
        (iblk0 V c 0 t) (iblk0 V c 1 t) (iblk0 V c 2 t) ((dat0 V c).before 3 t dd) Set.univ _)
      isplitl [Ha]; · iexact Ha
      isplitl [Hb]; · iexact Hb
      isplitl [Hc]; · iexact Hc
      isplitl [Hd]; · iexact Hd
      isplitl [Hs]; · iexact Hs
      iintro ⟨Ha, Hb, Hc, Hd, Hs⟩
      isplitl [Hs Hrest Hg]
      · isplitl [Hs Hrest]
        · isplitl [Hs]; · iexact Hs
          iexact Hrest
        iexact Hg
      isplitl [Ho]; · iexact Ho
      isplitl [Ha]; · iexact Ha
      isplitl [Hb]; · iexact Hb
      isplitl [Hc]; · iexact Hc
      iexists _; iexact Hd
    · rw [PhiS0_pos V c _ _ hfirst]
      iintro ⟨⟨⟨Hs, Hrest⟩, Hg⟩, Ho, ⟨%da, Ha⟩, ⟨%db, Hb⟩, ⟨%dc, Hc⟩, ⟨%dd, Hd⟩⟩
      iapply (sound_kernel0_reset c (grid0.coords t) _ _ _ _ _ _ _ _ _ _ ((hcond0_0 t).mpr hz) (fun h => hl ((hcond0_1 t).mp h))
        (iblk0 V c 0 t) (iblk0 V c 1 t) (iblk0 V c 2 t) ((dat0 V c).before 3 t dd) Set.univ _)
      isplitl [Ha]; · iexact Ha
      isplitl [Hb]; · iexact Hb
      isplitl [Hc]; · iexact Hc
      isplitl [Hd]; · iexact Hd
      isplitl [Hs]; · iexists _; iexact Hs
      iintro ⟨Ha, Hb, Hc, Hd, Hs⟩
      isplitl [Hs Hrest Hg]
      · isplitl [Hs Hrest]
        · isplitl [Hs]; · iexact Hs
          iexact Hrest
        iexact Hg
      isplitl [Ho]; · iexact Ho
      isplitl [Ha]; · iexact Ha
      isplitl [Hb]; · iexact Hb
      isplitl [Hc]; · iexact Hc
      iexists _; iexact Hd
  · have hfirst : t.val ≠ 0 := fun h => hz (by rw [h])
    rw [PhiS0_pos V c _ _ hfirst, accAt0_step V c t hz]
    by_cases hl : t.val % 20 = 19
    · rw [show (dat0 V c).leavesExact 3 t = owns (c : Thread nD τ) (ms0_3 t) fullShare ((dat0 V c).after 3 t) from by
        unfold Dat.leavesExact; rw [liveAt0_3 t ((hcond0_1 t).mpr hl)], after0_3]
      unfold outAt0; rw [accAt0_step V c t hz]
      iintro ⟨⟨⟨Hs, Hrest⟩, Hg⟩, Ho, ⟨%da, Ha⟩, ⟨%db, Hb⟩, ⟨%dc, Hc⟩, ⟨%dd, Hd⟩⟩
      iapply (sound_kernel0_last c (grid0.coords t) _ _ _ _ _ _ _ _ _ _ (fun h => hz ((hcond0_0 t).mp h)) ((hcond0_1 t).mpr hl)
        (iblk0 V c 0 t) (iblk0 V c 1 t) (iblk0 V c 2 t) (accAt0 V c (t.val - 1) (Nat.lt_of_le_of_lt (Nat.sub_le _ _) t.isLt)) Set.univ _)
      isplitl [Ha]; · iexact Ha
      isplitl [Hb]; · iexact Hb
      isplitl [Hc]; · iexact Hc
      isplitl [Hd]; · iexists _; iexact Hd
      isplitl [Hs]; · iexact Hs
      iintro ⟨Ha, Hb, Hc, Hd, Hs⟩
      isplitl [Hs Hrest Hg]
      · isplitl [Hs Hrest]
        · isplitl [Hs]; · iexact Hs
          iexact Hrest
        iexact Hg
      isplitl [Ho]; · iexact Ho
      isplitl [Ha]; · iexact Ha
      isplitl [Hb]; · iexact Hb
      isplitl [Hc]; · iexact Hc
      iexact Hd
    · rw [Dat.leavesExact_idle (dat0 V c) 3 t (idleAt0_3 t (fun h => hl ((hcond0_1 t).mp h))) (noFlush0_3 t (fun h => hl ((hcond0_1 t).mp h)))]
      iintro ⟨⟨⟨Hs, Hrest⟩, Hg⟩, Ho, ⟨%da, Ha⟩, ⟨%db, Hb⟩, ⟨%dc, Hc⟩, ⟨%dd, Hd⟩⟩
      iapply (sound_kernel0_step c (grid0.coords t) _ _ _ _ _ _ _ _ _ _ (fun h => hz ((hcond0_0 t).mp h)) (fun h => hl ((hcond0_1 t).mp h))
        (iblk0 V c 0 t) (iblk0 V c 1 t) (iblk0 V c 2 t) ((dat0 V c).before 3 t dd)
        (accAt0 V c (t.val - 1) (Nat.lt_of_le_of_lt (Nat.sub_le _ _) t.isLt)) Set.univ _)
      isplitl [Ha]; · iexact Ha
      isplitl [Hb]; · iexact Hb
      isplitl [Hc]; · iexact Hc
      isplitl [Hd]; · iexact Hd
      isplitl [Hs]; · iexact Hs
      iintro ⟨Ha, Hb, Hc, Hd, Hs⟩
      isplitl [Hs Hrest Hg]
      · isplitl [Hs Hrest]
        · isplitl [Hs]; · iexact Hs
          iexact Hrest
        iexact Hg
      isplitl [Ho]; · iexact Ho
      isplitl [Ha]; · iexact Ha
      isplitl [Hb]; · iexact Hb
      isplitl [Hc]; · iexact Hc
      iexists _; iexact Hd

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : (Pipeline.ΦA spec0 c : sProp 𝕄) ⊢ (dat0 V c).Φ 0 := by
  rw [show (dat0 V c).Φ 0 = PhiS0 V c 0 (Nat.zero_le _) from rfl, PhiS0_zero V c 0 _ rfl]
  try exact Idealize.SL.BI.Entails.refl _

/-- After any point but the first the invariant gives the launch's back: what the accumulator holds is forgotten. -/
theorem Phi_out0 (c : Dev nD) (t : Fin (cfg0.N + 1)) (ht : t.val ≠ 0) : (dat0 V c).Φ t ⊢ (Pipeline.ΦA spec0 c : sProp 𝕄) := by
  rw [show (dat0 V c).Φ t = PhiS0 V c t.val (Nat.le_of_lt_succ t.isLt) from rfl, PhiS0_pos V c _ _ ht, PhiA0_eq]
  iintro ⟨⟨Hs, Hrest⟩, Hg⟩
  isplitl [Hs Hrest]
  · isplitl [Hs]; · iexists _; iexact Hs
    iexact Hrest
  iexact Hg

/-- After the last point the invariant gives the launch's back. -/
theorem hout0 (c : Dev nD) : (dat0 V c).Φ (Fin.last cfg0.N) ⊢ (Pipeline.ΦA spec0 c : sProp 𝕄) :=
  Phi_out0 V c _ (by rw [Fin.val_last]; have : cfg0.N = 12500 := N_0; omega)

end Cert.KernelIdeal.Hand

end
-- ==== Proof.KI.R2Body.lean ====
import proofs.«423799_j14568529068221_1_alg».proof.Proof.KI.R2Defs
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The scatter region's body at a point

Every load and store of the body goes through the WHOLE rectangle of its buffer (offsets zero, the buffer's own
sizes). Through it a load reads the buffer's contents, and a store, being the last write, leaves its payload whatever
was written before. So the body's effect on the accumulator is, in closed form: the reset value where the reduction
coordinate is 0, then the step's payload over what the accumulator held; and where the reduction coordinate is the
last, the output block is the accumulator just stored. -/

/-! ## The whole rectangle -/

/-- The whole rectangle's offsets are zero: rank two, -/
theorem R2_off : (![0, 0] : Fin 2 → ℕ) = fun _ => 0 := funext fun a => by fin_cases a <;> rfl
/-- rank one. -/
theorem R2_offRow : (![0] : Fin 1 → ℕ) = fun _ => 0 := funext fun a => by fin_cases a <;> rfl

/-- A buffer whose LAST write went through the whole rectangle reads as that write's payload, whatever the view, the
    prior contents and the earlier writes: the rectangle holds every index, and under the last write the contents are
    its payload. -/
theorem R2_read_whole {S : Shape} {e : EltTy} {κ : Kind} {sp : Space} (v : View sig κ sp S e) (f : v.ty.Contents (Elt F))
    {off : Fin S.rank → ℕ} (hoff : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.mem_cons.mpr (Or.inl rfl), View.mem_set_unit_zero hoff inb y⟩),
    View.canon_cons_unit_zero hoff]

/-! ## The body's triple, case by case

On whole staging memrefs: the two inputs at contents `x0` (destination words) and `x1` (messages), the scratch
accumulator `arg5`, the output block `arg4`. -/

set_option maxHeartbeats 1000000 in
/-- THE RESET POINT of a reduction run (reduction coordinate 0, not the last): whatever the accumulator held, it is
    left at the step's payload over the reset value; the output block is not touched. -/
theorem sound_kernel2_reset (c : Dev nD) (i : grid2.Coords)
    (arg2 : Memref sig .tc .vmem S5120 .i32) (harg2 : arg2.IsWhole) (arg3 : Memref sig .tc .vmem S5120x128 .bf16) (harg3 : arg3.IsWhole)
    (arg4 : Memref sig .tc .vmem S1000x128 .f32) (harg4 : arg4.IsWhole) (arg5 : Memref sig .tc .vmem S1000x128 .f32) (harg5 : arg5.IsWhole)
    (hc0 : cond2_0 i) (hc1 : ¬cond2_1 i)
    (x0 : Vec F S5120 .i32) (x1 : Vec F S5120x128 .bf16) (xi : Vec F S1000x128 .f32) (E : Set ℕ) (K : PUnit → sProp 𝕄) :
    iprop(owns (c : Thread nD τ) arg2 fullShare x0 ∗ owns (c : Thread nD τ) arg3 fullShare x1 ∗ owns (c : Thread nD τ) arg4 fullShare xi
        ∗ (∃ d, owns (c : Thread nD τ) arg5 fullShare d)
        ∗ (iprop(owns (c : Thread nD τ) arg2 fullShare x0 ∗ owns (c : Thread nD τ) arg3 fullShare x1 ∗ owns (c : Thread nD τ) arg4 fullShare xi
            ∗ owns (c : Thread nD τ) arg5 fullShare (k2_pay2 i x0 (k2_pay1 (F := F)) x1)) -∗ K ⟨⟩))
      ⊢ wp frame (wpE (defs₀ (F := F)) Variants.none c none) E (cc2__scatter_kernel i arg2 harg2 arg3 harg3 arg4 harg4 arg5 harg5) K := by
  simp only [cc2__scatter_kernel_eq_skeleton]; unfold cc2__scatter_kernel_skel
  unfold owns
  iintro ⟨⟨%f0, %hf0, H0⟩, ⟨%f1, %hf1, H1⟩, ⟨%fi, %hfi, HI⟩, ⟨%ds, %fs, -, HS⟩, Hk⟩
  obtain rfl := harg2.eq_unread hf0; obtain rfl := harg3.eq_unread hf1
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [HI]
  · iexists _; isplitr; · ipureintro; exact hfi
    iexact HI
  iexists _; isplitr
  swap; · iexact HS
  ipureintro
  sl_unfold_words
  rw [R2_read_whole _ _ R2_off]
  simp only [View.readAt_eq_ld, harg2.read_unread, harg3.read_unread, View.readCov_unit_zero (S := S1000x128) _ R2_off,
    View.ld_unit_zero (S := S5120) R2_offRow, View.ld_unit_zero (S := S5120x128) R2_off]

set_option maxHeartbeats 1000000 in
/-- A MIDDLE POINT (reduction coordinate neither 0 nor the last): the accumulator, at `xs`, is left at the step's
    payload over `xs`; the output block is not touched. -/
theorem sound_kernel2_mid (c : Dev nD) (i : grid2.Coords)
    (arg2 : Memref sig .tc .vmem S5120 .i32) (harg2 : arg2.IsWhole) (arg3 : Memref sig .tc .vmem S5120x128 .bf16) (harg3 : arg3.IsWhole)
    (arg4 : Memref sig .tc .vmem S1000x128 .f32) (harg4 : arg4.IsWhole) (arg5 : Memref sig .tc .vmem S1000x128 .f32) (harg5 : arg5.IsWhole)
    (hc0 : ¬cond2_0 i) (hc1 : ¬cond2_1 i)
    (x0 : Vec F S5120 .i32) (x1 : Vec F S5120x128 .bf16) (xi : Vec F S1000x128 .f32) (xs : Vec F S1000x128 .f32)
    (E : Set ℕ) (K : PUnit → sProp 𝕄) :
    iprop(owns (c : Thread nD τ) arg2 fullShare x0 ∗ owns (c : Thread nD τ) arg3 fullShare x1 ∗ owns (c : Thread nD τ) arg4 fullShare xi
        ∗ owns (c : Thread nD τ) arg5 fullShare xs
        ∗ (iprop(owns (c : Thread nD τ) arg2 fullShare x0 ∗ owns (c : Thread nD τ) arg3 fullShare x1 ∗ owns (c : Thread nD τ) arg4 fullShare xi
            ∗ owns (c : Thread nD τ) arg5 fullShare (k2_pay2 i x0 xs x1)) -∗ K ⟨⟩))
      ⊢ wp frame (wpE (defs₀ (F := F)) Variants.none c none) E (cc2__scatter_kernel i arg2 harg2 arg3 harg3 arg4 harg4 arg5 harg5) K := by
  simp only [cc2__scatter_kernel_eq_skeleton]; unfold cc2__scatter_kernel_skel
  unfold owns
  iintro ⟨⟨%f0, %hf0, H0⟩, ⟨%f1, %hf1, H1⟩, ⟨%fi, %hfi, HI⟩, ⟨%fs, %hfs, HS⟩, Hk⟩
  obtain rfl := harg2.eq_unread hf0; obtain rfl := harg3.eq_unread hf1; obtain rfl := harg5.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [HI]
  · iexists _; isplitr; · ipureintro; exact hfi
    iexact HI
  iexists _; isplitr
  swap; · iexact HS
  ipureintro
  sl_unfold_words
  rw [R2_read_whole _ _ R2_off]
  simp only [View.readAt_eq_ld, harg2.read_unread, harg3.read_unread, harg5.read_unread, View.ld_unit_zero (S := S1000x128) R2_off,
    View.ld_unit_zero (S := S5120) R2_offRow, View.ld_unit_zero (S := S5120x128) R2_off]

set_option maxHeartbeats 1000000 in
/-- THE LAST POINT of a reduction run: the accumulator, at `xs`, is left at the step's payload over `xs`, and the
    output block, whatever it held, at the same (it is stored from the accumulator read back). -/
theorem sound_kernel2_last (c : Dev nD) (i : grid2.Coords)
    (arg2 : Memref sig .tc .vmem S5120 .i32) (harg2 : arg2.IsWhole) (arg3 : Memref sig .tc .vmem S5120x128 .bf16) (harg3 : arg3.IsWhole)
    (arg4 : Memref sig .tc .vmem S1000x128 .f32) (harg4 : arg4.IsWhole) (arg5 : Memref sig .tc .vmem S1000x128 .f32) (harg5 : arg5.IsWhole)
    (hc0 : ¬cond2_0 i) (hc1 : cond2_1 i)
    (x0 : Vec F S5120 .i32) (x1 : Vec F S5120x128 .bf16) (xs : Vec F S1000x128 .f32) (E : Set ℕ) (K : PUnit → sProp 𝕄) :
    iprop(owns (c : Thread nD τ) arg2 fullShare x0 ∗ owns (c : Thread nD τ) arg3 fullShare x1 ∗ (∃ d, owns (c : Thread nD τ) arg4 fullShare d)
        ∗ owns (c : Thread nD τ) arg5 fullShare xs
        ∗ (iprop(owns (c : Thread nD τ) arg2 fullShare x0 ∗ owns (c : Thread nD τ) arg3 fullShare x1
            ∗ owns (c : Thread nD τ) arg4 fullShare (k2_pay2 i x0 xs x1)
            ∗ owns (c : Thread nD τ) arg5 fullShare (k2_pay2 i x0 xs x1)) -∗ K ⟨⟩))
      ⊢ wp frame (wpE (defs₀ (F := F)) Variants.none c none) E (cc2__scatter_kernel i arg2 harg2 arg3 harg3 arg4 harg4 arg5 harg5) K := by
  simp only [cc2__scatter_kernel_eq_skeleton]; unfold cc2__scatter_kernel_skel
  unfold owns
  iintro ⟨⟨%f0, %hf0, H0⟩, ⟨%f1, %hf1, H1⟩, ⟨%di, %fi, -, HI⟩, ⟨%fs, %hfs, HS⟩, Hk⟩
  obtain rfl := harg2.eq_unread hf0; obtain rfl := harg3.eq_unread hf1; obtain rfl := harg5.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [HI]
  · iexists _; isplitr
    swap; · iexact HI
    ipureintro
    sl_unfold_words
    rw [R2_read_whole _ _ R2_off]
    simp only [View.readAt_eq_ld, harg2.read_unread, harg3.read_unread, harg5.read_unread, View.readCov_unit_zero (S := S1000x128) _ R2_off,
      View.ld_unit_zero (S := S1000x128) R2_off, View.ld_unit_zero (S := S5120) R2_offRow, View.ld_unit_zero (S := S5120x128) R2_off]
  iexists _; isplitr
  swap; · iexact HS
  ipureintro
  sl_unfold_words
  rw [R2_read_whole _ _ R2_off]
  simp only [View.readAt_eq_ld, harg2.read_unread, harg3.read_unread, harg5.read_unread, View.ld_unit_zero (S := S1000x128) R2_off,
    View.ld_unit_zero (S := S5120) R2_offRow, View.ld_unit_zero (S := S5120x128) R2_off]

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t)

set_option maxHeartbeats 4800000 in
/-- The body at any point. The inputs' memrefs hold their blocks; the closed forms of the two conditions say which of
    the three cases the point is in (the reduction is longer than one point, so the first and the last never
    coincide); the invariant hands the body the accumulator at what the point before left (at anything at the very
    first point, where it is reset anyway) and takes it back at this point's contents, by the accumulation's reset and
    step equations; the output block is handed back untouched where the window is idle, and at the accumulator's
    contents at the last point of a run; the rest of the scoped buffers and the generator register ride along. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).owesAt () t.succ = (dat2 V c).owesAt () t.castSucc from rfl]
  rw [show (dat2 V c).Φ t.succ = PhiS2 V c (t.val + 1) t.isLt from rfl, PhiS2_succ]
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  have hN : t.val < 12500 := lt_of_lt_of_eq t.isLt (show cfg2.N = 12500 from N_2)
  by_cases hl : t.val % 125 = 124
  · -- the last point of a run: a step over what the point before left, and the output block stored
    have hr : ¬t.val % 125 = 0 := by omega
    have hp : t.val ≠ 0 := by omega
    rw [show (dat2 V c).leavesExact 2 t = owns (c : Thread nD τ) (ms2_2 t) fullShare ((dat2 V c).after 2 t) from by
      unfold Dat.leavesExact; rw [liveAt2_2 t ((hcond2_1 t).mpr hl)], after2_2]
    unfold outAt2
    rw [accAt2_step V c t hr]
    rw [PhiS2_castSucc V c t, PhiS2_pos V c _ _ hp]
    iintro ⟨⟨⟨HS, HR⟩, Hg⟩, Ho, ⟨%dx, H0⟩, ⟨%dy, H1⟩, ⟨%dz, HI⟩⟩
    iapply (sound_kernel2_last c (grid2.coords t) _ _ _ _ _ _ _ _ (fun h => hr ((hcond2_0 t).mp h)) ((hcond2_1 t).mpr hl)
      (iblk2 V c 0 t) (iblk2 V c 1 t) _ Set.univ _)
    isplitl [H0]; · iexact H0
    isplitl [H1]; · iexact H1
    isplitl [HI]; · iexists _; iexact HI
    isplitl [HS]; · iexact HS
    iintro ⟨H0, H1, HI, HS⟩
    isplitl [HS HR Hg]
    · isplitl [HS HR]
      · isplitl [HS]; · iexact HS
        iexact HR
      iexact Hg
    isplitl [Ho]; · iexact Ho
    isplitl [H0]; · iexact H0
    isplitl [H1]; · iexact H1
    iexact HI
  · rw [Dat.leavesExact_idle (dat2 V c) 2 t (idleAt2_2 t (fun h => hl ((hcond2_1 t).mp h))) (noFlush2_2 t (fun h => hl ((hcond2_1 t).mp h)))]
    by_cases hr : t.val % 125 = 0
    · -- the first point of a run: the accumulator reset, then a step over the reset value
      rw [accAt2_reset V c t hr]
      by_cases hp : t.val = 0
      · rw [PhiS2_castSucc V c t, PhiS2_zero V c _ _ hp, PhiA2_eq]
        iintro ⟨⟨⟨HS, HR⟩, Hg⟩, Ho, ⟨%dx, H0⟩, ⟨%dy, H1⟩, ⟨%dz, HI⟩⟩
        iapply (sound_kernel2_reset c (grid2.coords t) _ _ _ _ _ _ _ _ ((hcond2_0 t).mpr hr) (fun h => hl ((hcond2_1 t).mp h))
          (iblk2 V c 0 t) (iblk2 V c 1 t) _ Set.univ _)
        isplitl [H0]; · iexact H0
        isplitl [H1]; · iexact H1
        isplitl [HI]; · iexact HI
        isplitl [HS]; · iexact HS
        iintro ⟨H0, H1, HI, HS⟩
        isplitl [HS HR Hg]
        · isplitl [HS HR]
          · isplitl [HS]; · iexact HS
            iexact HR
          iexact Hg
        isplitl [Ho]; · iexact Ho
        isplitl [H0]; · iexact H0
        isplitl [H1]; · iexact H1
        iexists _; iexact HI
      · rw [PhiS2_castSucc V c t, PhiS2_pos V c _ _ hp]
        iintro ⟨⟨⟨HS, HR⟩, Hg⟩, Ho, ⟨%dx, H0⟩, ⟨%dy, H1⟩, ⟨%dz, HI⟩⟩
        iapply (sound_kernel2_reset c (grid2.coords t) _ _ _ _ _ _ _ _ ((hcond2_0 t).mpr hr) (fun h => hl ((hcond2_1 t).mp h))
          (iblk2 V c 0 t) (iblk2 V c 1 t) _ Set.univ _)
        isplitl [H0]; · iexact H0
        isplitl [H1]; · iexact H1
        isplitl [HI]; · iexact HI
        isplitl [HS]; · iexists _; iexact HS
        iintro ⟨H0, H1, HI, HS⟩
        isplitl [HS HR Hg]
        · isplitl [HS HR]
          · isplitl [HS]; · iexact HS
            iexact HR
          iexact Hg
        isplitl [Ho]; · iexact Ho
        isplitl [H0]; · iexact H0
        isplitl [H1]; · iexact H1
        iexists _; iexact HI
    · -- a middle point: a step over what the point before left
      have hp : t.val ≠ 0 := by omega
      rw [accAt2_step V c t hr]
      rw [PhiS2_castSucc V c t, PhiS2_pos V c _ _ hp]
      iintro ⟨⟨⟨HS, HR⟩, Hg⟩, Ho, ⟨%dx, H0⟩, ⟨%dy, H1⟩, ⟨%dz, HI⟩⟩
      iapply (sound_kernel2_mid c (grid2.coords t) _ _ _ _ _ _ _ _ (fun h => hr ((hcond2_0 t).mp h)) (fun h => hl ((hcond2_1 t).mp h))
        (iblk2 V c 0 t) (iblk2 V c 1 t) _ _ Set.univ _)
      isplitl [H0]; · iexact H0
      isplitl [H1]; · iexact H1
      isplitl [HI]; · iexact HI
      isplitl [HS]; · iexact HS
      iintro ⟨H0, H1, HI, HS⟩
      isplitl [HS HR Hg]
      · isplitl [HS HR]
        · isplitl [HS]; · iexact HS
          iexact HR
        iexact Hg
      isplitl [Ho]; · iexact Ho
      isplitl [H0]; · iexact H0
      isplitl [H1]; · iexact H1
      iexists _; iexact HI

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : (Pipeline.ΦA spec2 c : sProp 𝕄) ⊢ (dat2 V c).Φ 0 := by
  rw [show (dat2 V c).Φ 0 = PhiS2 V c 0 (Nat.zero_le _) from rfl, PhiS2_zero V c 0 _ rfl]
  try exact Idealize.SL.BI.Entails.refl _

/-- After any point but the first the invariant gives the launch's back: the accumulator's named contents are
    forgotten, the rest of the scoped buffers and the generator register are as they were. -/
theorem Phi_out2 (c : Dev nD) (t : Fin (cfg2.N + 1)) (ht : t.val ≠ 0) : (dat2 V c).Φ t ⊢ (Pipeline.ΦA spec2 c : sProp 𝕄) := by
  rw [show (dat2 V c).Φ t = PhiS2 V c t.val (Nat.le_of_lt_succ t.isLt) from rfl, PhiS2_pos V c _ _ ht, PhiA2_eq]
  iintro ⟨⟨HS, HR⟩, Hg⟩
  isplitl [HS HR]
  · isplitl [HS]
    · iexists _; iexact HS
    iexact HR
  iexact Hg

/-- After the last point the invariant gives the launch's back. -/
theorem hout2 (c : Dev nD) : (dat2 V c).Φ (Fin.last cfg2.N) ⊢ (Pipeline.ΦA spec2 c : sProp 𝕄) :=
  Phi_out2 V c _ (by rw [Fin.val_last]; have : cfg2.N = 12500 := N_2; omega)

end Cert.KernelIdeal.Hand

end
-- ==== Proof.KI.R4Body.lean ====
import proofs.«423799_j14568529068221_1_alg».proof.Proof.KI.R4Defs
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 4: the body at a point

The kernel reads its four input tiles whole, stores one payload of them over the whole output tile, and keeps nothing
between points; so the launch's invariant passes through unread and the output tile afterwards is that payload. -/

/-- The zero offsets, as the constant function. -/
theorem zero_off4 : (![0, 0] : Fin 2 → Nat) = fun _ => 0 := funext fun a => by fin_cases a <;> rfl

/-- One store over the whole tile covers it. -/
theorem cover4 (p : Vec F S5000x128 .f32) (y : S5000x128.Idx) :
    ∃ pc ∈ ([⟨Rect.unit (s := S5000x128) ![0, 0] S5000x128.size inb_S5000x128_S5000x128_0_0, p⟩] : List (View.Piece (Elt F) S5000x128 .f32)), y ∈ pc.1.set :=
  ⟨_, List.mem_singleton_self _, View.mem_set_unit_zero zero_off4 inb_S5000x128_S5000x128_0_0 y⟩

set_option maxHeartbeats 1000000 in
/-- The kernel on whole tiles: the four inputs at contents `x0 … x3` and the output at anything run to the inputs as
    they were and the output at the payload of the four. What a tile holds after one store over all of it is the stored
    value; what a load over all of a tile reads is its contents. -/
theorem sound_kernel4 (c : Dev nD) (E : Set ℕ) (i : grid4.Coords)
    (arg1 : Memref sig .tc .vmem S5000x1 .f32) (harg1 : arg1.IsWhole) (arg2 : Memref sig .tc .vmem S5000x128 .f32) (harg2 : arg2.IsWhole)
    (arg3 : Memref sig .tc .vmem S5000x128 .f32) (harg3 : arg3.IsWhole) (arg4 : Memref sig .tc .vmem S5000x128 .f32) (harg4 : arg4.IsWhole)
    (arg5 : Memref sig .tc .vmem S5000x128 .f32) (harg5 : arg5.IsWhole)
    (x0 : Vec F S5000x1 .f32) (x1 x2 x3 : Vec F S5000x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (k4_pay1 x0 x1 x2 x3)) -∗ K ⟨⟩))
      ⊢ wp frame (wpE (defs₀ (F := F)) Variants.none c none) E (cc4__fuse_kernel i arg1 harg1 arg2 harg2 arg3 harg3 arg4 harg4 arg5 harg5) K := by
  simp only [cc4__fuse_kernel_eq_skeleton]; unfold cc4__fuse_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  rw [View.read_writes_eq_canon _ _ _ (cover4 _), View.canon_unit_zero zero_off4]
  simp only [View.readAt_eq_ld, View.ld_unit_zero (S := S5000x1) zero_off4, View.ld_unit_zero (S := S5000x128) zero_off4]

/-! ## The body obligation, at a generic point -/

/-- What the body is called with at point `t`: the invariant, what the core owes, and each window's current tile at
    what it then holds, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d)))

/-- and what it returns: the same with each tile at what the body leaves. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t))

/-- The body at any point: the input tiles hold their blocks, so the kernel's triple applies; the invariant and what the
    core owes are the same before and after and pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3]
  rw [show (dat4 V c).Φ t.succ = (dat4 V c).Φ t.castSucc from rfl,
    show (dat4 V c).owesAt () t.succ = (dat4 V c).owesAt () t.castSucc from rfl,
    after4_0, after4_1, after4_2, after4_3, after4_4]
  iintro ⟨HΦ, Ho, ⟨%d0, H0⟩, ⟨%d1, H1⟩, ⟨%d2, H2⟩, ⟨%d3, H3⟩, ⟨%d4, H4⟩⟩
  iapply (sound_kernel4 c Set.univ _ _ _ _ _ _ _ _ _ _ _ (iblk4 V c 0 t) (iblk4 V c 1 t) (iblk4 V c 2 t) (iblk4 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation4 (c : Dev nD) : BodyObligation (dat4 (F := F) V c) (defs₀ (F := F)) Variants.none () Set.univ := fun t => by
  rw [bigSep_W4, bigSep_W4]
  exact sound_body4 V c t

/-- What the launch hands the region is the invariant before the first point. -/
theorem hin4 (c : Dev nD) : (Pipeline.ΦA spec4 c : sProp 𝕄) ⊢ (dat4 V c).Φ 0 := .rfl

/-- After the last point the invariant gives the launch's back. -/
theorem hout4 (c : Dev nD) : (dat4 V c).Φ (Fin.last cfg4.N) ⊢ (Pipeline.ΦA spec4 c : sProp 𝕄) := .rfl

end Cert.KernelIdeal.Hand

end
-- ==== Proof.KI.Run.lean ====
import proofs.«423799_j14568529068221_1_alg».proof.Proof.KI.Fold
import proofs.«423799_j14568529068221_1_alg».proof.Proof.KI.R0Body
import proofs.«423799_j14568529068221_1_alg».proof.Proof.KI.R1Body
import proofs.«423799_j14568529068221_1_alg».proof.Proof.KI.R2Body
import proofs.«423799_j14568529068221_1_alg».proof.Proof.KI.R3Body
import proofs.«423799_j14568529068221_1_alg».proof.Proof.KI.R4Body
import proofs.«423799_j14568529068221_1_alg».proof.Proof.Gen.KernelIdeal.Regions
import Idealize.ShloMosaic.Lib.Pipeline.RegionsLoop

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # @main's run, item by item, and what every unscoped buffer holds at the end

## One boundary back: what an item leaves untouched

A host stretch rewrites only the buffers its operations write; a region leaves each of its INPUT arrays as it found it
(the write-back fold of an input window is the entry contents) and, by the definition of the fold, every buffer
that is none of its arrays. -/

/-- The first host stretch writes the cut column and its flattening only. -/
theorem W1_of (c : Dev nD) (r : Ref sig .tc) (h : r ∉ hostOps0_W) :
    W1 m ρ c (Proc.devRef .tc r) = W0 m ρ c (Proc.devRef .tc r) :=
  StableHlo.after_of_writes_sub hostOps0 _ hostOps0_writes h
/-- The second host stretch writes the scale column only. -/
theorem W6_of (c : Dev nD) (r : Ref sig .tc) (h : r ∉ hostOps4_W) :
    W6 m ρ c (Proc.devRef .tc r) = W5 m ρ c (Proc.devRef .tc r) :=
  StableHlo.after_of_writes_sub hostOps4 _ hostOps4_writes h
/-- An input window's array is, at its region's exit, what it was at entry. -/
theorem W2_in (c : Dev nD) (w : Fin cfg0.W) (hin : (cfg0.win w).isOut = false) :
    W2 m ρ c (Proc.devRef .tc (Pipeline.arrRef spec0 w)) = W1 m ρ c (Proc.devRef .tc (Pipeline.arrRef spec0 w)) :=
  (W2_arr m ρ c w).trans (((dat0 (V1 m ρ) c).arrAt_in w hin _).trans (A_eq0 (V1 m ρ) c w))
theorem W3_in (c : Dev nD) (w : Fin cfg1.W) (hin : (cfg1.win w).isOut = false) :
    W3 m ρ c (Proc.devRef .tc (Pipeline.arrRef spec1 w)) = W2 m ρ c (Proc.devRef .tc (Pipeline.arrRef spec1 w)) :=
  (W3_arr m ρ c w).trans (((dat1 (V2 m ρ) c).arrAt_in w hin _).trans (A_eq1 (V2 m ρ) c w))
theorem W4_in (c : Dev nD) (w : Fin cfg2.W) (hin : (cfg2.win w).isOut = false) :
    W4 m ρ c (Proc.devRef .tc (Pipeline.arrRef spec2 w)) = W3 m ρ c (Proc.devRef .tc (Pipeline.arrRef spec2 w)) :=
  (W4_arr m ρ c w).trans (((dat2 (V3 m ρ) c).arrAt_in w hin _).trans (A_eq2 (V3 m ρ) c w))
theorem W5_in (c : Dev nD) (w : Fin cfg3.W) (hin : (cfg3.win w).isOut = false) :
    W5 m ρ c (Proc.devRef .tc (Pipeline.arrRef spec3 w)) = W4 m ρ c (Proc.devRef .tc (Pipeline.arrRef spec3 w)) :=
  (W5_arr m ρ c w).trans (((dat3 (V4 m ρ) c).arrAt_in w hin _).trans (A_eq3 (V4 m ρ) c w))
theorem W7_in (c : Dev nD) (w : Fin cfg4.W) (hin : (cfg4.win w).isOut = false) :
    W7 m ρ c (Proc.devRef .tc (Pipeline.arrRef spec4 w)) = W6 m ρ c (Proc.devRef .tc (Pipeline.arrRef spec4 w)) :=
  (W7_arr m ρ c w).trans (((dat4 (V6 m ρ) c).arrAt_in w hin _).trans (A_eq4 (V6 m ρ) c w))

/-! ## The arguments end as launched

No host stretch writes an argument and no region has one as an output window's array: walking the fold back from the
last boundary, each step is one of the three facts above. -/

theorem W7_main_arg0 (c : Dev nD) : W7 m ρ c (Proc.devRef .tc main_arg0) = m ((c : Thread nD τ).loc main_arg0) :=
  calc W7 m ρ c (Proc.devRef .tc main_arg0)
    _ = W6 m ρ c (Proc.devRef .tc main_arg0) := W7_in m ρ c 1 rfl
    _ = W5 m ρ c (Proc.devRef .tc main_arg0) := W6_of m ρ c main_arg0 (by decide)
    _ = W4 m ρ c (Proc.devRef .tc main_arg0) := W5_of_ne m ρ c main_arg0 (by decide)
    _ = W3 m ρ c (Proc.devRef .tc main_arg0) := W4_of_ne m ρ c main_arg0 (by decide)
    _ = W2 m ρ c (Proc.devRef .tc main_arg0) := W3_in m ρ c 2 rfl
    _ = W1 m ρ c (Proc.devRef .tc main_arg0) := W2_in m ρ c 2 rfl
    _ = W0 m ρ c (Proc.devRef .tc main_arg0) := W1_of m ρ c main_arg0 (by decide)
    _ = m ((c : Thread nD τ).loc main_arg0) := rfl

theorem W7_main_arg1 (c : Dev nD) : W7 m ρ c (Proc.devRef .tc main_arg1) = m ((c : Thread nD τ).loc main_arg1) :=
  calc W7 m ρ c (Proc.devRef .tc main_arg1)
    _ = W6 m ρ c (Proc.devRef .tc main_arg1) := W7_of_ne m ρ c main_arg1 (by decide)
    _ = W5 m ρ c (Proc.devRef .tc main_arg1) := W6_of m ρ c main_arg1 (by decide)
    _ = W4 m ρ c (Proc.devRef .tc main_arg1) := W5_of_ne m ρ c main_arg1 (by decide)
    _ = W3 m ρ c (Proc.devRef .tc main_arg1) := W4_of_ne m ρ c main_arg1 (by decide)
    _ = W2 m ρ c (Proc.devRef .tc main_arg1) := W3_of_ne m ρ c main_arg1 (by decide)
    _ = W1 m ρ c (Proc.devRef .tc main_arg1) := W2_of_ne m ρ c main_arg1 (by decide)
    _ = W0 m ρ c (Proc.devRef .tc main_arg1) := W1_of m ρ c main_arg1 (by decide)
    _ = m ((c : Thread nD τ).loc main_arg1) := rfl

theorem W7_main_arg2 (c : Dev nD) : W7 m ρ c (Proc.devRef .tc main_arg2) = m ((c : Thread nD τ).loc main_arg2) :=
  calc W7 m ρ c (Proc.devRef .tc main_arg2)
    _ = W6 m ρ c (Proc.devRef .tc main_arg2) := W7_of_ne m ρ c main_arg2 (by decide)
    _ = W5 m ρ c (Proc.devRef .tc main_arg2) := W6_of m ρ c main_arg2 (by decide)
    _ = W4 m ρ c (Proc.devRef .tc main_arg2) := W5_of_ne m ρ c main_arg2 (by decide)
    _ = W3 m ρ c (Proc.devRef .tc main_arg2) := W4_of_ne m ρ c main_arg2 (by decide)
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := W1_of m ρ c main_arg2 (by decide)
    _ = m ((c : Thread nD τ).loc main_arg2) := rfl

theorem W7_main_arg3 (c : Dev nD) : W7 m ρ c (Proc.devRef .tc main_arg3) = m ((c : Thread nD τ).loc main_arg3) :=
  calc W7 m ρ c (Proc.devRef .tc main_arg3)
    _ = W6 m ρ c (Proc.devRef .tc main_arg3) := W7_of_ne m ρ c main_arg3 (by decide)
    _ = W5 m ρ c (Proc.devRef .tc main_arg3) := W6_of m ρ c main_arg3 (by decide)
    _ = W4 m ρ c (Proc.devRef .tc main_arg3) := W5_of_ne m ρ c main_arg3 (by decide)
    _ = W3 m ρ c (Proc.devRef .tc main_arg3) := W4_of_ne m ρ c main_arg3 (by decide)
    _ = W2 m ρ c (Proc.devRef .tc main_arg3) := W3_in m ρ c 1 rfl
    _ = W1 m ρ c (Proc.devRef .tc main_arg3) := W2_of_ne m ρ c main_arg3 (by decide)
    _ = W0 m ρ c (Proc.devRef .tc main_arg3) := W1_of m ρ c main_arg3 (by decide)
    _ = m ((c : Thread nD τ).loc main_arg3) := rfl

theorem W7_main_arg4 (c : Dev nD) : W7 m ρ c (Proc.devRef .tc main_arg4) = m ((c : Thread nD τ).loc main_arg4) :=
  calc W7 m ρ c (Proc.devRef .tc main_arg4)
    _ = W6 m ρ c (Proc.devRef .tc main_arg4) := W7_of_ne m ρ c main_arg4 (by decide)
    _ = W5 m ρ c (Proc.devRef .tc main_arg4) := W6_of m ρ c main_arg4 (by decide)
    _ = W4 m ρ c (Proc.devRef .tc main_arg4) := W5_of_ne m ρ c main_arg4 (by decide)
    _ = W3 m ρ c (Proc.devRef .tc main_arg4) := W4_of_ne m ρ c main_arg4 (by decide)
    _ = W2 m ρ c (Proc.devRef .tc main_arg4) := W3_of_ne m ρ c main_arg4 (by decide)
    _ = W1 m ρ c (Proc.devRef .tc main_arg4) := W2_in m ρ c 0 rfl
    _ = W0 m ρ c (Proc.devRef .tc main_arg4) := W1_of m ρ c main_arg4 (by decide)
    _ = m ((c : Thread nD τ).loc main_arg4) := rfl

theorem W7_main_arg5 (c : Dev nD) : W7 m ρ c (Proc.devRef .tc main_arg5) = m ((c : Thread nD τ).loc main_arg5) :=
  calc W7 m ρ c (Proc.devRef .tc main_arg5)
    _ = W6 m ρ c (Proc.devRef .tc main_arg5) := W7_of_ne m ρ c main_arg5 (by decide)
    _ = W5 m ρ c (Proc.devRef .tc main_arg5) := W6_of m ρ c main_arg5 (by decide)
    _ = W4 m ρ c (Proc.devRef .tc main_arg5) := W5_of_ne m ρ c main_arg5 (by decide)
    _ = W3 m ρ c (Proc.devRef .tc main_arg5) := W4_in m ρ c 0 rfl
    _ = W2 m ρ c (Proc.devRef .tc main_arg5) := W3_of_ne m ρ c main_arg5 (by decide)
    _ = W1 m ρ c (Proc.devRef .tc main_arg5) := W2_of_ne m ρ c main_arg5 (by decide)
    _ = W0 m ρ c (Proc.devRef .tc main_arg5) := W1_of m ρ c main_arg5 (by decide)
    _ = m ((c : Thread nD τ).loc main_arg5) := rfl

theorem W7_main_arg6 (c : Dev nD) : W7 m ρ c (Proc.devRef .tc main_arg6) = m ((c : Thread nD τ).loc main_arg6) :=
  calc W7 m ρ c (Proc.devRef .tc main_arg6)
    _ = W6 m ρ c (Proc.devRef .tc main_arg6) := W7_of_ne m ρ c main_arg6 (by decide)
    _ = W5 m ρ c (Proc.devRef .tc main_arg6) := W6_of m ρ c main_arg6 (by decide)
    _ = W4 m ρ c (Proc.devRef .tc main_arg6) := W5_of_ne m ρ c main_arg6 (by decide)
    _ = W3 m ρ c (Proc.devRef .tc main_arg6) := W4_of_ne m ρ c main_arg6 (by decide)
    _ = W2 m ρ c (Proc.devRef .tc main_arg6) := W3_in m ρ c 0 rfl
    _ = W1 m ρ c (Proc.devRef .tc main_arg6) := W2_of_ne m ρ c main_arg6 (by decide)
    _ = W0 m ρ c (Proc.devRef .tc main_arg6) := W1_of m ρ c main_arg6 (by decide)
    _ = m ((c : Thread nD τ).loc main_arg6) := rfl

theorem W7_main_arg7 (c : Dev nD) : W7 m ρ c (Proc.devRef .tc main_arg7) = m ((c : Thread nD τ).loc main_arg7) :=
  calc W7 m ρ c (Proc.devRef .tc main_arg7)
    _ = W6 m ρ c (Proc.devRef .tc main_arg7) := W7_of_ne m ρ c main_arg7 (by decide)
    _ = W5 m ρ c (Proc.devRef .tc main_arg7) := W6_of m ρ c main_arg7 (by decide)
    _ = W4 m ρ c (Proc.devRef .tc main_arg7) := W5_in m ρ c 0 rfl
    _ = W3 m ρ c (Proc.devRef .tc main_arg7) := W4_of_ne m ρ c main_arg7 (by decide)
    _ = W2 m ρ c (Proc.devRef .tc main_arg7) := W3_of_ne m ρ c main_arg7 (by decide)
    _ = W1 m ρ c (Proc.devRef .tc main_arg7) := W2_of_ne m ρ c main_arg7 (by decide)
    _ = W0 m ρ c (Proc.devRef .tc main_arg7) := W1_of m ρ c main_arg7 (by decide)
    _ = m ((c : Thread nD τ).loc main_arg7) := rfl

/-! ## The proof data family and the thread state -/

/-- Every pipeline's proof data, each at its region's entry contents. -/
def runDats : (p : Fin 5) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V3 m ρ) c
  | ⟨3, _⟩ => fun c => dat3 (V4 m ρ) c
  | ⟨4, _⟩ => fun c => dat4 (V6 m ρ) c
abbrev run𝒱 : Variants := Variants.none
/-- No core owes another anything: no level is assigned. -/
abbrev runL : GSem nD τ sig → Finset Unit := fun _ => ∅
abbrev runLv : GSem nD τ sig → Unit → ℕ := fun _ _ => 0
/-- What rides beside the buffers through every item: the core's generator register at some state and the core owing
    nothing. -/
abbrev runR (c : Dev nD) : sProp 𝕄 := iprop((∃ r, prngReg c r) ∗ ∃ W, owes (c : Thread nD τ) (0 : CellTallies nD τ sig Unit) W)
/-- A host stretch as an item of the run: over the unscoped buffers from contents `W`, to the contents its operations
    leave, `runR` riding along. -/
abbrev runHost (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ run𝒱 runL runLv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W runR

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state, beside the core owing nothing: every unscoped buffer at the last boundary's contents, the
    generator register at some state. -/
abbrev runEnd (c : Dev nD) : sProp 𝕄 := iprop(StableHlo.held (c : Thread nD τ) (Pipeline.ucRefs τ sig) (W7 m ρ c) ∗ ∃ r, prngReg c r)

/-! ## The regions as items of the run

The four resource shuffles every region needs, each written once. -/

/-- ENTRY. From the unscoped buffers (split by `hsplit` into the region's arrays and the rest), the generator register
    and the core owing nothing: the arrays, no prefetched table, the first tallies (nothing, within any bound), the
    register, the rest. -/
local macro "region_entry " hsplit:term : tactic => `(tactic| (
  rw [Pipeline.ownSems0_none]
  have hsplit := $hsplit
  rw [Pipeline.unscopedBufs_held] at hsplit
  iintro ⟨⟨Hub, Hp, HO⟩, -, -⟩
  ihave H := hsplit $$ Hub
  icases H with ⟨Ha, Hrest⟩
  imodintro
  isplitl [Ha]; · iexact Ha
  isplitr; · unfold Pipeline.prefHeld; rw [show (Finset.univ : Finset (Fin 0)) = ∅ from rfl, BI.bigSep_empty]; iempintro
  isplitl [HO]
  · unfold Pipeline.Dat.owesAt Pipeline.owesWithin
    icases HO with ⟨%W, HO⟩; iexists W; isplitr; · ipureintro; exact fun _ _ => Or.inl trivial
    iexact HO
  isplitl [Hp]; · iexact Hp
  iexact Hrest))

/-- INTO the launch's invariant: the register and the scoped rest (there is no table to drop but the empty one). -/
local macro "invariant_in" : tactic => `(tactic| (
  unfold Pipeline.ΦA
  iintro ⟨Hp, -, Hr⟩
  isplitl [Hr]; · iexact Hr
  iexact Hp))

/-- OUT of the launch's invariant: the register, no semaphore of the kernel's own, the scoped rest. -/
local macro "invariant_out" : tactic => `(tactic| (
  unfold Pipeline.ΦA
  iintro ⟨Hr, Hp⟩
  isplitl [Hp]; · iexact Hp
  isplitr; · iempintro
  iexact Hr))

/-- EXIT. The arrays at their final contents and the rest join (`hjoin`) into the unscoped buffers at the exit
    contents; the register and the core owing nothing ride out. -/
local macro "region_exit " hjoin:term : tactic => `(tactic| (
  have hjoin := $hjoin
  rw [Pipeline.unscopedBufs_held] at hjoin
  iintro ⟨Ha, HO, HY, Hrest⟩
  imodintro
  isplitl [Ha Hrest]
  · iapply hjoin; isplitl [Ha] <;> iassumption
  isplitl [HY]; · iexact HY
  unfold Pipeline.Dat.owesAt Pipeline.owesWithin
  icases HO with ⟨%W, -, HO⟩; iexists W; iexact HO))

/-- The same for the last item, whose exit state is bracketed as the run's end wants it. -/
local macro "region_exit_last " hjoin:term : tactic => `(tactic| (
  have hjoin := $hjoin
  rw [Pipeline.unscopedBufs_held] at hjoin
  iintro ⟨Ha, HO, HY, Hrest⟩
  imodintro
  isplitl [Ha Hrest HY]
  · isplitl [Ha Hrest]
    · iapply hjoin; isplitl [Ha] <;> iassumption
    iexact HY
  unfold Pipeline.Dat.owesAt Pipeline.owesWithin
  icases HO with ⟨%W, -, HO⟩; iexists W; iexact HO))

set_option backward.isDefEq.respectTransparency.types false in
/-- Region 0, the first gather: its arrays are the source words, the scalar weight column, the features and the message array it writes. Entered holding every unscoped buffer at `W1`, left
    holding them at `W2`: the arrays are split out of the unscoped buffers at entry and joined back, at what the
    write-backs fold to, at exit; the generator register passes through the invariant, which before the first point and
    after the last is the launch's own (`hin0`, `hout0`): the scratch accumulator is taken out of the scoped rest and put back. -/
def runReg0 : Pipeline.RegionSeg (pcfgs (F := F)) adm (runDats m ρ) () defs₀ run𝒱 runL runLv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ runL runLv 0 fun _ _ => rfl
  pre c := iprop(StableHlo.held (c : Thread nD τ) (Pipeline.ucRefs τ sig) (W1 m ρ c) ∗ runR c)
  post c := iprop(StableHlo.held (c : Thread nD τ) (Pipeline.ucRefs τ sig) (W2 m ρ c) ∗ runR c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    region_entry (Pipeline.arrays_of_unscopedBufs (p := 0) (pcfgs (F := F)) adm (runDats m ρ) launch0.win launch0.arr_whole c
      ((runDats m ρ 0 c).share_full fun _ => rfl) (V1 m ρ c) fun _ => rfl)
  hin c := by
    rw [show (runDats m ρ 0 c).Φ 0 = (dat0 (V1 m ρ) c).Φ 0 from rfl]
    refine BIBase.Entails.trans ?_ (hin0 (V1 m ρ) c)
    invariant_in
  hout c := by
    rw [Pipeline.ownSems0_none, show (runDats m ρ 0 c).Φ (Fin.last _) = (dat0 (V1 m ρ) c).Φ (Fin.last cfg0.N) from rfl]
    refine BIBase.Entails.trans (hout0 (V1 m ρ) c) ?_
    invariant_out
  hexit c := by
    region_exit (Pipeline.unscopedBufs_of_arrays (p := 0) (pcfgs (F := F)) adm (Ix := Unit) (Name := ℕ) (U := UR sig nD τ) (Lvl := ℕ)
      launch0.win launch0.arr_whole c (runDats m ρ) ((runDats m ρ 0 c).share_full fun _ => rfl)
      (V1 m ρ c) (V2 m ρ c) ((runDats m ρ 0 c).arrAt · cfg0.N) (hF0 m ρ c) (hrest0 m ρ c))

set_option backward.isDefEq.respectTransparency.types false in
/-- Region 1, the second gather: its arrays are the source words, the weight tile, the features and the message array it writes. Entered holding every unscoped buffer at `W2`, left
    holding them at `W3`: the arrays are split out of the unscoped buffers at entry and joined back, at what the
    write-backs fold to, at exit; the generator register passes through the invariant, which before the first point and
    after the last is the launch's own (`hin1`, `hout1`): the scratch accumulator is taken out of the scoped rest and put back. -/
def runReg1 : Pipeline.RegionSeg (pcfgs (F := F)) adm (runDats m ρ) () defs₀ run𝒱 runL runLv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ runL runLv 1 fun _ _ => rfl
  pre c := iprop(StableHlo.held (c : Thread nD τ) (Pipeline.ucRefs τ sig) (W2 m ρ c) ∗ runR c)
  post c := iprop(StableHlo.held (c : Thread nD τ) (Pipeline.ucRefs τ sig) (W3 m ρ c) ∗ runR c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    region_entry (Pipeline.arrays_of_unscopedBufs (p := 1) (pcfgs (F := F)) adm (runDats m ρ) launch1.win launch1.arr_whole c
      ((runDats m ρ 1 c).share_full fun _ => rfl) (V2 m ρ c) fun _ => rfl)
  hin c := by
    rw [show (runDats m ρ 1 c).Φ 0 = (dat1 (V2 m ρ) c).Φ 0 from rfl]
    refine BIBase.Entails.trans ?_ (hin1 (V2 m ρ) c)
    invariant_in
  hout c := by
    rw [Pipeline.ownSems0_none, show (runDats m ρ 1 c).Φ (Fin.last _) = (dat1 (V2 m ρ) c).Φ (Fin.last cfg1.N) from rfl]
    refine BIBase.Entails.trans (hout1 (V2 m ρ) c) ?_
    invariant_out
  hexit c := by
    region_exit (Pipeline.unscopedBufs_of_arrays (p := 1) (pcfgs (F := F)) adm (Ix := Unit) (Name := ℕ) (U := UR sig nD τ) (Lvl := ℕ)
      launch1.win launch1.arr_whole c (runDats m ρ) ((runDats m ρ 1 c).share_full fun _ => rfl)
      (V2 m ρ c) (V3 m ρ c) ((runDats m ρ 1 c).arrAt · cfg1.N) (hF1 m ρ c) (hrest1 m ρ c))

set_option backward.isDefEq.respectTransparency.types false in
/-- Region 2, the first scatter: its arrays are the destination words, the first gather's messages and the sum array it writes. Entered holding every unscoped buffer at `W3`, left
    holding them at `W4`: the arrays are split out of the unscoped buffers at entry and joined back, at what the
    write-backs fold to, at exit; the generator register passes through the invariant, which before the first point and
    after the last is the launch's own (`hin2`, `hout2`): the scratch accumulator is taken out of the scoped rest and put back. -/
def runReg2 : Pipeline.RegionSeg (pcfgs (F := F)) adm (runDats m ρ) () defs₀ run𝒱 runL runLv 2 where
  win := launch2.win.to₀
  block_pos := launch2.block_pos
  stage_whole := launch2.stage_whole
  K := PEmpty
  osem k := k.elim
  ho := Pipeline.OwnSemFacts.none _
  hbody c := (body_obligation2 (V3 m ρ) c).loose
  hwaits := Pipeline.hwaits_of_owed_zero _ _ _ _ runL runLv 2 fun _ _ => rfl
  pre c := iprop(StableHlo.held (c : Thread nD τ) (Pipeline.ucRefs τ sig) (W3 m ρ c) ∗ runR c)
  post c := iprop(StableHlo.held (c : Thread nD τ) (Pipeline.ucRefs τ sig) (W4 m ρ c) ∗ runR c)
  X c := iprop(∃ r, prngReg c r)
  Y c := iprop(∃ r, prngReg c r)
  Z c := Pipeline.unscopedRest (Ix := Unit) (Name := ℕ) (U := UR sig nD τ) (Lvl := ℕ) spec2 c (V3 m ρ c)
  hentry c := by
    region_entry (Pipeline.arrays_of_unscopedBufs (p := 2) (pcfgs (F := F)) adm (runDats m ρ) launch2.win launch2.arr_whole c
      ((runDats m ρ 2 c).share_full fun _ => rfl) (V3 m ρ c) fun _ => rfl)
  hin c := by
    rw [show (runDats m ρ 2 c).Φ 0 = (dat2 (V3 m ρ) c).Φ 0 from rfl]
    refine BIBase.Entails.trans ?_ (hin2 (V3 m ρ) c)
    invariant_in
  hout c := by
    rw [Pipeline.ownSems0_none, show (runDats m ρ 2 c).Φ (Fin.last _) = (dat2 (V3 m ρ) c).Φ (Fin.last cfg2.N) from rfl]
    refine BIBase.Entails.trans (hout2 (V3 m ρ) c) ?_
    invariant_out
  hexit c := by
    region_exit (Pipeline.unscopedBufs_of_arrays (p := 2) (pcfgs (F := F)) adm (Ix := Unit) (Name := ℕ) (U := UR sig nD τ) (Lvl := ℕ)
      launch2.win launch2.arr_whole c (runDats m ρ) ((runDats m ρ 2 c).share_full fun _ => rfl)
      (V3 m ρ c) (V4 m ρ c) ((runDats m ρ 2 c).arrAt · cfg2.N) (hF2 m ρ c) (hrest2 m ρ c))

set_option backward.isDefEq.respectTransparency.types false in
/-- Region 3, the second scatter: its arrays are the destination words, the second gather's messages and the sum array it writes. Entered holding every unscoped buffer at `W4`, left
    holding them at `W5`: the arrays are split out of the unscoped buffers at entry and joined back, at what the
    write-backs fold to, at exit; the generator register passes through the invariant, which before the first point and
    after the last is the launch's own (`hin3`, `hout3`): the scratch accumulator is taken out of the scoped rest and put back. -/
def runReg3 : Pipeline.RegionSeg (pcfgs (F := F)) adm (runDats m ρ) () defs₀ run𝒱 runL runLv 3 where
  win := launch3.win.to₀
  block_pos := launch3.block_pos
  stage_whole := launch3.stage_whole
  K := PEmpty
  osem k := k.elim
  ho := Pipeline.OwnSemFacts.none _
  hbody c := (body_obligation3 (V4 m ρ) c).loose
  hwaits := Pipeline.hwaits_of_owed_zero _ _ _ _ runL runLv 3 fun _ _ => rfl
  pre c := iprop(StableHlo.held (c : Thread nD τ) (Pipeline.ucRefs τ sig) (W4 m ρ c) ∗ runR c)
  post c := iprop(StableHlo.held (c : Thread nD τ) (Pipeline.ucRefs τ sig) (W5 m ρ c) ∗ runR c)
  X c := iprop(∃ r, prngReg c r)
  Y c := iprop(∃ r, prngReg c r)
  Z c := Pipeline.unscopedRest (Ix := Unit) (Name := ℕ) (U := UR sig nD τ) (Lvl := ℕ) spec3 c (V4 m ρ c)
  hentry c := by
    region_entry (Pipeline.arrays_of_unscopedBufs (p := 3) (pcfgs (F := F)) adm (runDats m ρ) launch3.win launch3.arr_whole c
      ((runDats m ρ 3 c).share_full fun _ => rfl) (V4 m ρ c) fun _ => rfl)
  hin c := by
    rw [show (runDats m ρ 3 c).Φ 0 = (dat3 (V4 m ρ) c).Φ 0 from rfl]
    refine BIBase.Entails.trans ?_ (hin3 (V4 m ρ) c)
    invariant_in
  hout c := by
    rw [Pipeline.ownSems0_none, show (runDats m ρ 3 c).Φ (Fin.last _) = (dat3 (V4 m ρ) c).Φ (Fin.last cfg3.N) from rfl]
    refine BIBase.Entails.trans (hout3 (V4 m ρ) c) ?_
    invariant_out
  hexit c := by
    region_exit (Pipeline.unscopedBufs_of_arrays (p := 3) (pcfgs (F := F)) adm (Ix := Unit) (Name := ℕ) (U := UR sig nD τ) (Lvl := ℕ)
      launch3.win launch3.arr_whole c (runDats m ρ) ((runDats m ρ 3 c).share_full fun _ => rfl)
      (V4 m ρ c) (V5 m ρ c) ((runDats m ρ 3 c).arrAt · cfg3.N) (hF3 m ρ c) (hrest3 m ρ c))

set_option backward.isDefEq.respectTransparency.types false in
/-- Region 4, the fused pointwise kernel: its arrays are the scale column, the features, the two sums and the result it writes. Entered holding every unscoped buffer at `W6`, left
    holding them at `W7`: the arrays are split out of the unscoped buffers at entry and joined back, at what the
    write-backs fold to, at exit; the generator register passes through the invariant. -/
def runReg4 : Pipeline.RegionSeg (pcfgs (F := F)) adm (runDats m ρ) () defs₀ run𝒱 runL runLv 4 where
  win := launch4.win.to₀
  block_pos := launch4.block_pos
  stage_whole := launch4.stage_whole
  K := PEmpty
  osem k := k.elim
  ho := Pipeline.OwnSemFacts.none _
  hbody c := (body_obligation4 (V6 m ρ) c).loose
  hwaits := Pipeline.hwaits_of_owed_zero _ _ _ _ runL runLv 4 fun _ _ => rfl
  pre c := iprop(StableHlo.held (c : Thread nD τ) (Pipeline.ucRefs τ sig) (W6 m ρ c) ∗ runR c)
  post c := iprop(runEnd m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec4 c (V6 m ρ c)
  hentry c := by
    region_entry (Pipeline.arrays_of_unscopedBufs (p := 4) (pcfgs (F := F)) adm (runDats m ρ) launch4.win launch4.arr_whole c
      ((runDats m ρ 4 c).share_full fun _ => rfl) (V6 m ρ c) fun _ => rfl)
  hin c := by
    rw [show (runDats m ρ 4 c).Φ 0 = Pipeline.ΦA spec4 c from rfl]
    invariant_in
  hout c := by
    rw [Pipeline.ownSems0_none, show (runDats m ρ 4 c).Φ (Fin.last _) = Pipeline.ΦA spec4 c from rfl]
    invariant_out
  hexit c := by
    region_exit_last (Pipeline.unscopedBufs_of_arrays (p := 4) (pcfgs (F := F)) adm (Ix := Unit) (Name := ℕ) (U := UR sig nD τ) (Lvl := ℕ)
      launch4.win launch4.arr_whole c (runDats m ρ) ((runDats m ρ 4 c).share_full fun _ => rfl)
      (V6 m ρ c) (V7 m ρ c) ((runDats m ρ 4 c).arrAt · cfg4.N) (hF4 m ρ c) (hrest4 m ρ c))

/-! ## @main as the list of its items, and the launch -/

/-- @main's seven items in order. -/
abbrev runSegs : List (Pipeline.Seg (pcfgs (F := F)) adm (runDats m ρ) () defs₀ run𝒱 runL runLv) :=
  [ .host (runHost hostOps0 hostOps0_sub hostOps0_fresh (W0 m ρ)),
    .region (runReg0 m ρ),
    .region (runReg1 m ρ),
    .region (runReg2 m ρ),
    .region (runReg3 m ρ),
    .host (runHost hostOps4 hostOps4_sub hostOps4_fresh (W5 m ρ)),
    .region (runReg4 m ρ) ]
/-- @main is the run of the items. -/
theorem main_run (c : Dev nD) : main (F := F) c = Pipeline.Seg.run (runSegs m ρ) := (main_chain c).trans (by chain_rfl)

set_option backward.isDefEq.respectTransparency.types false in
/-- THE RUN. From any memory with zero counters every weakly fair execution of @main terminates, nothing faulting, and
    in every final state each unscoped buffer of every core holds the fold's last contents `W7`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm (runDats m ρ) () cellOf_inj emb₁ defs₀ run𝒱 runL runLv m ρ main (runSegs m ρ)
    (fun c Q => by rw [main_run m ρ c])
    (by simp only [runSegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ runR c)) (Tₙ := runEnd m ρ)
    (hch := ⟨fun _ => .rfl, fun _ => .rfl, fun _ => .rfl, fun _ => .rfl, fun _ => .rfl, fun _ => .rfl, fun _ => .rfl, fun _ => .rfl⟩)
    (hinit := by
      refine Pipeline.initEach runL runLv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h => h)

/-- THE FRAME. Every argument array ends holding its launch contents: the run's reading at each argument's buffer,
    walked back through the fold. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) := by
  have hrun := run_all m ρ
  revert hrun
  refine OrdCont.mono (θ_run defs (onTc (τ := τ) (main (F := F))) ⟨m, fun _ => 0, ρ⟩) (fun r h c => ?_)
  exact ⟨(h c _ (mem_uc main_arg0 (by decide))).trans (W7_main_arg0 m ρ c),
      (h c _ (mem_uc main_arg1 (by decide))).trans (W7_main_arg1 m ρ c),
      (h c _ (mem_uc main_arg2 (by decide))).trans (W7_main_arg2 m ρ c),
      (h c _ (mem_uc main_arg3 (by decide))).trans (W7_main_arg3 m ρ c),
      (h c _ (mem_uc main_arg4 (by decide))).trans (W7_main_arg4 m ρ c),
      (h c _ (mem_uc main_arg5 (by decide))).trans (W7_main_arg5 m ρ c),
      (h c _ (mem_uc main_arg6 (by decide))).trans (W7_main_arg6 m ρ c),
      (h c _ (mem_uc main_arg7 (by decide))).trans (W7_main_arg7 m ρ c)⟩

end Cert.KernelIdeal.Hand

end
-- ==== Proof.LibGatherScatter.lean ====
import Idealize.ShloMosaic.PureOps.Ideal
import Idealize.ShloMosaic.Lib.ValueIdx
import Idealize.ShloMosaic.Lib.ValueIdxRank1
import Mathlib.Algebra.BigOperators.Group.Finset.Basic

/-!
# Row gathers and segment scatters, read at an index

`table[ids]` for a table of `N` rows of length `C` and `n` ids lowers to a gather whose start indices are the
ids as an `[n, 1]` array: result row `t` is the table's row at the id, read as a signed integer and clamped into
`[0, N - 1]`. A segment sum (`segment_sum(v, ids, K)`) lowers to a scatter-add of the `n` updates into `K`
zeros at the ids as an `[n, 1]` array: update `t` lands on element `s` exactly when the id, read signed and NOT
clamped, is `s`; an id outside `[0, K)` lands nowhere.
-/

noncomputable section

open scoped BigOperators
open Idealize.ShloMosaic Idealize.ShloMosaic.ValueIdx

namespace Cert.Lib

/-- The row a start word selects among `N` rows: the word read as a signed integer, clamped into `[0, N - 1]`. -/
def clampRow (N : Nat) (hN : 0 < N) (w : BitVec 32) : Fin N := ⟨min w.toInt.toNat (N - 1), by omega⟩

/-- A negative index counted from the end: `w + n` when `w < 0` (signed), else `w`. -/
def normIdx (n w : BitVec 32) : BitVec 32 := Scalar.select (IntOp.cmpi .slt w 0#32) (IntOp.addi w n) w

/-- The dimension numbers of a row gather: operand `[N, C]`, start indices `[n, 1]`, result `[n, C]`. -/
abbrev rowGatherDims (N C n : Nat)
    (wf : GatherDims.WF ⟨2, ![N, C]⟩ ⟨2, ![n, 1]⟩ ⟨2, ![n, C]⟩ [1] [0] [] [0] [] 1 ![1, C]) :
    GatherDims ⟨2, ![N, C]⟩ ⟨2, ![n, 1]⟩ ⟨2, ![n, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(t, k)`: the operand's row at the clamped start word, place `k`. -/
theorem gather_rows_apply {α : Type} {N C n : Nat} (hN : 0 < N)
    (wf : GatherDims.WF ⟨2, ![N, C]⟩ ⟨2, ![n, 1]⟩ ⟨2, ![n, C]⟩ [1] [0] [] [0] [] 1 ![1, C])
    (x : (⟨2, ![N, C]⟩ : Shape).Idx → α) (idx : IVec ⟨2, ![n, 1]⟩ 32) (t : Fin n) (k : Fin C) :
    Host.gather (rowGatherDims N C n wf) x idx (ix2 t k) = x (ix2 (clampRow N hN (idx (ix2 t 0))) k) := by
  unfold Host.gather
  congr 1
  -- axis 0 is collapsed and start-indexed: the clamped start word, no batching and no offset coordinate
  have h0 : (rowGatherDims N C n wf).start (ix2 t k) idx (0 : Fin 2) + (rowGatherDims N C n wf).batchCoord (ix2 t k) (0 : Fin 2)
      + (rowGatherDims N C n wf).offCoord (ix2 t k) (0 : Fin 2) = (clampRow N hN (idx (ix2 t 0))).val := by
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N C n wf).startIndexMap from List.mem_singleton.mpr rfl)]
    have hsi : (rowGatherDims N C n wf).siIdx (ix2 t k) ⟨List.idxOf (0 : Fin 2) (rowGatherDims N C n wf).startIndexMap,
        List.idxOf_lt_length_iff.2 (List.mem_singleton.mpr rfl)⟩ = ix2 t 0 := by
      funext b; refine Fin.ext ?_
      match b with
      | ⟨0, _⟩ => rfl
      | ⟨1, _⟩ => rfl
    rw [hsi]
    rfl
  -- axis 1 is kept and not start-indexed: start 0, and the offset coordinate is the result's second coordinate
  have h1 : (rowGatherDims N C n wf).start (ix2 t k) idx (1 : Fin 2) + (rowGatherDims N C n wf).batchCoord (ix2 t k) (1 : Fin 2)
      + (rowGatherDims N C n wf).offCoord (ix2 t k) (1 : Fin 2) = k.val := by
    rw [GatherDims.batchCoord_eq_zero _ _ _ List.not_mem_nil]
    have hnot : (1 : Fin 2) ∉ (rowGatherDims N C n wf).startIndexMap := by
      show (1 : Fin 2) ∉ ([0] : List (Fin 2))
      decide
    have hk : (1 : Fin 2) ∈ (rowGatherDims N C n wf).sKept := by
      rw [GatherDims.mem_sKept]
      refine ⟨?_, List.not_mem_nil⟩
      show (1 : Fin 2) ∉ ([0] : List (Fin 2))
      decide
    unfold GatherDims.start
    rw [dif_neg hnot]
    simp only [Nat.zero_add, Nat.add_zero]
    unfold GatherDims.offCoord
    rw [dif_pos hk]
    rfl
  funext a
  refine Fin.ext ?_
  match a with
  | ⟨0, _⟩ => exact h0
  | ⟨1, _⟩ => exact h1

/-- The dimension numbers of an element gather from a flat table: operand `[N]`, start indices `[n, 1]`, result `[n]`. -/
abbrev eltGatherDims (N n : Nat)
    (wf : GatherDims.WF ⟨1, ![N]⟩ ⟨2, ![n, 1]⟩ ⟨1, ![n]⟩ [] [0] [] [0] [] 1 ![1]) :
    GatherDims ⟨1, ![N]⟩ ⟨2, ![n, 1]⟩ ⟨1, ![n]⟩ where
  offsetDims := []
  collapsedSliceDims := [0]
  operandBatchingDims := []
  startIndicesBatchingDims := []
  startIndexMap := [0]
  indexVectorDim := 1
  sliceSizes := ![1]
  wf := wf

/-- THE ELEMENT GATHER READ AT `t`: the table at the clamped start word. -/
theorem gather_elts_apply {α : Type} {N n : Nat} (hN : 0 < N)
    (wf : GatherDims.WF ⟨1, ![N]⟩ ⟨2, ![n, 1]⟩ ⟨1, ![n]⟩ [] [0] [] [0] [] 1 ![1])
    (x : (⟨1, ![N]⟩ : Shape).Idx → α) (idx : IVec ⟨2, ![n, 1]⟩ 32) (t : Fin n) :
    Host.gather (eltGatherDims N n wf) x idx (ix1 t) = x (ix1 (clampRow N hN (idx (ix2 t 0)))) := by
  unfold Host.gather
  congr 1
  funext a
  obtain rfl : a = 0 := Subsingleton.elim _ _
  refine Fin.ext ?_
  show (eltGatherDims N n wf).start (ix1 t) idx 0 + (eltGatherDims N n wf).batchCoord (ix1 t) 0
    + (eltGatherDims N n wf).offCoord (ix1 t) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (eltGatherDims N n wf).startIndexMap from List.mem_singleton.mpr rfl)]
  have hsi : (eltGatherDims N n wf).siIdx (ix1 t) ⟨List.idxOf (0 : Fin 1) (eltGatherDims N n wf).startIndexMap,
      List.idxOf_lt_length_iff.2 (List.mem_singleton.mpr rfl)⟩ = ix2 t 0 := by
    funext b; refine Fin.ext ?_
    match b with
    | ⟨0, _⟩ => rfl
    | ⟨1, _⟩ => rfl
  rw [hsi]
  rfl

/-- The dimension numbers of a segment scatter: operand `[K]`, scatter indices `[n, 1]`, updates `[n]`. -/
abbrev segScatterDims (K n : Nat) (wf : ScatterDims.WF ⟨1, ![K]⟩ ⟨2, ![n, 1]⟩ ⟨1, ![n]⟩ [] [0] [0] 1) :
    ScatterDims ⟨1, ![K]⟩ ⟨2, ![n, 1]⟩ ⟨1, ![n]⟩ where
  updateWindowDims := []
  insertedWindowDims := [0]
  scatterDimsToOperandDims := [0]
  indexVectorDim := 1
  wf := wf

/-- Update `t` of a segment scatter lands on element `s` exactly when its index word, read signed, is `s`. -/
theorem segScatter_resultIdx_iff {K n : Nat} (wf : ScatterDims.WF ⟨1, ![K]⟩ ⟨2, ![n, 1]⟩ ⟨1, ![n]⟩ [] [0] [0] 1)
    (idx : IVec ⟨2, ![n, 1]⟩ 32) (t : Fin n) (s : Fin K) :
    (segScatterDims K n wf).resultIdx? (ix1 t) idx = some (ix1 s) ↔ (idx (ix2 t 0)).toInt = (s.val : Int) := by
  -- on the operand's one axis the start is the index word read signed, and the window coordinate is 0 (the axis is inserted)
  have hstart : (segScatterDims K n wf).start (ix1 t) idx (0 : Fin 1) = (idx (ix2 t 0)).toInt := by
    unfold ScatterDims.start
    rw [dif_pos (show (0 : Fin 1) ∈ (segScatterDims K n wf).scatterDimsToOperandDims from List.mem_singleton.mpr rfl)]
    have hsi : (segScatterDims K n wf).siIdx (ix1 t) ⟨List.idxOf (0 : Fin 1) (segScatterDims K n wf).scatterDimsToOperandDims,
        List.idxOf_lt_length_iff.2 (List.mem_singleton.mpr rfl)⟩ = ix2 t 0 := by
      funext b; refine Fin.ext ?_
      match b with
      | ⟨0, _⟩ => rfl
      | ⟨1, _⟩ => rfl
    rw [hsi]
  have hwin : (segScatterDims K n wf).window (ix1 t) (0 : Fin 1) = 0 := by
    unfold ScatterDims.window
    rw [dif_neg]
    show (0 : Fin 1) ∉ (⟨1, ![K]⟩ : Shape).kept [0]
    simp [Shape.kept]
  have hsz : (⟨1, ![K]⟩ : Shape).size (0 : Fin 1) = K := rfl
  have hs := s.isLt
  unfold ScatterDims.resultIdx?
  constructor
  · intro h
    split at h
    · rename_i hin
      have h2 := congrArg Fin.val (congrFun (Option.some.inj h) (0 : Fin 1))
      have h3 := (hin 0).1
      rw [hstart, hwin] at h3
      change ((segScatterDims K n wf).start (ix1 t) idx 0 + ((segScatterDims K n wf).window (ix1 t) 0 : Nat)).toNat = s.val at h2
      rw [hstart, hwin] at h2
      omega
    · exact absurd h (by simp)
  · intro hv
    have hin : ∀ a, 0 ≤ (segScatterDims K n wf).start (ix1 t) idx a + ((segScatterDims K n wf).window (ix1 t) a : Nat)
        ∧ (segScatterDims K n wf).start (ix1 t) idx a + ((segScatterDims K n wf).window (ix1 t) a : Nat)
          < ((⟨1, ![K]⟩ : Shape).size a : Nat) := by
      intro a
      obtain rfl : a = 0 := Subsingleton.elim _ _
      rw [hstart, hwin, hv, hsz]
      omega
    rw [dif_pos hin]
    congr 1
    funext a
    obtain rfl : a = 0 := Subsingleton.elim _ _
    refine Fin.ext ?_
    show ((segScatterDims K n wf).start (ix1 t) idx 0 + ((segScatterDims K n wf).window (ix1 t) 0 : Nat)).toNat = s.val
    rw [hstart, hwin, hv]
    simp

/-- A signed 32-bit word is the small natural `s` exactly when it is the word of `s`. -/
theorem toInt_eq_iff_eq_ofNat (w : BitVec 32) (s : Nat) (hs : s < 2 ^ 31) :
    w.toInt = (s : Int) ↔ w = BitVec.ofNat 32 s := by
  constructor
  · intro h
    have h2 := congrArg (BitVec.ofInt 32) h
    rwa [BitVec.ofInt_toInt, BitVec.ofInt_natCast] at h2
  · rintro rfl
    rw [BitVec.toInt_eq_toNat_cond, BitVec.toNat_ofNat]
    have hmod : s % 2 ^ 32 = s := Nat.mod_eq_of_lt (by omega)
    rw [hmod, if_pos (by omega)]

/-- THE SEGMENT SCATTER-ADD READ AT `s` (at the ideal instance): the operand's element plus the sum of the updates
    whose index word is the word of `s`. -/
theorem hostScatterAdd_seg_apply {K n : Nat} (hK : K ≤ 2 ^ 31)
    (wf : ScatterDims.WF ⟨1, ![K]⟩ ⟨2, ![n, 1]⟩ ⟨1, ![n]⟩ [] [0] [0] 1)
    (x : (⟨1, ![K]⟩ : Shape).Idx → EReal) (idx : IVec ⟨2, ![n, 1]⟩ 32) (upd : (⟨1, ![n]⟩ : Shape).Idx → EReal)
    (s : Fin K) :
    Ideal.hostScatterAdd (segScatterDims K n wf) x idx upd (ix1 s)
      = x (ix1 s) + ∑ t ∈ Finset.univ.filter (fun t : Fin n => idx (ix2 t 0) = BitVec.ofNat 32 s.val), upd (ix1 t) := by
  unfold Ideal.hostScatterAdd
  congr 1
  -- re-index the updates' rank-1 indices by their coordinate; an update lands on `s` iff its word is the word of `s`
  refine Finset.sum_equiv idxEquiv1 ?_ ?_
  · intro j
    obtain ⟨t, rfl⟩ : ∃ t : Fin n, j = ix1 t := ⟨j 0, eq_ix1 j⟩
    simp only [Finset.mem_filter, Finset.mem_univ, true_and]
    show _ ↔ idx (ix2 t 0) = BitVec.ofNat 32 s.val
    rw [segScatter_resultIdx_iff, toInt_eq_iff_eq_ofNat _ _ (by have := s.isLt; omega)]
  · intro j _
    obtain ⟨t, rfl⟩ : ∃ t : Fin n, j = ix1 t := ⟨j 0, eq_ix1 j⟩
    rfl

end Cert.Lib

end
-- ==== Proof.Spec.lean ====
import Idealize.ShloMosaic.PureOps.Ideal
import Idealize.ShloMosaic.Lib.ValueIdx
import Idealize.ShloMosaic.Lib.ValueIdxRank1
import Mathlib.Algebra.BigOperators.Group.Finset.Basic
import proofs.«423799_j14568529068221_1_alg».proof.Proof.LibGatherScatter

/-!
# The result as one function of the arguments

Nodes carry feature rows `feat[n, :]` (100000 rows of 128). Two edge sets of 640000 edges each send messages along
`src → dst`. On the first set edge `e` sends its source row scaled by the scalar `e_sim[e, 1]`; on the second it sends
its source row multiplied entry by entry with `e_cor[e, :]`. Each node sums the messages whose destination word is
the node's own number (a destination word outside the node range reaches nobody). The result at node `n`, column
`d` is `max(S₁ · S₂, 0) + self_alpha[n, 1] · feat[n, d]`, where `S₁`, `S₂` are the two sums.

The result is stated as a composition of four array-level functions — a scaled row gather, a row gather multiplied
entry by entry, a segment sum and the fused pointwise step — so that each stage of either program is compared with one
of them.
-/

noncomputable section

open scoped BigOperators
open Idealize.ShloMosaic Idealize.ShloMosaic.ValueIdx

namespace Cert.Spec

/-- The arrays' index types, by their literal shapes: node features `[100000, 128]`, the per-node pair
    `[100000, 2]` and its one column `[100000, 1]`, edge weights `[640000, 128]`, their one column `[640000, 1]`, and the
    per-edge words and scalars `[640000]`. -/
abbrev SFeat : Shape := ⟨2, ![100000, 128]⟩
abbrev SAlpha : Shape := ⟨2, ![100000, 2]⟩
abbrev SACol : Shape := ⟨2, ![100000, 1]⟩
abbrev SEdge : Shape := ⟨2, ![640000, 128]⟩
abbrev SECol : Shape := ⟨2, ![640000, 1]⟩
abbrev SIds : Shape := ⟨1, ![640000]⟩

/-- Every entry of an array is a real number (neither infinity). -/
def Finite {S : Shape} (x : S.Idx → EReal) : Prop := ∀ i, ∃ r : ℝ, x i = (r : EReal)

/-- Every source word is the word of a node number. -/
def InRange (src : SIds.Idx → BitVec 32) : Prop := ∀ e : Fin 640000, ∃ n : Fin 100000, src (ix1 e) = BitVec.ofNat 32 n.val

/-- The source row an edge's source word selects (the word read signed, kept inside the node range). -/
def srcRow (w : BitVec 32) : Fin 100000 := Cert.Lib.clampRow 100000 (by decide) w

/-- A row gather scaled by one scalar per edge: edge `e`, column `d` holds the source row's entry times `w[e]`. -/
def gatherScaled (feat : SFeat.Idx → EReal) (w : SIds.Idx → EReal) (src : SIds.Idx → BitVec 32) : SEdge.Idx → EReal :=
  fun i => feat (ix2 (srcRow (src (ix1 (i 0)))) (i 1)) * w (ix1 (i 0))

/-- A row gather multiplied entry by entry: edge `e`, column `d` holds the source row's entry times `w[e, d]`. -/
def gatherMul (feat : SFeat.Idx → EReal) (w : SEdge.Idx → EReal) (src : SIds.Idx → BitVec 32) : SEdge.Idx → EReal :=
  fun i => feat (ix2 (srcRow (src (ix1 (i 0)))) (i 1)) * w i

/-- The segment sum: node `n`, column `d` holds the sum of the messages' column `d` over the edges whose destination
    word is the word of `n`. -/
def segSumArr (msg : SEdge.Idx → EReal) (dst : SIds.Idx → BitVec 32) : SFeat.Idx → EReal :=
  fun i => ∑ e ∈ Finset.univ.filter (fun e : Fin 640000 => dst (ix1 e) = BitVec.ofNat 32 (i 0).val), msg (ix2 e (i 1))

/-- The fused pointwise step: `max(S₁ · S₂, 0) + scale[n] · feat[n, d]`. -/
def fuse (scale : SACol.Idx → EReal) (feat eh ih : SFeat.Idx → EReal) : SFeat.Idx → EReal :=
  fun i => max (eh i * ih i) 0 + scale (ix2 (i 0) (0 : Fin 1)) * feat i

/-- Column 1 of the first edge-weight array, as one scalar per edge. -/
def weightCol (esim : SEdge.Idx → EReal) : SIds.Idx → EReal := fun j => esim (ix2 (j 0) (1 : Fin 128))

/-- Column 1 of the per-node pair, as a one-column array. -/
def scaleCol (alpha : SAlpha.Idx → EReal) : SACol.Idx → EReal := fun j => alpha (ix2 (j 0) (1 : Fin 2))

/-- THE RESULT ARRAY. -/
def G (feat : SFeat.Idx → EReal) (alpha : SAlpha.Idx → EReal) (esim ecor : SEdge.Idx → EReal)
    (srcS dstS srcC dstC : SIds.Idx → BitVec 32) : SFeat.Idx → EReal :=
  fuse (scaleCol alpha) feat
    (segSumArr (gatherScaled feat (weightCol esim) srcS) dstS)
    (segSumArr (gatherMul feat ecor srcC) dstC)

end Cert.Spec

end
-- ==== Proof.KI.R0Value.lean ====
import proofs.«423799_j14568529068221_1_alg».proof.Proof.KI.R0Defs
import proofs.«423799_j14568529068221_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx
open scoped BigOperators

variable {F : FTy → Type} [FloatOps F]

local notation "𝕄" => MT nD τ sig Unit (Elt F) ℕ (UR sig nD τ) ℕ

open Cert.Spec

variable (V : (c : Dev nD) → (b : Ref sig .tc) → Buf (Elt Ideal) ((c : Thread nD τ).loc b))

/-! # Region 0's value: a row gather by one-hot products, scaled per edge

Point `t = 20·q + k` of the grid handles edge tile `q` (edges `1024·q … 1024·q + 1023`) and node tile `k` (nodes
`5000·k … 5000·k + 4999`). The step adds, to the accumulator's entry at edge `e` and column `d`, the sum over the
tile's rows `n` of `sel · feat[5000·k + n, d]`, where `sel` is 1 if the edge's source word is the word of node
`5000·k + n` and 0 otherwise; the run starts from zero. For a source word that names a node `r` exactly one tile and
one row have `sel = 1`, so after the run's twenty points the entry is `feat[r, d]`; the last point stores it times
the edge's weight, and that block is written back to rows `1024·q …` of the output. No finiteness is used: `0 · x = 0`,
`1 · x = x` and the sum's laws hold on every extended real. -/

/-! ## The payloads at an index -/

/-- The reset value is zero at every index. -/
theorem pay1_apply0 (e : Fin 1024) (d : Fin 128) : k0_pay1 (F := Ideal) (ix2 e d) = 0 := by
  unfold k0_pay1
  rw [shapeCast_self]
  exact Ideal.ofBits_zero_f32

/-- The output payload at an index: the accumulator's entry times the edge's weight. -/
theorem pay3_apply0 (w : Vec Ideal S1024 .f32) (acc : Vec Ideal S1024x128 .f32) (e : Fin 1024) (d : Fin 128) :
    k0_pay3 (F := Ideal) w acc (ix2 e d) = acc (ix2 e d) * w (ix1 e) := by
  unfold k0_pay3
  rw [shapeCast_self]
  show acc (ix2 e d) * broadcastTo S1024x128 (shapeCast S1024x1 w shapeCasts_S1024_S1024x1) broadcasts_S1024x1_S1024x128 (ix2 e d) = _
  rw [broadcastTo_apply _ _ (ix2 e d) (ix2 e (0 : Fin 1)) (fun a => by
      match a with
      | ⟨0, _⟩ => rfl
      | ⟨1, _⟩ => rfl),
    shapeCast_apply w _ (ix2 e (0 : Fin 1)) (ix1 e) (by
      rw [Shape.rowMajor_val_one, Shape.rowMajor_val_two]; simp)]

/-- The one-hot selector of node tile `k`: 1 where the source word is the word of the tile's row `n`, else 0. -/
def sel0 (k : Nat) (w : BitVec 32) (n : Nat) : EReal := if w = BitVec.ofNat 32 (5000 * k + n) then 1 else 0

/-- The selector the body builds, read at edge `e` and tile row `n`: the comparison of the edge's source word with
    (tile base + row number), widened and converted, is 1 where they agree and 0 elsewhere. -/
theorem onehot_at0 (base : BitVec 32) (src : Vec Ideal S1024 .i32) (e : Fin 1024) (n : Fin 5000) :
    (sitofp .f32 (extui 32 (cmpi .eq (broadcastTo S1024x5000 (shapeCast S1024x1 src shapeCasts_S1024_S1024x1) broadcasts_S1024x1_S1024x5000)
        (addi (broadcast S1024x5000 base) (iota .tc S1024x5000 32 [1] iota_S1024x5000_d1_w32))) natLt_1_32) : FVec Ideal S1024x5000 .f32) (ix2 e n)
      = if src (ix1 e) = base + BitVec.ofNat 32 n.val then 1 else 0 := by
  show FloatOps.sitofp .f32 ((IntOp.cmpi .eq (broadcastTo S1024x5000 (shapeCast S1024x1 src shapeCasts_S1024_S1024x1) broadcasts_S1024x1_S1024x5000 (ix2 e n))
      (IntOp.addi base (iota .tc S1024x5000 32 [1] iota_S1024x5000_d1_w32 (ix2 e n)))).setWidth 32) = _
  rw [broadcastTo_apply _ _ (ix2 e n) (ix2 e (0 : Fin 1)) (fun a => by
      match a with
      | ⟨0, _⟩ => rfl
      | ⟨1, _⟩ => rfl),
    shapeCast_apply src _ (ix2 e (0 : Fin 1)) (ix1 e) (by
      rw [Shape.rowMajor_val_one, Shape.rowMajor_val_two]; simp),
    iota_single_apply]
  show (((((BitVec.ofBool (src (ix1 e) == base + BitVec.ofNat 32 n.val)).setWidth 32).toInt : ℝ) : EReal)) = _
  by_cases h : src (ix1 e) = base + BitVec.ofNat 32 n.val
  · rw [if_pos h, beq_iff_eq.mpr h]; simp
  · rw [if_neg h, beq_eq_false_iff_ne.mpr h]; simp

/-- The block product's dimension numbers: `[1024, 5000] · [5000, 128]`, contracted over the 5000 tile rows. -/
theorem lhsAx0_r0 (j : S1024x128.Idx) (k : dot_S1024x5000_S5000x128_S1024x128_1_0_0_1_n_n.contr.Idx) :
    (dot_S1024x5000_S5000x128_S1024x128_1_0_0_1_n_n.lhsIdx j k 0 : ℕ) = j 0 := by
  simp [DotDims.lhsIdx, dot_S1024x5000_S5000x128_S1024x128_1_0_0_1_n_n]; rfl
theorem lhsAx1_r0 (j : S1024x128.Idx) (k : dot_S1024x5000_S5000x128_S1024x128_1_0_0_1_n_n.contr.Idx) :
    (dot_S1024x5000_S5000x128_S1024x128_1_0_0_1_n_n.lhsIdx j k 1 : ℕ) = k ⟨0, by decide⟩ := by
  simp [DotDims.lhsIdx, dot_S1024x5000_S5000x128_S1024x128_1_0_0_1_n_n]; rfl
theorem rhsAx0_r0 (j : S1024x128.Idx) (k : dot_S1024x5000_S5000x128_S1024x128_1_0_0_1_n_n.contr.Idx) :
    (dot_S1024x5000_S5000x128_S1024x128_1_0_0_1_n_n.rhsIdx j k 0 : ℕ) = k ⟨0, by decide⟩ := by
  simp [DotDims.rhsIdx, dot_S1024x5000_S5000x128_S1024x128_1_0_0_1_n_n]; rfl
theorem rhsAx1_r0 (j : S1024x128.Idx) (k : dot_S1024x5000_S5000x128_S1024x128_1_0_0_1_n_n.contr.Idx) :
    (dot_S1024x5000_S5000x128_S1024x128_1_0_0_1_n_n.rhsIdx j k 1 : ℕ) = j 1 := by
  simp [DotDims.rhsIdx, dot_S1024x5000_S5000x128_S1024x128_1_0_0_1_n_n]; rfl

/-- The contraction index is its one coordinate, a tile row. -/
abbrev rowEquiv0 : dot_S1024x5000_S5000x128_S1024x128_1_0_0_1_n_n.contr.Idx ≃ Fin 5000 :=
  contrEquiv1 dot_S1024x5000_S5000x128_S1024x128_1_0_0_1_n_n 5000 rfl rfl

theorem lhsIdx_row0 (e : Fin 1024) (d : Fin 128) (n : Fin 5000) :
    dot_S1024x5000_S5000x128_S1024x128_1_0_0_1_n_n.lhsIdx (ix2 e d) (rowEquiv0.symm n) = ix2 e n :=
  Shape.idx_ext₂ (lhsAx0_r0 _ _) ((lhsAx1_r0 _ _).trans (contrEquiv1_symm_val _ 5000 rfl rfl n))
theorem rhsIdx_row0 (e : Fin 1024) (d : Fin 128) (n : Fin 5000) :
    dot_S1024x5000_S5000x128_S1024x128_1_0_0_1_n_n.rhsIdx (ix2 e d) (rowEquiv0.symm n) = ix2 n d :=
  Shape.idx_ext₂ ((rhsAx0_r0 _ _).trans (contrEquiv1_symm_val _ 5000 rfl rfl n)) (rhsAx1_r0 _ _)

/-- The tile base word plus the row's word is the word of the node's number. -/
theorem base_add0 (k n : Nat) : Scalar.muli (BitVec.ofNat 32 k) 5000#32 + BitVec.ofNat 32 n = BitVec.ofNat 32 (5000 * k + n) := by
  show BitVec.ofNat 32 k * BitVec.ofNat 32 5000 + BitVec.ofNat 32 n = _
  rw [← BitVec.ofNat_mul, ← BitVec.ofNat_add, Nat.mul_comm]

/-- THE STEP at an index: the accumulator's entry plus, over the tile's rows, the selector times the feature entry. -/
theorem pay2_apply0 (i : grid0.Coords) (src : Vec Ideal S1024 .i32) (feat : Vec Ideal S5000x128 .f32) (acc : Vec Ideal S1024x128 .f32)
    (e : Fin 1024) (d : Fin 128) :
    k0_pay2 (F := Ideal) i src feat acc (ix2 e d)
      = acc (ix2 e d) + ∑ n : Fin 5000, sel0 (i 1).val (src (ix1 e)) n.val * feat (ix2 n d) := by
  unfold k0_pay2
  rw [shapeCast_self]
  refine (addf_apply _ _ _).trans (congrArg (acc (ix2 e d) + ·) ?_)
  refine (Ideal.matmul_constant_zero_apply dot_S1024x5000_S5000x128_S1024x128_1_0_0_1_n_n none _ _ (ix2 e d)).trans ?_
  rw [← Equiv.sum_comp rowEquiv0.symm]
  refine Finset.sum_congr rfl fun n _ => ?_
  rw [lhsIdx_row0, rhsIdx_row0]
  refine congrArg₂ (· * ·) ?_ rfl
  refine (onehot_at0 _ src e n).trans ?_
  rw [base_add0]
  rfl

/-- Two small naturals with the same 32-bit word are equal. -/
theorem ofNat_eq_iff0 (a b : Nat) (ha : a < 2 ^ 32) (hb : b < 2 ^ 32) : BitVec.ofNat 32 a = BitVec.ofNat 32 b ↔ a = b := by
  constructor
  · intro h
    have h2 := congrArg BitVec.toNat h
    rwa [BitVec.toNat_ofNat, BitVec.toNat_ofNat, Nat.mod_eq_of_lt ha, Nat.mod_eq_of_lt hb] at h2
  · rintro rfl; rfl

/-- ONE ROW IS PICKED. Over the 20 node tiles and the 5000 rows of each, the selectors of the word of a node `r`
    vanish except at tile `r / 5000`, row `r % 5000`: the selected sum of any row-indexed quantity is its value at `r`. -/
theorem sum_sel0 (g : Nat → EReal) (r : Nat) (hr : r < 100000) :
    ∑ s ∈ Finset.range 20, ∑ n : Fin 5000, sel0 s (BitVec.ofNat 32 r) n.val * g (5000 * s + n.val) = g r := by
  rw [Finset.sum_eq_single_of_mem (r / 5000) (Finset.mem_range.mpr (by omega))]
  · rw [Finset.sum_eq_single_of_mem (⟨r % 5000, Nat.mod_lt _ (by decide)⟩ : Fin 5000) (Finset.mem_univ _)]
    · unfold sel0
      have e1 : 5000 * (r / 5000) + r % 5000 = r := by omega
      dsimp only
      rw [e1, if_pos rfl, one_mul]
    · intro n _ hn
      unfold sel0
      rw [if_neg, zero_mul]
      rw [ofNat_eq_iff0 _ _ (by omega) (by have := n.isLt; omega)]
      intro h
      exact hn (Fin.ext (by dsimp only; omega))
  · intro s hs hne
    refine Finset.sum_eq_zero fun n _ => ?_
    unfold sel0
    rw [if_neg, zero_mul]
    have hs' := Finset.mem_range.mp hs
    rw [ofNat_eq_iff0 _ _ (by omega) (by have := n.isLt; omega)]
    have := n.isLt
    omega

/-- The printed index maps and the reduction coordinate, decided once over the grid: point `t` is edge tile `t / 20`, node tile `t % 20`. -/
theorem idx_facts0 : ∀ t : Fin cfg0.N, win0_0.index t (0 : Fin 1) = t.val / 20 ∧ win0_1.index t (0 : Fin 1) = t.val / 20
    ∧ win0_2.index t (0 : Fin 2) = t.val % 20 ∧ win0_2.index t (1 : Fin 2) = 0
    ∧ win0_3.index t (0 : Fin 2) = t.val / 20 ∧ win0_3.index t (1 : Fin 2) = 0
    ∧ ((grid0.coords t) 1).val = t.val % 20 :=
  (by decide +kernel : ∀ t : Fin grid0.N, _)

/-- The source-word window's block at point `t` is the edge tile's stretch of the source array. -/
theorem src_blk0 (c : Dev nD) (t : Fin cfg0.N) (e : Fin 1024) (h : 1024 * (t.val / 20) + e.val < 640000) :
    (iblk0 V c 0 t : Vec Ideal S1024 .i32) (ix1 e) = (V c main_arg4 : S640000.Idx → BitVec 32) (ix1 ⟨1024 * (t.val / 20) + e.val, h⟩) := by
  unfold iblk0
  rw [View.read_apply]
  show V c main_arg4 _ = V c main_arg4 _
  congr 1
  funext a
  apply Fin.ext
  match a with
  | ⟨0, _⟩ => show win0_0.index t 0 * 1024 + 1 * e.val = 1024 * (t.val / 20) + e.val; rw [(idx_facts0 t).1]; omega

/-- The weight window's block at point `t` is the edge tile's stretch of the weight array. -/
theorem wgt_blk0 (c : Dev nD) (t : Fin cfg0.N) (e : Fin 1024) (h : 1024 * (t.val / 20) + e.val < 640000) :
    (iblk0 V c 1 t : Vec Ideal S1024 .f32) (ix1 e) = (V c main_v1 : S640000.Idx → EReal) (ix1 ⟨1024 * (t.val / 20) + e.val, h⟩) := by
  unfold iblk0
  rw [View.read_apply]
  show V c main_v1 _ = V c main_v1 _
  congr 1
  funext a
  apply Fin.ext
  match a with
  | ⟨0, _⟩ => show win0_1.index t 0 * 1024 + 1 * e.val = 1024 * (t.val / 20) + e.val; rw [(idx_facts0 t).2.1]; omega

/-- The feature window's block at point `t` is the node tile's rows of the feature array. -/
theorem feat_blk0 (c : Dev nD) (t : Fin cfg0.N) (n : Fin 5000) (d : Fin 128) (h : 5000 * (t.val % 20) + n.val < 100000) :
    (iblk0 V c 2 t : Vec Ideal S5000x128 .f32) (ix2 n d) = (V c main_arg0 : S100000x128.Idx → EReal) (ix2 ⟨5000 * (t.val % 20) + n.val, h⟩ d) := by
  unfold iblk0
  rw [View.read_apply]
  show V c main_arg0 _ = V c main_arg0 _
  congr 1
  funext a
  apply Fin.ext
  match a with
  | ⟨0, _⟩ => show win0_2.index t 0 * 5000 + 1 * n.val = 5000 * (t.val % 20) + n.val; rw [(idx_facts0 t).2.2.1]; omega
  | ⟨1, _⟩ => show win0_2.index t 1 * 128 + 1 * d.val = d.val; rw [(idx_facts0 t).2.2.2.1]; omega

/-! ## The accumulator over a reduction run -/

/-- The feature array read at a row NUMBER (zero past the array's end, which no point consults). -/
def rowAt0 (feat : S100000x128.Idx → EReal) (r : Nat) (d : Fin 128) : EReal :=
  if h : r < 100000 then feat (ix2 ⟨r, h⟩ d) else 0

/-- The source word of edge `e` of edge tile `q`. -/
def srcW0 (c : Dev nD) (q : Fin 625) (e : Fin 1024) : BitVec 32 :=
  (V c main_arg4 : S640000.Idx → BitVec 32) (ix1 ⟨1024 * q.val + e.val, by have := q.isLt; have := e.isLt; omega⟩)

/-- THE STEP at point `20·q + j` (edge tile `q`, node tile `j`), over the arrays: the accumulator's entry plus the
    selected sum of node tile `j`'s rows. -/
theorem step_at0 (c : Dev nD) (q : Fin 625) (j : Nat) (hj : j < 20) (h : 20 * q.val + j < cfg0.N)
    (acc : Vec Ideal S1024x128 .f32) (e : Fin 1024) (d : Fin 128) :
    k0_pay2 (F := Ideal) (grid0.coords ⟨20 * q.val + j, h⟩) (iblk0 V c 0 ⟨20 * q.val + j, h⟩) (iblk0 V c 2 ⟨20 * q.val + j, h⟩) acc (ix2 e d)
      = acc (ix2 e d) + ∑ n : Fin 5000, sel0 j (srcW0 V c q e) n.val * rowAt0 (V c main_arg0) (5000 * j + n.val) d := by
  refine (pay2_apply0 (grid0.coords ⟨20 * q.val + j, h⟩) (iblk0 V c 0 ⟨20 * q.val + j, h⟩) (iblk0 V c 2 ⟨20 * q.val + j, h⟩) acc e d).trans ?_
  have hq := q.isLt
  have he := e.isLt
  have hdiv : (20 * q.val + j) / 20 = q.val := by omega
  have hmod : (20 * q.val + j) % 20 = j := by omega
  have hk : ((grid0.coords ⟨20 * q.val + j, h⟩) 1).val = j := ((idx_facts0 ⟨20 * q.val + j, h⟩).2.2.2.2.2.2).trans hmod
  refine congrArg (acc (ix2 e d) + ·) (Finset.sum_congr rfl fun n _ => ?_)
  have hn := n.isLt
  have e1 := src_blk0 V c ⟨20 * q.val + j, h⟩ e (by dsimp only; omega)
  have e2 := feat_blk0 V c ⟨20 * q.val + j, h⟩ n d (by dsimp only; omega)
  rw [hk, e1, e2]
  unfold srcW0 rowAt0
  rw [dif_pos (by omega)]
  simp only [hdiv, hmod]

/-- THE RUN'S CLOSED FORM: after point `20·q + j` the accumulator's entry is the selected sum over node tiles `0 … j`
    (the reset value is zero and every point of the run adds its tile's selected sum). -/
theorem acc_run0 (c : Dev nD) (q : Fin 625) (e : Fin 1024) (d : Fin 128) :
    ∀ (j : Nat) (hj : j < 20) (h : 20 * q.val + j < cfg0.N),
      accAt0 V c (20 * q.val + j) h (ix2 e d)
        = ∑ s ∈ Finset.range (j + 1), ∑ n : Fin 5000, sel0 s (srcW0 V c q e) n.val * rowAt0 (V c main_arg0) (5000 * s + n.val) d
  | 0, hj, h => by
    refine (congrFun (accAt0_reset V c ⟨20 * q.val + 0, h⟩ (by dsimp only; omega)) (ix2 e d)).trans ?_
    refine (step_at0 V c q 0 hj h (k0_pay1 (F := Ideal)) e d).trans ?_
    rw [pay1_apply0, zero_add, Finset.sum_range_one]
  | j + 1, hj, h => by
    have same : ∀ (u : Nat) (hu : u < cfg0.N) (hv : 20 * q.val + j < cfg0.N), u = 20 * q.val + j →
        accAt0 V c u hu = accAt0 V c (20 * q.val + j) hv := fun u hu hv e => by subst e; rfl
    refine (congrFun (accAt0_step V c ⟨20 * q.val + (j + 1), h⟩ (by dsimp only; omega)) (ix2 e d)).trans ?_
    refine (step_at0 V c q (j + 1) hj h _ e d).trans ?_
    rw [Finset.sum_range_succ _ (j + 1), same _ _ (Nat.lt_of_succ_lt h) (by dsimp only; omega),
      acc_run0 c q e d j (Nat.lt_of_succ_lt hj) (Nat.lt_of_succ_lt h)]

/-! ## The output block at a flushing point, and the array after the run -/

/-- The row an in-range source word selects is the node it names. -/
theorem srcRow_ofNat0 (r : Nat) (hr : r < 100000) : srcRow (BitVec.ofNat 32 r) = ⟨r, hr⟩ := by
  unfold srcRow Cert.Lib.clampRow
  apply Fin.ext
  have h1 : (BitVec.ofNat 32 r).toInt = (r : Int) := (Cert.Lib.toInt_eq_iff_eq_ofNat _ r (by omega)).mpr rfl
  show min (BitVec.ofNat 32 r).toInt.toNat (100000 - 1) = r
  rw [h1, Int.toNat_natCast]
  omega

/-- The scaled gather at an edge whose source word names node `r`: row `r`'s entry times the edge's weight. -/
theorem gatherScaled_at0 (feat : S100000x128.Idx → EReal) (w : S640000.Idx → EReal) (src : S640000.Idx → BitVec 32)
    (k : Fin 640000) (d : Fin 128) (r : Fin 100000) (hr : src (ix1 k) = BitVec.ofNat 32 r.val) :
    gatherScaled feat w src (ix2 k d) = rowAt0 feat r.val d * w (ix1 k) := by
  show feat (ix2 (srcRow (src (ix1 k))) d) * w (ix1 k) = _
  rw [hr, srcRow_ofNat0 r.val r.isLt]
  unfold rowAt0
  rw [dif_pos r.isLt]

/-- THE OUTPUT BLOCK at the last point of edge tile `t / 20`'s run: edge `e`, column `d` holds the source row's entry
    (the one row the twenty tiles' selectors pick) times the edge's weight. -/
theorem out_at0 (c : Dev nD) (hs : InRange (V c main_arg4)) (t : Fin cfg0.N) (ht : t.val % 20 = 19) (e : Fin 1024) (d : Fin 128)
    (h : 1024 * (t.val / 20) + e.val < 640000) :
    (outAt0 V c t : Vec Ideal S1024x128 .bf16) (ix2 e d)
      = gatherScaled (V c main_arg0) (V c main_v1) (V c main_arg4) (ix2 ⟨1024 * (t.val / 20) + e.val, h⟩ d) := by
  unfold outAt0
  refine (pay3_apply0 (iblk0 V c 1 t) (accAt0 V c t.val t.isLt) e d).trans ?_
  have hN : cfg0.N = 12500 := N_0
  have ht' := t.isLt
  have hq : t.val / 20 < 625 := by omega
  have same : ∀ (u : Nat) (hu : u < cfg0.N), u = t.val → accAt0 V c u hu = accAt0 V c t.val t.isLt :=
    fun u hu e => by subst e; rfl
  have hrun := acc_run0 V c ⟨t.val / 20, hq⟩ e d 19 (by decide) (by dsimp only; omega)
  rw [same _ _ (by dsimp only; omega)] at hrun
  obtain ⟨r, hr⟩ := hs ⟨1024 * (t.val / 20) + e.val, h⟩
  have hw : srcW0 V c ⟨t.val / 20, hq⟩ e = BitVec.ofNat 32 r.val := hr
  rw [hrun, wgt_blk0 V c t e h, hw, sum_sel0 (fun r => rowAt0 (V c main_arg0) r d) r.val r.isLt]
  exact (gatherScaled_at0 (V c main_arg0) (V c main_v1) (V c main_arg4) ⟨1024 * (t.val / 20) + e.val, h⟩ d r hr).symm

/-- WHAT A FLUSHING POINT WRITES BACK is its block of the scaled gather. -/
theorem flushed_eq0 (c : Dev nD) (hs : InRange (V c main_arg4)) (t : Fin cfg0.N) (hf : (cfg0.win 3).flush t = true) :
    (dat0 (F := Ideal) V c).flushed 3 t
      = ((cfg0.win 3).blk t).view.read (Elt Ideal) (gatherScaled (V c main_arg0) (V c main_v1) (V c main_arg4)) := by
  have ht : t.val % 20 = 19 := (flush0_3 t).mp hf
  have hN : cfg0.N = 12500 := N_0
  have ht' := t.isLt
  show (cfg0.win 3).cut (grid0.coords t) ((dat0 V c).after 3 t) = _
  rw [after0_3]
  funext j
  rw [View.read_apply]
  have hj0 : (j 0).val < 1024 := (j 0).isLt
  have hj1 : (j 1).val < 128 := (j 1).isLt
  have hL : (cfg0.win 3).cut (grid0.coords t) (outAt0 V c t) j
      = (outAt0 V c t : Vec Ideal S1024x128 .bf16) (ix2 ⟨(j 0).val, hj0⟩ ⟨(j 1).val, hj1⟩) :=
    congrArg (outAt0 V c t) (funext fun a => by
      match a with
      | ⟨0, _⟩ => rfl
      | ⟨1, _⟩ => rfl)
  rw [hL, out_at0 V c hs t ht _ _ (by dsimp only; omega)]
  refine congrArg (gatherScaled (V c main_arg0) (V c main_v1) (V c main_arg4)) (funext fun a => Fin.ext ?_)
  match a with
  | ⟨0, _⟩ => show 1024 * (t.val / 20) + (j 0).val = win0_3.index t 0 * 1024 + 1 * (j 0).val; rw [(idx_facts0 t).2.2.2.2.1]; omega
  | ⟨1, _⟩ => show (j 1).val = win0_3.index t 1 * 128 + 1 * (j 1).val; rw [(idx_facts0 t).2.2.2.2.2.1]; omega

/-- After region 0 its output array holds, at edge `e` and column `d`, the source row's entry times the edge's scalar
    weight: along the node tiles exactly one tile's one-hot selector picks the source row, the others add zero. -/
theorem final0 (c : Dev nD) (hs : InRange (V c main_arg4)) :
    (dat0 (F := Ideal) V c).arrAt 3 cfg0.N = gatherScaled (V c main_arg0) (V c main_v1) (V c main_arg4) :=
  (dat0 (F := Ideal) V c).arrAt_eq_of_cover 3 (gatherScaled (V c main_arg0) (V c main_v1) (V c main_arg4))
    (fun t hf => flushed_eq0 V c hs t hf) fun i => by
      have hN : cfg0.N = 12500 := N_0
      have hi0 : (i 0).val < 640000 := (i 0).isLt
      have hi1 : (i 1).val < 128 := (i 1).isLt
      have hlt : 20 * ((i 0).val / 1024) + 19 < cfg0.N := by rw [hN]; omega
      refine ⟨⟨20 * ((i 0).val / 1024) + 19, hlt⟩, (flush0_3 _).mpr (by dsimp only; omega), ?_⟩
      show i ∈ ((View.whole main_v2).slice (win0_3.rect ⟨20 * ((i 0).val / 1024) + 19, hlt⟩)).set
      rw [View.set_slice_whole, Rect.mem_set_unit]
      intro a
      have f4 := (idx_facts0 ⟨20 * ((i 0).val / 1024) + 19, hlt⟩).2.2.2.2.1
      have f5 := (idx_facts0 ⟨20 * ((i 0).val / 1024) + 19, hlt⟩).2.2.2.2.2.1
      dsimp only at f4 f5
      match a with
      | ⟨0, _⟩ =>
        show win0_3.index ⟨20 * ((i 0).val / 1024) + 19, hlt⟩ 0 * 1024 ≤ (i 0).val
          ∧ (i 0).val < win0_3.index ⟨20 * ((i 0).val / 1024) + 19, hlt⟩ 0 * 1024 + 1024
        rw [f4]; omega
      | ⟨1, _⟩ =>
        show win0_3.index ⟨20 * ((i 0).val / 1024) + 19, hlt⟩ 1 * 128 ≤ (i 1).val
          ∧ (i 1).val < win0_3.index ⟨20 * ((i 0).val / 1024) + 19, hlt⟩ 1 * 128 + 128
        rw [f5]; omega

end Cert.KernelIdeal.Hand

end
-- ==== Proof.KI.R1Value.lean ====
import proofs.«423799_j14568529068221_1_alg».proof.Proof.KI.R1Defs
import proofs.«423799_j14568529068221_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Cert.Spec
open Idealize.ShloMosaic.ValueIdx
open scoped BigOperators

variable (V : (c : Dev nD) → (b : Ref sig .tc) → Buf (Elt Ideal) ((c : Thread nD τ).loc b))

/-! # Region 1: the output array after the run

Edge tile `i` of 1024 edges runs over the 20 node tiles of 5000 nodes. The accumulator starts at zero and each node
tile adds, at edge `e` and column `d`, the sum over the tile's nodes of the one-hot selector (the edge's source word
against the node's word) times the node's feature entry; with every source word a node's word, exactly one node of
one tile matches, so after the 20 tiles the accumulator holds the source row. The last point multiplies it entry by
entry with the weight tile and writes the tile back; the 625 edge tiles fill the array. -/

/-! ## The product's operand indices

The selector is `[edge, node]`, the features `[node, column]`; the product contracts the node axis. -/

theorem lhs1_0 (i : S1024x128.Idx) (q : dot_S1024x5000_S5000x128_S1024x128_1_0_0_1_n_n.contr.Idx) :
    (dot_S1024x5000_S5000x128_S1024x128_1_0_0_1_n_n.lhsIdx i q 0).val = (i 0).val := by
  unfold DotDims.lhsIdx
  rw [dif_neg (show ¬(0 : Fin S1024x5000.rank) ∈ dot_S1024x5000_S5000x128_S1024x128_1_0_0_1_n_n.lhsBatch by decide),
    dif_pos (show (0 : Fin S1024x5000.rank) ∈ dot_S1024x5000_S5000x128_S1024x128_1_0_0_1_n_n.lhsNonContracting by decide)]
  rfl
theorem lhs1_1 (i : S1024x128.Idx) (q : dot_S1024x5000_S5000x128_S1024x128_1_0_0_1_n_n.contr.Idx) :
    (dot_S1024x5000_S5000x128_S1024x128_1_0_0_1_n_n.lhsIdx i q 1).val = (q ⟨0, by decide⟩).val :=
  dot_S1024x5000_S5000x128_S1024x128_1_0_0_1_n_n.lhsIdx_val_of_single rfl i q
theorem rhs1_0 (i : S1024x128.Idx) (q : dot_S1024x5000_S5000x128_S1024x128_1_0_0_1_n_n.contr.Idx) :
    (dot_S1024x5000_S5000x128_S1024x128_1_0_0_1_n_n.rhsIdx i q 0).val = (q ⟨0, by decide⟩).val :=
  dot_S1024x5000_S5000x128_S1024x128_1_0_0_1_n_n.rhsIdx_val_of_single rfl i q
theorem rhs1_1 (i : S1024x128.Idx) (q : dot_S1024x5000_S5000x128_S1024x128_1_0_0_1_n_n.contr.Idx) :
    (dot_S1024x5000_S5000x128_S1024x128_1_0_0_1_n_n.rhsIdx i q 1).val = (i 1).val := by
  unfold DotDims.rhsIdx
  rw [dif_neg (show ¬(1 : Fin S5000x128.rank) ∈ dot_S1024x5000_S5000x128_S1024x128_1_0_0_1_n_n.rhsBatch by decide),
    dif_pos (show (1 : Fin S5000x128.rank) ∈ dot_S1024x5000_S5000x128_S1024x128_1_0_0_1_n_n.rhsNonContracting by decide)]
  rfl

/-- A word comparison widened and converted: one where the words agree, zero elsewhere. -/
theorem word_sel1 (x y : BitVec 32) :
    ((((IntOp.cmpi .eq x y).setWidth 32).toInt : ℝ) : EReal) = if x = y then 1 else 0 := by
  show ((((BitVec.ofBool (x == y)).setWidth 32).toInt : ℝ) : EReal) = _
  by_cases h : x = y
  · have hb : (x == y) = true := by rw [h]; exact beq_self_eq_true y
    rw [if_pos h, hb, show ((BitVec.ofBool true).setWidth 32).toInt = 1 by decide]
    norm_num
  · have hb : (x == y) = false := beq_eq_false_iff_ne.mpr h
    rw [if_neg h, hb, show ((BitVec.ofBool false).setWidth 32).toInt = 0 by decide]
    norm_num

/-- The selector at edge `e` of the tile and node `n` of the tile: one where the edge's source word is the word
    `w + n`, zero elsewhere. The source words are a column broadcast along the nodes; the node words are the base word
    plus the node's number in the tile. -/
theorem sel_apply1 (w : BitVec 32) (src : Vec Ideal S1024 .i32) (e : Fin 1024) (n : Fin 5000) :
    (sitofp .f32 (extui 32 (cmpi .eq (broadcastTo S1024x5000 (shapeCast S1024x1 src shapeCasts_S1024_S1024x1) broadcasts_S1024x1_S1024x5000)
        (addi (broadcast S1024x5000 w) (iota .tc S1024x5000 32 [1] iota_S1024x5000_d1_w32))) natLt_1_32) : FVec Ideal S1024x5000 .f32) (ix2 e n)
      = if src (ix1 e) = w + BitVec.ofNat 32 n.val then 1 else 0 := by
  show ((((IntOp.cmpi .eq (broadcastTo S1024x5000 (shapeCast S1024x1 src shapeCasts_S1024_S1024x1) broadcasts_S1024x1_S1024x5000 (ix2 e n))
      (IntOp.addi w (iota .tc S1024x5000 32 [1] iota_S1024x5000_d1_w32 (ix2 e n)))).setWidth 32).toInt : ℝ) : EReal) = _
  rw [broadcastTo_apply (shapeCast S1024x1 src shapeCasts_S1024_S1024x1) broadcasts_S1024x1_S1024x5000 (ix2 e n) (ix2 e (0 : Fin 1))
    (fun a => match a with | ⟨0, _⟩ => rfl | ⟨1, _⟩ => rfl)]
  rw [shapeCast_apply src shapeCasts_S1024_S1024x1 (ix2 e (0 : Fin 1)) (ix1 e)
    (by rw [Shape.rowMajor_val_one, Shape.rowMajor_val_two]; show e.val = e.val * 1 + 0; omega)]
  rw [iota_single_apply, word_sel1]
  rfl

/-- THE STEP at edge `e`, column `d` of the tile: the accumulator plus, over the tile's nodes, the selector times the
    node's feature entry (a product into a zero accumulator is the sum over the contracted axis; the format changes are
    the identity on extended reals). -/
theorem pay2_apply1 (co : grid1.Coords) (src : Vec Ideal S1024 .i32) (feat : Vec Ideal S5000x128 .f32) (acc : Vec Ideal S1024x128 .f32)
    (e : Fin 1024) (d : Fin 128) :
    k1_pay2 co src feat acc (ix2 e d)
      = acc (ix2 e d) + ∑ n : Fin 5000, (if src (ix1 e) = BitVec.ofNat 32 (co 1).val * 5000#32 + BitVec.ofNat 32 n.val then (1 : EReal) else 0) * feat (ix2 n d) := by
  unfold k1_pay2
  dsimp only
  rw [shapeCast_self, addf_apply]
  refine congrArg (acc (ix2 e d) + ·) ?_
  simp only [matmul]
  rw [Ideal.matmul_constant_zero_apply, ← Equiv.sum_comp (contrEquiv1 dot_S1024x5000_S5000x128_S1024x128_1_0_0_1_n_n 5000 rfl rfl).symm]
  refine Finset.sum_congr rfl fun n _ => ?_
  have hk := contrEquiv1_symm_val dot_S1024x5000_S5000x128_S1024x128_1_0_0_1_n_n 5000 rfl rfl n
  have el : dot_S1024x5000_S5000x128_S1024x128_1_0_0_1_n_n.lhsIdx (ix2 e d) ((contrEquiv1 dot_S1024x5000_S5000x128_S1024x128_1_0_0_1_n_n 5000 rfl rfl).symm n) = ix2 e n :=
    funext fun a => Fin.ext (by
      match a with
      | ⟨0, _⟩ => exact lhs1_0 _ _
      | ⟨1, _⟩ => exact (lhs1_1 _ _).trans hk)
  have er : dot_S1024x5000_S5000x128_S1024x128_1_0_0_1_n_n.rhsIdx (ix2 e d) ((contrEquiv1 dot_S1024x5000_S5000x128_S1024x128_1_0_0_1_n_n 5000 rfl rfl).symm n) = ix2 n d :=
    funext fun a => Fin.ext (by
      match a with
      | ⟨0, _⟩ => exact (rhs1_0 _ _).trans hk
      | ⟨1, _⟩ => exact rhs1_1 _ _)
  rw [el, er, truncf_apply, truncf_apply, sel_apply1]
  rfl

/-- The reset value is zero everywhere. -/
theorem pay1_apply1 (i : S1024x128.Idx) : (k1_pay1 (F := Ideal)) i = 0 := by
  unfold k1_pay1
  rw [shapeCast_self, broadcast_apply]
  exact Ideal.ofBits_zero_f32

/-- The output entry: the accumulator's entry times the weight's (the format change is the identity). -/
theorem pay3_apply1 (acc w : Vec Ideal S1024x128 .f32) (i : S1024x128.Idx) : k1_pay3 acc w i = acc i * w i := by
  unfold k1_pay3
  rw [truncf_apply, mulf_apply]

/-! ## Words of node numbers -/

/-- The words of two numbers below 2³² agree only if the numbers do. -/
theorem ofNat32_inj1 {a b : ℕ} (ha : a < 4294967296) (hb : b < 4294967296) : BitVec.ofNat 32 a = BitVec.ofNat 32 b ↔ a = b := by
  constructor
  · intro h
    have h' := congrArg BitVec.toNat h
    simp only [BitVec.toNat_ofNat] at h'
    rwa [Nat.mod_eq_of_lt (by omega), Nat.mod_eq_of_lt (by omega)] at h'
  · rintro rfl; rfl

/-- Node tile `s`'s base word plus the word of `n` is the word of node `5000·s + n`. -/
theorem node_word1 (s n : ℕ) : BitVec.ofNat 32 s * 5000#32 + BitVec.ofNat 32 n = BitVec.ofNat 32 (5000 * s + n) := by
  rw [show (5000#32 : BitVec 32) = BitVec.ofNat 32 5000 from rfl, ← BitVec.ofNat_mul, ← BitVec.ofNat_add, Nat.mul_comm]

/-- Over the 20 node tiles of 5000 nodes, the one-hot selector of node `m` picks the entry at `m`: exactly one tile and
    one node in it carry the word of `m`, every other term is zero times an entry, which is zero on every extended real. -/
theorem sum_onehot1 (g : ℕ → EReal) (m : ℕ) (hm : m < 100000) :
    ∑ s ∈ Finset.range 20, ∑ n : Fin 5000,
      (if BitVec.ofNat 32 m = BitVec.ofNat 32 s * 5000#32 + BitVec.ofNat 32 n.val then (1 : EReal) else 0) * g (5000 * s + n.val) = g m := by
  have key : ∀ s ∈ Finset.range 20, ∀ n : Fin 5000,
      (if BitVec.ofNat 32 m = BitVec.ofNat 32 s * 5000#32 + BitVec.ofNat 32 n.val then (1 : EReal) else 0) * g (5000 * s + n.val)
        = if s = m / 5000 ∧ n.val = m % 5000 then g m else 0 := by
    intro s hs n
    have hs' : s < 20 := Finset.mem_range.mp hs
    have hn : n.val < 5000 := n.isLt
    rw [node_word1]
    have hiff := ofNat32_inj1 (a := m) (b := 5000 * s + n.val) (by omega) (by omega)
    by_cases h : m = 5000 * s + n.val
    · rw [if_pos (hiff.mpr h), one_mul, if_pos (by omega), h]
    · rw [if_neg (fun h' => h (hiff.mp h')), zero_mul, if_neg (by omega)]
  rw [Finset.sum_congr rfl fun s hs => Finset.sum_congr rfl fun n _ => key s hs n]
  rw [Finset.sum_eq_single (m / 5000)]
  · rw [Finset.sum_eq_single (⟨m % 5000, Nat.mod_lt _ (by decide)⟩ : Fin 5000)]
    · rw [if_pos ⟨rfl, rfl⟩]
    · intro n _ hne; rw [if_neg]; rintro ⟨-, h⟩; exact hne (Fin.ext h)
    · intro h; exact absurd (Finset.mem_univ _) h
  · intro s _ hne; exact Finset.sum_eq_zero fun n _ => if_neg (fun h => hne h.1)
  · intro h; exact absurd (Finset.mem_range.mpr (by omega)) h

/-- The source row of the word of a node number is that node. -/
theorem srcRow_ofNat1 (m : Fin 100000) : srcRow (BitVec.ofNat 32 m.val) = m := by
  have hm : m.val < 100000 := m.isLt
  have hi : (BitVec.ofNat 32 m.val).toInt = (m.val : ℤ) := (Cert.Lib.toInt_eq_iff_eq_ofNat _ m.val (by omega)).mpr rfl
  apply Fin.ext
  show min (BitVec.ofNat 32 m.val).toInt.toNat (100000 - 1) = m.val
  rw [hi, Int.toNat_natCast]
  omega

/-! ## The grid's points

Point `t` is node tile `t % 20` of edge tile `t / 20`. -/

/-- The kernel's node-tile coordinate at point `t`. -/
theorem coord1 : ∀ t : Fin cfg1.N, (grid1.coords t 1).val = t.val % 20 :=
  (by decide +kernel : ∀ t : Fin grid1.N, (grid1.coords t 1).val = t.val % 20)
/-- The source words' tile number is the edge tile. -/
theorem tile1_0 : ∀ t : Fin cfg1.N, win1_0.index t (0 : Fin 1) = t.val / 20 :=
  (by decide +kernel : ∀ t : Fin grid1.N, win1_0.index t (0 : Fin 1) = t.val / 20)
/-- The weights' tile numbers: the edge tile, all columns. -/
theorem tile1_1 : ∀ t : Fin cfg1.N, win1_1.index t (0 : Fin 2) = t.val / 20 ∧ win1_1.index t (1 : Fin 2) = 0 :=
  (by decide +kernel : ∀ t : Fin grid1.N, win1_1.index t (0 : Fin 2) = t.val / 20 ∧ win1_1.index t (1 : Fin 2) = 0)
/-- The features' tile numbers: the node tile, all columns. -/
theorem tile1_2 : ∀ t : Fin cfg1.N, win1_2.index t (0 : Fin 2) = t.val % 20 ∧ win1_2.index t (1 : Fin 2) = 0 :=
  (by decide +kernel : ∀ t : Fin grid1.N, win1_2.index t (0 : Fin 2) = t.val % 20 ∧ win1_2.index t (1 : Fin 2) = 0)
/-- The output's tile numbers: the edge tile, all columns. -/
theorem tile1_3 : ∀ t : Fin cfg1.N, win1_3.index t (0 : Fin 2) = t.val / 20 ∧ win1_3.index t (1 : Fin 2) = 0 :=
  (by decide +kernel : ∀ t : Fin grid1.N, win1_3.index t (0 : Fin 2) = t.val / 20 ∧ win1_3.index t (1 : Fin 2) = 0)

/-! ## The windows' tiles, read where the arrays hold them -/

/-- The source-word tile at point `t`: edge `1024·(t / 20) + e` of the source words. -/
theorem iblk1_0_apply (c : Dev nD) (t : Fin cfg1.N) (e : Fin 1024) (k : SIds.Idx) (hk : (k 0).val = 1024 * (t.val / 20) + e.val) :
    (iblk1 V c 0 t : Vec Ideal S1024 .i32) (ix1 e) = (V c main_arg6 : SIds.Idx → BitVec 32) k := by
  show V c main_arg6 (((cfg1.win 0).blk t).view.emb (ix1 e)) = V c main_arg6 k
  refine congrArg (V c main_arg6) (funext fun a => Fin.ext ?_)
  match a with
  | ⟨0, _⟩ => show win1_0.index t (0 : Fin 1) * 1024 + 1 * e.val = (k 0).val; rw [tile1_0 t, hk]; omega

/-- The weight tile at point `t`: edges `1024·(t / 20) + e`, every column. -/
theorem iblk1_1_apply (c : Dev nD) (t : Fin cfg1.N) (e : Fin 1024) (d : Fin 128) (k : SEdge.Idx)
    (hk0 : (k 0).val = 1024 * (t.val / 20) + e.val) (hk1 : (k 1).val = d.val) :
    (iblk1 V c 1 t : Vec Ideal S1024x128 .f32) (ix2 e d) = (V c main_arg3 : SEdge.Idx → EReal) k := by
  show V c main_arg3 (((cfg1.win 1).blk t).view.emb (ix2 e d)) = V c main_arg3 k
  refine congrArg (V c main_arg3) (funext fun a => Fin.ext ?_)
  match a with
  | ⟨0, _⟩ => show win1_1.index t (0 : Fin 2) * 1024 + 1 * e.val = (k 0).val; rw [(tile1_1 t).1, hk0]; omega
  | ⟨1, _⟩ => show win1_1.index t (1 : Fin 2) * 128 + 1 * d.val = (k 1).val; rw [(tile1_1 t).2, hk1]; omega

/-- The feature tile at point `t`: nodes `5000·(t % 20) + n`, every column. -/
theorem iblk1_2_apply (c : Dev nD) (t : Fin cfg1.N) (n : Fin 5000) (d : Fin 128) (k : SFeat.Idx)
    (hk0 : (k 0).val = 5000 * (t.val % 20) + n.val) (hk1 : (k 1).val = d.val) :
    (iblk1 V c 2 t : Vec Ideal S5000x128 .f32) (ix2 n d) = (V c main_arg0 : SFeat.Idx → EReal) k := by
  show V c main_arg0 (((cfg1.win 2).blk t).view.emb (ix2 n d)) = V c main_arg0 k
  refine congrArg (V c main_arg0) (funext fun a => Fin.ext ?_)
  match a with
  | ⟨0, _⟩ => show win1_2.index t (0 : Fin 2) * 5000 + 1 * n.val = (k 0).val; rw [(tile1_2 t).1, hk0]; omega
  | ⟨1, _⟩ => show win1_2.index t (1 : Fin 2) * 128 + 1 * d.val = (k 1).val; rw [(tile1_2 t).2, hk1]; omega

/-! ## The accumulator is the fold of its run -/

/-- The accumulator's reset and step at position `n`, as functions of the position. -/
def accReset1 (c : Dev nD) (n : ℕ) (h : n < cfg1.N) : Vec Ideal S1024x128 .f32 :=
  k1_pay2 (grid1.coords ⟨n, h⟩) (iblk1 V c 0 ⟨n, h⟩) (iblk1 V c 2 ⟨n, h⟩) (k1_pay1 (F := Ideal))
def accStep1 (c : Dev nD) (n : ℕ) (h : n < cfg1.N) (acc : Vec Ideal S1024x128 .f32) : Vec Ideal S1024x128 .f32 :=
  k1_pay2 (grid1.coords ⟨n, h⟩) (iblk1 V c 0 ⟨n, h⟩) (iblk1 V c 2 ⟨n, h⟩) acc

/-- At any point the accumulator is the fold of the run the point lies in, up to the point. -/
theorem acc_fold1 (c : Dev nD) (t : Fin cfg1.N) (h' : 20 * (t.val / 20) + t.val % 20 < cfg1.N) :
    accAt1 V c t.val t.isLt = Pipeline.accAt (accReset1 V c) (accStep1 V c) (20 * (t.val / 20)) (t.val % 20) h' :=
  Pipeline.eq_accAt_of_mod (accAt1 V c) 20 (accReset1 V c) (accStep1 V c)
    (fun n h hz => accAt1_reset V c ⟨n, h⟩ hz) (fun n h hz => accAt1_step V c ⟨n + 1, h⟩ hz) (by decide) t.val t.isLt h'

/-- Column `d` of the feature array by node number (zero past the last node: never read). -/
def featCol1 (c : Dev nD) (d : Fin 128) (k : ℕ) : EReal :=
  if h : k < 100000 then (V c main_arg0 : SFeat.Idx → EReal) (ix2 ⟨k, h⟩ d) else 0

/-- What position `n` adds at edge `e`, column `d` of the tile: over the tile's nodes, the selector times the feature
    entry (zero past the grid: never used). -/
def addend1 (c : Dev nD) (n : ℕ) (e : Fin 1024) (d : Fin 128) : EReal :=
  if h : n < cfg1.N then
    ∑ m : Fin 5000, (if (iblk1 V c 0 ⟨n, h⟩ : Vec Ideal S1024 .i32) (ix1 e)
        = BitVec.ofNat 32 (grid1.coords ⟨n, h⟩ 1).val * 5000#32 + BitVec.ofNat 32 m.val then (1 : EReal) else 0)
      * (iblk1 V c 2 ⟨n, h⟩ : Vec Ideal S5000x128 .f32) (ix2 m d)
  else 0

/-- Position `20·q + s`'s addend over the arrays: the selector of the edge's source word against node tile `s`, times
    column `d` of the features at the tile's nodes. -/
theorem addend1_eq (c : Dev nD) (q s : ℕ) (hs : s < 20) (h : 20 * q + s < cfg1.N) (e : Fin 1024) (d : Fin 128)
    (k : SIds.Idx) (hk : (k 0).val = 1024 * q + e.val) :
    addend1 V c (20 * q + s) e d
      = ∑ m : Fin 5000, (if (V c main_arg6 : SIds.Idx → BitVec 32) k = BitVec.ofNat 32 s * 5000#32 + BitVec.ofNat 32 m.val then (1 : EReal) else 0)
          * featCol1 V c d (5000 * s + m.val) := by
  unfold addend1
  rw [dif_pos h]
  refine Finset.sum_congr rfl fun m _ => ?_
  have hq : (20 * q + s) / 20 = q := by omega
  have hr : (20 * q + s) % 20 = s := by omega
  have hm : m.val < 5000 := m.isLt
  have e0 := iblk1_0_apply V c ⟨20 * q + s, h⟩ e k (by show (k 0).val = 1024 * ((20 * q + s) / 20) + e.val; rw [hq, hk])
  have e1 : (grid1.coords ⟨20 * q + s, h⟩ 1).val = s := (coord1 ⟨20 * q + s, h⟩).trans hr
  have e2 := iblk1_2_apply V c ⟨20 * q + s, h⟩ m d (ix2 ⟨5000 * s + m.val, by omega⟩ d)
    (by show 5000 * s + m.val = 5000 * ((20 * q + s) % 20) + m.val; rw [hr]) rfl
  rw [e0, e1, e2]
  unfold featCol1
  rw [dif_pos (by omega)]

/-- The step at an entry: what the accumulator held plus the position's addend. -/
theorem accStep1_apply (c : Dev nD) (n : ℕ) (h : n < cfg1.N) (acc : Vec Ideal S1024x128 .f32) (e : Fin 1024) (d : Fin 128) :
    accStep1 V c n h acc (ix2 e d) = acc (ix2 e d) + addend1 V c n e d := by
  unfold accStep1 addend1
  rw [dif_pos h]
  exact pay2_apply1 (grid1.coords ⟨n, h⟩) (iblk1 V c 0 ⟨n, h⟩) (iblk1 V c 2 ⟨n, h⟩) acc e d

/-- The reset at an entry: zero plus the position's addend. -/
theorem accReset1_apply (c : Dev nD) (n : ℕ) (h : n < cfg1.N) (e : Fin 1024) (d : Fin 128) :
    accReset1 V c n h (ix2 e d) = 0 + addend1 V c n e d := by
  have hstep := accStep1_apply V c n h (k1_pay1 (F := Ideal)) e d
  rw [pay1_apply1] at hstep
  exact hstep

/-- THE ACCUMULATOR AT A RUN'S LAST POINT, at edge `e`, column `d` of the tile: the sum of the run's 20 addends. -/
theorem acc_last1 (c : Dev nD) (t : Fin cfg1.N) (h19 : t.val % 20 = 19) (e : Fin 1024) (d : Fin 128) :
    accAt1 V c t.val t.isLt (ix2 e d) = ∑ s ∈ Finset.range 20, addend1 V c (20 * (t.val / 20) + s) e d := by
  have h' : 20 * (t.val / 20) + t.val % 20 < cfg1.N := by rw [Nat.div_add_mod]; exact t.isLt
  rw [acc_fold1 V c t h']
  have hsum := Pipeline.accAt_add_apply (accReset1 V c) (accStep1 V c) (fun _ => (0 : EReal))
    (fun n (i : S1024x128.Idx) => addend1 V c n (i 0) (i 1)) (20 * (t.val / 20)) 19
    (fun h i => by
      obtain ⟨e', d', rfl⟩ : ∃ (e' : Fin 1024) (d' : Fin 128), i = ix2 e' d' := ⟨i 0, i 1, eq_ix2 i⟩
      exact accReset1_apply V c _ h e' d')
    (fun n h acc i _ _ => by
      obtain ⟨e', d', rfl⟩ : ∃ (e' : Fin 1024) (d' : Fin 128), i = ix2 e' d' := ⟨i 0, i 1, eq_ix2 i⟩
      exact accStep1_apply V c n h acc e' d')
    (t.val % 20) (by omega) h' (ix2 e d)
  refine hsum.trans ?_
  rw [h19]
  show (0 : EReal) + ∑ s ∈ Finset.range 20, addend1 V c (20 * (t.val / 20) + s) e d = _
  rw [zero_add]

/-- Where the edge's source word is the word of node `m`, that sum is the feature entry of node `m`. -/
theorem acc_last1_eq (c : Dev nD) (t : Fin cfg1.N) (h19 : t.val % 20 = 19) (e : Fin 1024) (d : Fin 128)
    (k : SIds.Idx) (hk : (k 0).val = 1024 * (t.val / 20) + e.val) (m : Fin 100000)
    (hm : (V c main_arg6 : SIds.Idx → BitVec 32) k = BitVec.ofNat 32 m.val) :
    accAt1 V c t.val t.isLt (ix2 e d) = (V c main_arg0 : SFeat.Idx → EReal) (ix2 m d) := by
  have ht : t.val < 12500 := t.isLt
  rw [acc_last1 V c t h19 e d]
  rw [Finset.sum_congr rfl fun s hs => addend1_eq V c (t.val / 20) s (Finset.mem_range.mp hs)
    (by have hs' := Finset.mem_range.mp hs; show 20 * (t.val / 20) + s < 12500; omega) e d k hk]
  rw [hm, sum_onehot1 (featCol1 V c d) m.val m.isLt]
  unfold featCol1
  rw [dif_pos m.isLt]

/-- The output entry is the gathered product once its two factors are the arrays' entries. -/
theorem out1_eq_gather (feat : SFeat.Idx → EReal) (w : SEdge.Idx → EReal) (src : SIds.Idx → BitVec 32) (k : SEdge.Idx)
    (m : Fin 100000) (hm : src (ix1 (k 0)) = BitVec.ofNat 32 m.val) (accv wv : EReal)
    (hacc : accv = feat (ix2 m (k 1))) (hw : wv = w k) : accv * wv = gatherMul feat w src k := by
  show _ = feat (ix2 (srcRow (src (ix1 (k 0)))) (k 1)) * w k
  rw [hacc, hw, hm, srcRow_ofNat1]

/-! ## From tiles to the array -/

/-- An index of the output array is in point `t`'s tile iff each coordinate is in the tile's range on its axis. -/
theorem mem_tile1 (t : Fin cfg1.N) (i : S640000x128.Idx) :
    i ∈ ((cfg1.win 3).blk t).view.set ↔ ∀ a : Fin 2, win1_3.index t a * S1024x128.size a ≤ (i a).val ∧ (i a).val < win1_3.index t a * S1024x128.size a + S1024x128.size a := by
  show i ∈ ((View.whole main_v3).slice (win1_3.rect t)).set ↔ _
  rw [View.set_slice_whole, Rect.mem_set_unit]
  exact Iff.rfl

/-- WHAT A RUN'S LAST POINT WRITES BACK is its tile of the gathered product: the accumulator there is the source row's
    entries, and the weight tile holds the same edges' weights. -/
theorem flushed1_eq (c : Dev nD) (hs : InRange (V c main_arg6)) (t : Fin cfg1.N) (hf : (cfg1.win 3).flush t = true) :
    (dat1 (F := Ideal) V c).flushed 3 t
      = ((cfg1.win 3).blk t).view.read (Elt Ideal) (gatherMul (V c main_arg0) (V c main_arg3) (V c main_arg6)) := by
  have h19 : t.val % 20 = 19 := (flush1_3 t).mp hf
  obtain ⟨a3, b3⟩ := tile1_3 t
  show (cfg1.win 3).cut (grid1.coords t) ((dat1 V c).after 3 t) = _
  rw [after1_3]
  unfold outAt1
  refine funext fun (j : S1024x128.Idx) => ?_
  obtain ⟨e, d, rfl⟩ : ∃ (e : Fin 1024) (d : Fin 128), j = ix2 e d := ⟨j 0, j 1, eq_ix2 j⟩
  show k1_pay3 (accAt1 V c t.val t.isLt) (iblk1 V c 1 t) (ix2 e d)
    = gatherMul (V c main_arg0) (V c main_arg3) (V c main_arg6) (((cfg1.win 3).blk t).view.emb (ix2 e d))
  have hk0 : ((((cfg1.win 3).blk t).view.emb (ix2 e d) : S640000x128.Idx) 0).val = 1024 * (t.val / 20) + e.val := by
    show win1_3.index t (0 : Fin 2) * 1024 + 1 * e.val = _; rw [a3]; omega
  have hk1 : ((((cfg1.win 3).blk t).view.emb (ix2 e d) : S640000x128.Idx) 1).val = d.val := by
    show win1_3.index t (1 : Fin 2) * 128 + 1 * d.val = _; rw [b3]; omega
  obtain ⟨m, hm⟩ := hs ((((cfg1.win 3).blk t).view.emb (ix2 e d) : S640000x128.Idx) 0)
  rw [pay3_apply1]
  refine out1_eq_gather (V c main_arg0) (V c main_arg3) (V c main_arg6) (((cfg1.win 3).blk t).view.emb (ix2 e d)) m hm _ _ ?_ ?_
  · have hacc := acc_last1_eq V c t h19 e d (ix1 ((((cfg1.win 3).blk t).view.emb (ix2 e d) : S640000x128.Idx) 0)) hk0 m hm
    rw [hacc]
    exact congrArg (V c main_arg0) (funext fun a => Fin.ext (match a with | ⟨0, _⟩ => rfl | ⟨1, _⟩ => hk1.symm))
  · exact iblk1_1_apply V c t e d _ hk0 hk1

/-- After region 1 its output array holds, at edge `e` and column `d`, the source row's entry times the edge weight's
    entry: along the node tiles exactly one tile's one-hot selector picks the source row, the others add zero. Edge `e`
    lies in the tile written back at the last point of edge tile `e / 1024`'s run. -/
theorem final1 (c : Dev nD) (hs : InRange (V c main_arg6)) :
    (dat1 (F := Ideal) V c).arrAt 3 cfg1.N = gatherMul (V c main_arg0) (V c main_arg3) (V c main_arg6) :=
  (dat1 (F := Ideal) V c).arrAt_eq_of_cover 3 (gatherMul (V c main_arg0) (V c main_arg3) (V c main_arg6))
    (fun t hf => flushed1_eq V c hs t hf) fun (i : S640000x128.Idx) => by
      have hi0 : (i 0).val < 640000 := (i 0).isLt
      have hi1 : (i 1).val < 128 := (i 1).isLt
      have hlt : 20 * ((i 0).val / 1024) + 19 < cfg1.N := by show _ < 12500; omega
      refine ⟨⟨20 * ((i 0).val / 1024) + 19, hlt⟩, (flush1_3 _).mpr (by show (20 * ((i 0).val / 1024) + 19) % 20 = 19; omega), ?_⟩
      obtain ⟨a3, b3⟩ := tile1_3 ⟨20 * ((i 0).val / 1024) + 19, hlt⟩
      rw [mem_tile1]
      intro a
      match a with
      | ⟨0, _⟩ =>
        show win1_3.index _ (0 : Fin 2) * 1024 ≤ (i 0).val ∧ (i 0).val < win1_3.index _ (0 : Fin 2) * 1024 + 1024
        rw [a3]
        show (20 * ((i 0).val / 1024) + 19) / 20 * 1024 ≤ (i 0).val ∧ (i 0).val < (20 * ((i 0).val / 1024) + 19) / 20 * 1024 + 1024
        omega
      | ⟨1, _⟩ =>
        show win1_3.index _ (1 : Fin 2) * 128 ≤ (i 1).val ∧ (i 1).val < win1_3.index _ (1 : Fin 2) * 128 + 128
        rw [b3]; omega

end Cert.KernelIdeal.Hand

end
-- ==== Proof.KI.R2Value.lean ====
import proofs.«423799_j14568529068221_1_alg».proof.Proof.KI.R2Defs
import proofs.«423799_j14568529068221_1_alg».proof.Proof.Spec
import Idealize.ShloMosaic.Lib.Pipeline.Value
import Idealize.ShloMosaic.Lib.ValueIdx
import Idealize.ShloMosaic.Lib.ValueIdxRank1
import Idealize.ShloMosaic.Lib.ValueLayout
import Idealize.ShloMosaic.Lib.StableHlo.Predicate
import Idealize.ShloMosaic.PureOps.Ideal.Laws
import Mathlib.Algebra.BigOperators.Group.Finset.Basic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx
open scoped BigOperators

variable {F : FTy → Type} [FloatOps F]

local notation "𝕄" => MT nD τ sig Unit (Elt F) ℕ (UR sig nD τ) ℕ

open Cert.Spec

/-! # What the one-hot scatter leaves in its output array

Grid point `t` is node tile `t / 125` (nodes `1000·(t / 125) …`) and edge tile `t % 125` (edges `5120·(t % 125) …`). The
step adds to the accumulator the product of the tile's one-hot selector — row `n`, edge `e`: one when the word of node
`1000·(t / 125) + n` is the edge's destination word, else zero — with the tile's messages; the reset value is zero. So
after the 125 points of a node tile the accumulator's entry `(n, d)` is the sum, over the 125 edge tiles and the 5120
edges of each, of selector times message: re-indexed by `edge = 5120·tile + place`, the sum over all the edges of the
messages' column `d` whose destination word is the node's. That accumulator is what the tile's last point stores, and
the stored blocks tile the output array. Over the extended reals `0 · x = 0`, `1 · x = x` and addition is commutative
and associative, so nothing has to be finite. -/

variable (V : (c : Dev nD) → (b : Ref sig .tc) → Buf (Elt Ideal) ((c : Thread nD τ).loc b))

/-! ## The one-hot product's index maps -/

/-- The selector-times-messages product: rows by edges against edges by columns. -/
private abbrev dotSel := dot_S1000x5120_S5120x128_S1000x128_1_0_0_1_n_n

private theorem lhsSel_0 (j : S1000x128.Idx) (k : dotSel.contr.Idx) : (dotSel.lhsIdx j k 0 : ℕ) = j 0 := by
  simp [DotDims.lhsIdx, dotSel, dot_S1000x5120_S5120x128_S1000x128_1_0_0_1_n_n]; rfl
private theorem lhsSel_1 (j : S1000x128.Idx) (k : dotSel.contr.Idx) : (dotSel.lhsIdx j k 1 : ℕ) = k ⟨0, by decide⟩ := by
  simp [DotDims.lhsIdx, dotSel, dot_S1000x5120_S5120x128_S1000x128_1_0_0_1_n_n]; rfl
private theorem rhsSel_0 (j : S1000x128.Idx) (k : dotSel.contr.Idx) : (dotSel.rhsIdx j k 0 : ℕ) = k ⟨0, by decide⟩ := by
  simp [DotDims.rhsIdx, dotSel, dot_S1000x5120_S5120x128_S1000x128_1_0_0_1_n_n]; rfl
private theorem rhsSel_1 (j : S1000x128.Idx) (k : dotSel.contr.Idx) : (dotSel.rhsIdx j k 1 : ℕ) = j 1 := by
  simp [DotDims.rhsIdx, dotSel, dot_S1000x5120_S5120x128_S1000x128_1_0_0_1_n_n]; rfl

/-- The contraction index is the edge's place in the tile. -/
private abbrev selEquiv : dotSel.contr.Idx ≃ Fin 5120 := contrEquiv1 dotSel 5120 rfl rfl

private theorem lhsSel_eq (n : Fin 1000) (d : Fin 128) (e : Fin 5120) : dotSel.lhsIdx (ix2 n d) (selEquiv.symm e) = ix2 n e :=
  Shape.idx_ext₂ (lhsSel_0 _ _) ((lhsSel_1 _ _).trans (contrEquiv1_symm_val dotSel 5120 rfl rfl e))
private theorem rhsSel_eq (n : Fin 1000) (d : Fin 128) (e : Fin 5120) : dotSel.rhsIdx (ix2 n d) (selEquiv.symm e) = ix2 e d :=
  Shape.idx_ext₂ ((rhsSel_0 _ _).trans (contrEquiv1_symm_val dotSel 5120 rfl rfl e)) (rhsSel_1 _ _)

/-! ## The selector at an entry -/

/-- A one-bit word read as a number: the set bit is one, the clear bit zero. -/
private theorem sitofp_bit_one : FloatOps.sitofp (F := Ideal) .f32 ((1#1 : BitVec 1).setWidth 32) = 1 := by
  show (((((1#1 : BitVec 1).setWidth 32).toInt : ℝ)) : EReal) = 1
  rw [show ((1#1 : BitVec 1).setWidth 32).toInt = 1 from by decide]
  simp
private theorem sitofp_bit_zero : FloatOps.sitofp (F := Ideal) .f32 ((0#1 : BitVec 1).setWidth 32) = 0 := by
  show (((((0#1 : BitVec 1).setWidth 32).toInt : ℝ)) : EReal) = 0
  rw [show ((0#1 : BitVec 1).setWidth 32).toInt = 0 from by decide]
  simp

/-- The selector's entry at node row `n`, edge `e`: one when the row's word (tile base plus row number) is the
    edge's destination word, zero otherwise. -/
private theorem sel_apply (base : BitVec 32) (dst : IVec S5120 32) (n : Fin 1000) (e : Fin 5120) :
    (truncf .bf16 (sitofp .f32 (extui 32 (cmpi .eq (addi (broadcast S1000x5120 base) (iota .tc S1000x5120 32 [0] iota_S1000x5120_d0_w32))
        (broadcastTo S1000x5120 (shapeCast S1x5120 dst shapeCasts_S5120_S1x5120) broadcasts_S1x5120_S1000x5120)) natLt_1_32)) bitsLt_bf16_f32
        : FVec Ideal S1000x5120 .bf16) (ix2 n e)
      = if dst (ix1 e) = base + BitVec.ofNat 32 n.val then 1 else 0 := by
  show FloatOps.sitofp (F := Ideal) .f32 ((IntOp.cmpi .eq (IntOp.addi base (iota .tc S1000x5120 32 [0] iota_S1000x5120_d0_w32 (ix2 n e)))
      (broadcastTo S1000x5120 (shapeCast S1x5120 dst shapeCasts_S5120_S1x5120) broadcasts_S1x5120_S1000x5120 (ix2 n e))).setWidth 32) = _
  rw [iota_single_apply, broadcastTo_1b_ab_apply, shapeCast_a_1a_apply]
  show FloatOps.sitofp (F := Ideal) .f32 ((IntOp.cmpi .eq (base + BitVec.ofNat 32 n.val) (dst (ix1 e))).setWidth 32) = _
  by_cases h : dst (ix1 e) = base + BitVec.ofNat 32 n.val
  · rw [if_pos h, (StableHlo.Predicate.cmpi_eq_iff).mpr h.symm]; exact sitofp_bit_one
  · rw [if_neg h, eq_zero_of_ne_one (fun hc => h ((StableHlo.Predicate.cmpi_eq_iff).mp hc).symm)]; exact sitofp_bit_zero

/-! ## The two payloads at an entry -/

/-- The reset value is zero everywhere. -/
private theorem reset_apply (n : Fin 1000) (d : Fin 128) : k2_pay1 (F := Ideal) (ix2 n d) = 0 := by
  unfold k2_pay1
  rw [shapeCast_self]
  exact Ideal.ofBits_zero_f32

/-- The step at an entry: what the accumulator held, plus the tile's messages of the edges whose destination word is
    the row's word (tile base plus row number) — the one-hot row times the messages' column. -/
private theorem step_apply (i : grid2.Coords) (dst : Vec Ideal S5120 .i32) (acc : Vec Ideal S1000x128 .f32) (msg : Vec Ideal S5120x128 .bf16)
    (n : Fin 1000) (d : Fin 128) :
    k2_pay2 (F := Ideal) i dst acc msg (ix2 n d)
      = acc (ix2 n d) + ∑ e : Fin 5120,
          (if dst (ix1 e) = Scalar.muli (BitVec.ofNat 32 (i 0).val) 1000#32 + BitVec.ofNat 32 n.val then (1 : EReal) else 0) * msg (ix2 e d) := by
  unfold k2_pay2
  dsimp only
  rw [shapeCast_self]
  refine (addf_apply _ _ _).trans ?_
  congr 1
  rw [shapeCast_self]
  refine (Ideal.matmul_constant_zero_apply (φ₁ := .bf16) (φ₂ := .bf16) dotSel none _ msg (ix2 n d)).trans ?_
  rw [← Equiv.sum_comp selEquiv.symm]
  refine Finset.sum_congr rfl fun e _ => ?_
  rw [lhsSel_eq, rhsSel_eq, sel_apply]

/-! ## The arrays, and where the blocks sit -/

/-- The destination words, one per edge, and the messages, one row per edge, as the region finds them. -/
private abbrev dstArr (c : Dev nD) : S640000.Idx → BitVec 32 := V c main_arg5
private abbrev msgArr (c : Dev nD) : S640000x128.Idx → EReal := V c main_v2

/-- The windows' block indices, the output block's sizes and the node-tile coordinate, in closed form over the grid:
    point `t` is node tile `t / 125`, edge tile `t % 125`. -/
private theorem idx_facts : ∀ t : Fin cfg2.N,
    win2_0.index t (0 : Fin 1) = t.val % 125 ∧ win2_1.index t (0 : Fin 2) = t.val % 125 ∧ win2_1.index t (1 : Fin 2) = 0
      ∧ win2_2.index t (0 : Fin 2) = t.val / 125 ∧ win2_2.index t (1 : Fin 2) = 0
      ∧ win2_2.xsize (grid2.coords t) (0 : Fin 2) = 1000 ∧ win2_2.xsize (grid2.coords t) (1 : Fin 2) = 128
      ∧ ((grid2.coords t) 0).val = t.val / 125 :=
  (by decide +kernel : ∀ t : Fin grid2.N, _)

/-- The edge at place `e` of edge tile `s` (taken modulo the 125 tiles, so that it is an edge for every `s`). -/
private def edgeAt (s : ℕ) (e : Fin 5120) : Fin 640000 :=
  ⟨5120 * (s % 125) + e.val, by have := Nat.mod_lt s (show 0 < 125 by decide); have := e.isLt; omega⟩

/-- The destination words' block at point `t` holds the words of the edges of edge tile `t % 125`. -/
private theorem dst_blk_apply (c : Dev nD) (t : Fin cfg2.N) (e : Fin 5120) :
    (iblk2 V c 0 t : Vec Ideal S5120 .i32) (ix1 e) = dstArr V c (ix1 (edgeAt t.val e)) := by
  unfold iblk2
  rw [View.read_apply]
  show V c main_arg5 _ = V c main_arg5 _
  congr 1
  funext a
  apply Fin.ext
  match a with
  | ⟨0, _⟩ => show win2_0.index t 0 * 5120 + 1 * e.val = 5120 * (t.val % 125) + e.val; rw [(idx_facts t).1]; omega

/-- The messages' block at point `t` holds the rows of the edges of edge tile `t % 125`. -/
private theorem msg_blk_apply (c : Dev nD) (t : Fin cfg2.N) (e : Fin 5120) (d : Fin 128) :
    (iblk2 V c 1 t : Vec Ideal S5120x128 .bf16) (ix2 e d) = msgArr V c (ix2 (edgeAt t.val e) d) := by
  unfold iblk2
  rw [View.read_apply]
  show V c main_v2 _ = V c main_v2 _
  congr 1
  funext a
  apply Fin.ext
  match a with
  | ⟨0, _⟩ => show win2_1.index t 0 * 5120 + 1 * e.val = 5120 * (t.val % 125) + e.val; rw [(idx_facts t).2.1]; omega
  | ⟨1, _⟩ => show win2_1.index t 1 * 128 + 1 * d.val = d.val; rw [(idx_facts t).2.2.1]; omega

/-- The row's word: the tile base (node tile times 1000, as 32-bit words) plus the row number is the word of the
    node's number. -/
private theorem base_word (q n : ℕ) : Scalar.muli (BitVec.ofNat 32 q) 1000#32 + BitVec.ofNat 32 n = BitVec.ofNat 32 (1000 * q + n) := by
  show BitVec.ofNat 32 q * 1000#32 + BitVec.ofNat 32 n = _
  apply BitVec.eq_of_toNat_eq
  simp only [BitVec.toNat_add, BitVec.toNat_mul, BitVec.toNat_ofNat]
  omega

/-! ## The step at a point, over the arrays -/

/-- Point `t`'s addend at an entry: the messages' column over the edges of edge tile `t % 125` whose destination word
    is the word of node `1000·(t / 125) + row`. A function of every natural `t` (the edge tile is taken modulo 125). -/
private def addend (c : Dev nD) (t : ℕ) (j : S1000x128.Idx) : EReal :=
  ∑ e : Fin 5120,
    (if dstArr V c (ix1 (edgeAt t e)) = BitVec.ofNat 32 (1000 * (t / 125) + (j 0).val) then (1 : EReal) else 0)
      * msgArr V c (ix2 (edgeAt t e) (j 1))

/-- The step payload at point `t`, on the windows' blocks there, adds the point's addend. -/
private theorem step_at (c : Dev nD) (t : Fin cfg2.N) (acc : Vec Ideal S1000x128 .f32) (j : S1000x128.Idx) :
    k2_pay2 (F := Ideal) (grid2.coords t) (iblk2 V c 0 t) acc (iblk2 V c 1 t) j = acc j + addend V c t.val j := by
  obtain ⟨n, d, rfl⟩ : ∃ (n : Fin 1000) (d : Fin 128), j = ix2 n d := ⟨j 0, j 1, eq_ix2 j⟩
  refine (step_apply (grid2.coords t) (iblk2 V c 0 t) acc (iblk2 V c 1 t) n d).trans ?_
  congr 1
  unfold addend
  refine Finset.sum_congr rfl fun e _ => ?_
  rw [dst_blk_apply V c t e, msg_blk_apply V c t e d, (idx_facts t).2.2.2.2.2.2.2, base_word]

/-! ## The accumulator at a run's last point: the run's addends summed -/

private theorem acc_last (c : Dev nD) (t : Fin cfg2.N) (ht : t.val % 125 = 124) (j : S1000x128.Idx) :
    accAt2 V c t.val t.isLt j = ∑ s ∈ Finset.range 125, addend V c (125 * (t.val / 125) + s) j := by
  have hrun : 125 * (t.val / 125) + t.val % 125 < cfg2.N := by rw [Nat.div_add_mod]; exact t.isLt
  have hfold := Pipeline.eq_accAt_of_mod (accAt2 V c) 125
    (fun n h => k2_pay2 (F := Ideal) (grid2.coords ⟨n, h⟩) (iblk2 V c 0 ⟨n, h⟩) (k2_pay1 (F := Ideal)) (iblk2 V c 1 ⟨n, h⟩))
    (fun n h acc => k2_pay2 (F := Ideal) (grid2.coords ⟨n, h⟩) (iblk2 V c 0 ⟨n, h⟩) acc (iblk2 V c 1 ⟨n, h⟩))
    (fun n h hz => accAt2_reset V c ⟨n, h⟩ hz)
    (fun n h hz => accAt2_step V c ⟨n + 1, h⟩ hz)
    (by decide) t.val t.isLt hrun
  refine (congrFun hfold j).trans ?_
  refine (Pipeline.accAt_add_apply _ _ (fun _ => (0 : EReal)) (addend V c) (125 * (t.val / 125)) 124 ?_ ?_ (t.val % 125) (by omega) hrun j).trans ?_
  · intro h i
    refine (step_at V c ⟨_, h⟩ (k2_pay1 (F := Ideal)) i).trans ?_
    congr 1
    obtain ⟨n, d, rfl⟩ : ∃ (n : Fin 1000) (d : Fin 128), i = ix2 n d := ⟨i 0, i 1, eq_ix2 i⟩
    exact reset_apply n d
  · intro n h acc i _ _
    exact step_at V c ⟨n, h⟩ acc i
  · rw [ht, zero_add]

/-! ## The edge tiles' sums are the sum over all the edges -/

private theorem sum_tiles (f : Fin 640000 → EReal) :
    ∑ s ∈ Finset.range 125, ∑ e : Fin 5120, f (edgeAt s e) = ∑ k : Fin 640000, f k := by
  rw [Finset.sum_range, ← Fintype.sum_prod_type (f := fun p : Fin 125 × Fin 5120 => f (edgeAt p.1.val p.2))]
  refine Fintype.sum_equiv (finProdFinEquiv.trans (finCongr (by norm_num))) _ _ fun p => ?_
  congr 1
  apply Fin.ext
  show 5120 * (p.1.val % 125) + p.2.val = (finProdFinEquiv p).val
  rw [finProdFinEquiv_apply_val, Nat.mod_eq_of_lt p.1.isLt]
  omega

/-- So a run's addends sum to the filtered sum over all the edges. -/
private theorem run_sum (c : Dev nD) (q : ℕ) (j : S1000x128.Idx) :
    ∑ s ∈ Finset.range 125, addend V c (125 * q + s) j
      = ∑ k ∈ Finset.univ.filter (fun k : Fin 640000 => dstArr V c (ix1 k) = BitVec.ofNat 32 (1000 * q + (j 0).val)),
          msgArr V c (ix2 k (j 1)) := by
  rw [Finset.sum_filter, ← sum_tiles]
  refine Finset.sum_congr rfl fun s hs => ?_
  have hs' : s < 125 := Finset.mem_range.mp hs
  have hq : (125 * q + s) / 125 = q := by omega
  have he : ∀ e, edgeAt (125 * q + s) e = edgeAt s e := fun e => Fin.ext (by
    show 5120 * ((125 * q + s) % 125) + e.val = 5120 * (s % 125) + e.val
    rw [Nat.mul_add_mod])
  unfold addend
  refine Finset.sum_congr rfl fun e _ => ?_
  rw [hq, he]
  split_ifs <;> simp

/-! ## From the blocks to the array -/

/-- The segment sum at a node of node tile `q`, the node named by its row in the tile. -/
private theorem seg_at (c : Dev nD) (i : S100000x128.Idx) (q : ℕ) (j : S1000x128.Idx)
    (hrow : (i 0).val = 1000 * q + (j 0).val) (hcol : (i 1).val = (j 1).val) :
    segSumArr (V c main_v2) (V c main_arg5) i
      = ∑ k ∈ Finset.univ.filter (fun k : Fin 640000 => dstArr V c (ix1 k) = BitVec.ofNat 32 (1000 * q + (j 0).val)),
          msgArr V c (ix2 k (j 1)) := by
  show (∑ k ∈ Finset.univ.filter (fun k : Fin 640000 => dstArr V c (ix1 k) = BitVec.ofNat 32 (i 0).val), msgArr V c (ix2 k (i 1))) = _
  have hc : (i 1 : Fin 128) = j 1 := Fin.ext hcol
  rw [hrow, hc]

/-- An array read through the output block at point `t`: the block's entry sits at its place in the array. -/
private theorem read_emb (G : S100000x128.Idx → EReal) (t : Fin cfg2.N) (y : ((cfg2.win 2).xblock (grid2.coords t)).Idx) :
    ((cfg2.win 2).blk t).view.read (Elt Ideal) G y = G (((cfg2.win 2).blk t).view.emb y) := rfl

/-- What a storing point writes back is its block of the segment sums: the accumulator after the run's last point is
    the run's addends summed, the sum over all the edges filtered by the node's word. -/
private theorem flushed_eq (c : Dev nD) (t : Fin cfg2.N) (hf : (cfg2.win 2).flush t = true) :
    (dat2 (F := Ideal) V c).flushed 2 t
      = ((cfg2.win 2).blk t).view.read (Elt Ideal) (segSumArr (V c main_v2) (V c main_arg5)) := by
  have ht : t.val % 125 = 124 := (flush2_2 t).mp hf
  show (cfg2.win 2).cut (grid2.coords t) ((dat2 (F := Ideal) V c).after 2 t) = _
  rw [after2_2]
  funext y
  refine Eq.trans ?_ (read_emb (segSumArr (V c main_v2) (V c main_arg5)) t y).symm
  refine (acc_last V c t ht ((cfg2.win 2).xinj (grid2.coords t) y)).trans ?_
  refine (run_sum V c (t.val / 125) ((cfg2.win 2).xinj (grid2.coords t) y)).trans ?_
  refine (seg_at V c (((cfg2.win 2).blk t).view.emb y) (t.val / 125) ((cfg2.win 2).xinj (grid2.coords t) y) ?_ ?_).symm
  · show win2_2.index t 0 * 1000 + 1 * (y 0).val = 1000 * (t.val / 125) + (y 0).val
    rw [(idx_facts t).2.2.2.1]; omega
  · show win2_2.index t 1 * 128 + 1 * (y 1).val = (y 1).val
    rw [(idx_facts t).2.2.2.2.1]; omega

/-- Every entry of the output array lies in the block of its node tile's storing point. -/
private theorem cover (i : S100000x128.Idx) : ∃ t : Fin cfg2.N, (cfg2.win 2).flush t = true ∧ i ∈ ((cfg2.win 2).blk t).view.set := by
  have hrow : (i 0 : ℕ) < 100000 := (i 0).isLt
  have hcol : (i 1 : ℕ) < 128 := (i 1).isLt
  have hN : cfg2.N = 12500 := N_2
  have hlt : 125 * ((i 0 : ℕ) / 1000) + 124 < cfg2.N := by rw [hN]; omega
  refine ⟨⟨125 * ((i 0 : ℕ) / 1000) + 124, hlt⟩, (flush2_2 _).mpr (by show (125 * ((i 0 : ℕ) / 1000) + 124) % 125 = 124; omega), ?_⟩
  show i ∈ ((View.whole main_v4).slice (win2_2.rect ⟨125 * ((i 0 : ℕ) / 1000) + 124, hlt⟩)).set
  rw [View.set_slice_whole, Rect.mem_set_unit]
  have hf := idx_facts ⟨125 * ((i 0 : ℕ) / 1000) + 124, hlt⟩
  intro a
  match a with
  | ⟨0, _⟩ =>
    show win2_2.index ⟨125 * ((i 0 : ℕ) / 1000) + 124, hlt⟩ 0 * win2_2.size 0 ≤ (i 0 : ℕ)
      ∧ (i 0 : ℕ) < win2_2.index ⟨125 * ((i 0 : ℕ) / 1000) + 124, hlt⟩ 0 * win2_2.size 0 + win2_2.xsize (grid2.coords ⟨125 * ((i 0 : ℕ) / 1000) + 124, hlt⟩) 0
    rw [hf.2.2.2.1, hf.2.2.2.2.2.1, show win2_2.size 0 = 1000 from rfl]
    show (125 * ((i 0 : ℕ) / 1000) + 124) / 125 * 1000 ≤ (i 0 : ℕ) ∧ (i 0 : ℕ) < (125 * ((i 0 : ℕ) / 1000) + 124) / 125 * 1000 + 1000
    omega
  | ⟨1, _⟩ =>
    show win2_2.index ⟨125 * ((i 0 : ℕ) / 1000) + 124, hlt⟩ 1 * win2_2.size 1 ≤ (i 1 : ℕ)
      ∧ (i 1 : ℕ) < win2_2.index ⟨125 * ((i 0 : ℕ) / 1000) + 124, hlt⟩ 1 * win2_2.size 1 + win2_2.xsize (grid2.coords ⟨125 * ((i 0 : ℕ) / 1000) + 124, hlt⟩) 1
    rw [hf.2.2.2.2.1, hf.2.2.2.2.2.2.1]
    omega

/-- After the region its output array holds, at node `n` and column `d`, the sum of the messages' column `d` over the
    edges whose destination word is the word of `n`: the edge tiles' partial sums added up. -/
theorem final2 (c : Dev nD) :
    (dat2 (F := Ideal) V c).arrAt 2 cfg2.N = segSumArr (V c main_v2) (V c main_arg5) :=
  (dat2 (F := Ideal) V c).arrAt_eq_of_cover 2 (segSumArr (V c main_v2) (V c main_arg5)) (flushed_eq V c) cover

end Cert.KernelIdeal.Hand

end
-- ==== Proof.KI.R4Value.lean ====
import proofs.«423799_j14568529068221_1_alg».proof.Proof.KI.R4Defs
import proofs.«423799_j14568529068221_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Cert.Spec
open Idealize.ShloMosaic.ValueIdx

variable (V : (c : Dev nD) → (b : Ref sig .tc) → Buf (Elt Ideal) ((c : Thread nD τ).loc b))

/-! # Region 4: the output array after the run

Point `t` of the 20 writes back node rows `5000·t … 5000·t + 4999`, all 128 columns; what it writes is the fused
pointwise step of the same rows of the four input arrays. The 20 row tiles fill the array. -/

/-- Every window's row-tile number at point `t` is `t`; its column-tile number is `0`. -/
theorem tile4 : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0
    ∧ win4_3.index t (0 : Fin 2) = t.val ∧ win4_3.index t (1 : Fin 2) = 0
    ∧ win4_4.index t (0 : Fin 2) = t.val ∧ win4_4.index t (1 : Fin 2) = 0 :=
  (by decide +kernel : ∀ t : Fin grid4.N, _)

/-- The body's payload at row `r`, column `d` of the tile: the two received sums multiplied and cut off below at zero,
    plus the row's scale times the feature entry. The shape casts are to the same shape; the scale column is broadcast
    along the columns; the constant is the zero word. -/
theorem pay4_apply (x0 : Vec Ideal S5000x1 .f32) (x1 x2 x3 : Vec Ideal S5000x128 .f32) (r : Fin 5000) (d : Fin 128) :
    k4_pay1 x0 x1 x2 x3 (ix2 r d) = max (x2 (ix2 r d) * x3 (ix2 r d)) 0 + x0 (ix2 r (0 : Fin 1)) * x1 (ix2 r d) := by
  unfold k4_pay1
  rw [shapeCast_self, shapeCast_self, shapeCast_self]
  rw [addf_apply, maximumf_apply, mulf_apply, mulf_apply, broadcast_apply]
  rw [broadcastTo_apply x0 broadcasts_S5000x1_S5000x128 (ix2 r d) (ix2 r (0 : Fin 1))
    (fun a => match a with | ⟨0, _⟩ => rfl | ⟨1, _⟩ => rfl)]
  rw [Ideal.ofBits_def, Ideal.ofBits_zero_f32]

/-- So the payload of four tiles that hold, at `(r, d)`, the arrays' entries at node `k` (the scale tile its entry of
    row `k 0`) is the fused step of the arrays at `k`. -/
theorem pay4_eq_fuse (scale : SACol.Idx → EReal) (feat eh ih : SFeat.Idx → EReal)
    (x0 : Vec Ideal S5000x1 .f32) (x1 x2 x3 : Vec Ideal S5000x128 .f32) (r : Fin 5000) (d : Fin 128) (k : SFeat.Idx)
    (h0 : x0 (ix2 r (0 : Fin 1)) = scale (ix2 (k 0) (0 : Fin 1))) (h1 : x1 (ix2 r d) = feat k)
    (h2 : x2 (ix2 r d) = eh k) (h3 : x3 (ix2 r d) = ih k) :
    k4_pay1 x0 x1 x2 x3 (ix2 r d) = fuse scale feat eh ih k := by
  rw [pay4_apply, h0, h1, h2, h3]
  rfl

/-- An index of the output array is in point `t`'s tile iff each coordinate is in the tile's range on its axis. -/
theorem mem_tile4 (t : Fin cfg4.N) (i : S100000x128.Idx) :
    i ∈ ((cfg4.win 4).blk t).view.set ↔ ∀ a : Fin 2, win4_4.index t a * S5000x128.size a ≤ (i a).val ∧ (i a).val < win4_4.index t a * S5000x128.size a + S5000x128.size a := by
  show i ∈ ((View.whole main_v7).slice (win4_4.rect t)).set ↔ _
  rw [View.set_slice_whole, Rect.mem_set_unit]
  exact Iff.rfl

/-- WHAT POINT `t` WRITES BACK is tile `t` of the fused step of the four input arrays: each input tile holds the rows
    the output tile's rectangle names (a tile's coordinate is tile number × tile size + the coordinate inside). -/
theorem flushed4_eq (c : Dev nD) (t : Fin cfg4.N) :
    (dat4 (F := Ideal) V c).flushed 4 t
      = ((cfg4.win 4).blk t).view.read (Elt Ideal) (fuse (V c main_v6) (V c main_arg0) (V c main_v4) (V c main_v5)) := by
  show (cfg4.win 4).cut (grid4.coords t) ((dat4 V c).after 4 t) = _
  rw [after4_4]
  unfold outAt4
  obtain ⟨a0, b0, a1, b1, a2, b2, a3, b3, a4, b4⟩ := tile4 t
  refine funext fun (j : S5000x128.Idx) => ?_
  obtain ⟨r, d, rfl⟩ : ∃ (r : Fin 5000) (d : Fin 128), j = ix2 r d := ⟨j 0, j 1, eq_ix2 j⟩
  show k4_pay1 (iblk4 V c 0 t) (iblk4 V c 1 t) (iblk4 V c 2 t) (iblk4 V c 3 t) (ix2 r d)
    = fuse (V c main_v6) (V c main_arg0) (V c main_v4) (V c main_v5) (((cfg4.win 4).blk t).view.emb (ix2 r d))
  refine pay4_eq_fuse (V c main_v6) (V c main_arg0) (V c main_v4) (V c main_v5)
    (iblk4 V c 0 t) (iblk4 V c 1 t) (iblk4 V c 2 t) (iblk4 V c 3 t) r d (((cfg4.win 4).blk t).view.emb (ix2 r d)) ?_ ?_ ?_ ?_
  · show V c main_v6 (((cfg4.win 0).blk t).view.emb (ix2 r (0 : Fin 1))) = V c main_v6 _
    refine congrArg (V c main_v6) (funext fun a => Fin.ext ?_)
    match a with
    | ⟨0, _⟩ => show win4_0.index t (0 : Fin 2) * 5000 + 1 * r.val = win4_4.index t (0 : Fin 2) * 5000 + 1 * r.val; rw [a0, a4]
    | ⟨1, _⟩ => show win4_0.index t (1 : Fin 2) * 1 + 1 * 0 = 0; rw [b0]
  · show V c main_arg0 (((cfg4.win 1).blk t).view.emb (ix2 r d)) = V c main_arg0 _
    refine congrArg (V c main_arg0) (funext fun a => Fin.ext ?_)
    match a with
    | ⟨0, _⟩ => show win4_1.index t (0 : Fin 2) * 5000 + 1 * r.val = win4_4.index t (0 : Fin 2) * 5000 + 1 * r.val; rw [a1, a4]
    | ⟨1, _⟩ => show win4_1.index t (1 : Fin 2) * 128 + 1 * d.val = win4_4.index t (1 : Fin 2) * 128 + 1 * d.val; rw [b1, b4]
  · show V c main_v4 (((cfg4.win 2).blk t).view.emb (ix2 r d)) = V c main_v4 _
    refine congrArg (V c main_v4) (funext fun a => Fin.ext ?_)
    match a with
    | ⟨0, _⟩ => show win4_2.index t (0 : Fin 2) * 5000 + 1 * r.val = win4_4.index t (0 : Fin 2) * 5000 + 1 * r.val; rw [a2, a4]
    | ⟨1, _⟩ => show win4_2.index t (1 : Fin 2) * 128 + 1 * d.val = win4_4.index t (1 : Fin 2) * 128 + 1 * d.val; rw [b2, b4]
  · show V c main_v5 (((cfg4.win 3).blk t).view.emb (ix2 r d)) = V c main_v5 _
    refine congrArg (V c main_v5) (funext fun a => Fin.ext ?_)
    match a with
    | ⟨0, _⟩ => show win4_3.index t (0 : Fin 2) * 5000 + 1 * r.val = win4_4.index t (0 : Fin 2) * 5000 + 1 * r.val; rw [a3, a4]
    | ⟨1, _⟩ => show win4_3.index t (1 : Fin 2) * 128 + 1 * d.val = win4_4.index t (1 : Fin 2) * 128 + 1 * d.val; rw [b3, b4]

/-- After region 4 its output array holds the fused pointwise step of the four input arrays, block by block: node row
    `n` lies in the tile of point `n / 5000`. -/
theorem final4 (c : Dev nD) :
    (dat4 (F := Ideal) V c).arrAt 4 cfg4.N = fuse (V c main_v6) (V c main_arg0) (V c main_v4) (V c main_v5) :=
  (dat4 (F := Ideal) V c).arrAt_eq_of_cover 4 (fuse (V c main_v6) (V c main_arg0) (V c main_v4) (V c main_v5))
    (fun t _ => flushed4_eq V c t) fun (i : S100000x128.Idx) => by
      have hi0 : (i 0).val < 100000 := (i 0).isLt
      have hi1 : (i 1).val < 128 := (i 1).isLt
      have hN : cfg4.N = 20 := rfl
      refine ⟨⟨(i 0).val / 5000, by rw [hN]; omega⟩, flush4_4 _, ?_⟩
      obtain ⟨-, -, -, -, -, -, -, -, a4, b4⟩ := tile4 ⟨(i 0).val / 5000, by rw [hN]; omega⟩
      rw [mem_tile4]
      intro a
      match a with
      | ⟨0, _⟩ =>
        show win4_4.index _ (0 : Fin 2) * 5000 ≤ (i 0).val ∧ (i 0).val < win4_4.index _ (0 : Fin 2) * 5000 + 5000
        rw [a4]; show (i 0).val / 5000 * 5000 ≤ (i 0).val ∧ (i 0).val < (i 0).val / 5000 * 5000 + 5000; omega
      | ⟨1, _⟩ =>
        show win4_4.index _ (1 : Fin 2) * 128 ≤ (i 1).val ∧ (i 1).val < win4_4.index _ (1 : Fin 2) * 128 + 128
        rw [b4]; omega

end Cert.KernelIdeal.Hand

end
-- ==== Proof.KI.Compose.lean ====
import proofs.«423799_j14568529068221_1_alg».proof.Proof.KI.Fold
import proofs.«423799_j14568529068221_1_alg».proof.Proof.KI.R0Value
import proofs.«423799_j14568529068221_1_alg».proof.Proof.KI.R1Value
import proofs.«423799_j14568529068221_1_alg».proof.Proof.KI.R2Value
import proofs.«423799_j14568529068221_1_alg».proof.Proof.KI.R3Value
import proofs.«423799_j14568529068221_1_alg».proof.Proof.KI.R4Value
import proofs.«423799_j14568529068221_1_alg».proof.Proof.Gen.KernelIdeal.Regions
import proofs.«423799_j14568529068221_1_alg».proof.Proof.Spec
import Idealize.ShloMosaic.Lib.StableHlo.Run
import Idealize.ShloMosaic.Lib.ValueIdx
import Idealize.ShloMosaic.Lib.ValueIdxRank1
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Cert.Spec Idealize.ShloMosaic.ValueIdx StableHlo

/-! # The last boundary's result buffer is the specification of the launch arrays

Each region's output array is its stage of the specification applied to the arrays it was entered with
(`final0` … `final4`); every other buffer passes through a region unchanged. Chaining the five stages through the fold
of buffer contents gives the result buffer after the last region as `Cert.Spec.G` of the eight argument arrays. -/

variable (m : (ℓ : Loc nD τ sig) → Buf (Elt Ideal) ℓ) (ρ : Dev nD → PrngReg)

/-- Region 0 leaves every buffer but its output array as it found it: an input window's array by the write-back
    fold of an input (nothing is written back), any other buffer because the region does not touch it. -/
theorem W2_keep (c : Dev nD) (b : Ref sig .tc) (hb : b ≠ main_v2) :
    W2 m ρ c (Proc.devRef .tc b) = W1 m ρ c (Proc.devRef .tc b) := by
  by_cases h : ∃ w, Pipeline.arrRef spec0 w = b
  · obtain ⟨w, rfl⟩ := h
    rw [W2_arr]
    have hin : (cfg0.win w).isOut = false := by
      revert hb; revert w; decide
    exact ((dat0 (V1 m ρ) c).arrAt_in w hin _).trans (A_eq0 (V1 m ρ) c w)
  · exact W2_of_ne m ρ c b (fun w e => h ⟨w, e⟩)

/-- Region 1 leaves every buffer but its output array as it found it: an input window's array by the write-back
    fold of an input (nothing is written back), any other buffer because the region does not touch it. -/
theorem W3_keep (c : Dev nD) (b : Ref sig .tc) (hb : b ≠ main_v3) :
    W3 m ρ c (Proc.devRef .tc b) = W2 m ρ c (Proc.devRef .tc b) := by
  by_cases h : ∃ w, Pipeline.arrRef spec1 w = b
  · obtain ⟨w, rfl⟩ := h
    rw [W3_arr]
    have hin : (cfg1.win w).isOut = false := by
      revert hb; revert w; decide
    exact ((dat1 (V2 m ρ) c).arrAt_in w hin _).trans (A_eq1 (V2 m ρ) c w)
  · exact W3_of_ne m ρ c b (fun w e => h ⟨w, e⟩)

/-- Region 2 leaves every buffer but its output array as it found it: an input window's array by the write-back
    fold of an input (nothing is written back), any other buffer because the region does not touch it. -/
theorem W4_keep (c : Dev nD) (b : Ref sig .tc) (hb : b ≠ main_v4) :
    W4 m ρ c (Proc.devRef .tc b) = W3 m ρ c (Proc.devRef .tc b) := by
  by_cases h : ∃ w, Pipeline.arrRef spec2 w = b
  · obtain ⟨w, rfl⟩ := h
    rw [W4_arr]
    have hin : (cfg2.win w).isOut = false := by
      revert hb; revert w; decide
    exact ((dat2 (V3 m ρ) c).arrAt_in w hin _).trans (A_eq2 (V3 m ρ) c w)
  · exact W4_of_ne m ρ c b (fun w e => h ⟨w, e⟩)

/-- Region 3 leaves every buffer but its output array as it found it: an input window's array by the write-back
    fold of an input (nothing is written back), any other buffer because the region does not touch it. -/
theorem W5_keep (c : Dev nD) (b : Ref sig .tc) (hb : b ≠ main_v5) :
    W5 m ρ c (Proc.devRef .tc b) = W4 m ρ c (Proc.devRef .tc b) := by
  by_cases h : ∃ w, Pipeline.arrRef spec3 w = b
  · obtain ⟨w, rfl⟩ := h
    rw [W5_arr]
    have hin : (cfg3.win w).isOut = false := by
      revert hb; revert w; decide
    exact ((dat3 (V4 m ρ) c).arrAt_in w hin _).trans (A_eq3 (V4 m ρ) c w)
  · exact W5_of_ne m ρ c b (fun w e => h ⟨w, e⟩)

/-- Region 4 leaves every buffer but its output array as it found it: an input window's array by the write-back
    fold of an input (nothing is written back), any other buffer because the region does not touch it. -/
theorem W7_keep (c : Dev nD) (b : Ref sig .tc) (hb : b ≠ main_v7) :
    W7 m ρ c (Proc.devRef .tc b) = W6 m ρ c (Proc.devRef .tc b) := by
  by_cases h : ∃ w, Pipeline.arrRef spec4 w = b
  · obtain ⟨w, rfl⟩ := h
    rw [W7_arr]
    have hin : (cfg4.win w).isOut = false := by
      revert hb; revert w; decide
    exact ((dat4 (V6 m ρ) c).arrAt_in w hin _).trans (A_eq4 (V6 m ρ) c w)
  · exact W7_of_ne m ρ c b (fun w e => h ⟨w, e⟩)

/-! ## A buffer no item writes reaches each boundary as launched -/

theorem W1_pass (c : Dev nD) (b : Ref sig .tc) (h1 : b ∉ hostOps0_W) :
    W1 m ρ c (Proc.devRef .tc b) = m ((c : Thread nD τ).loc b) :=
  (StableHlo.after_of_writes_sub hostOps0 _ hostOps0_writes h1).trans rfl
theorem W2_pass (c : Dev nD) (b : Ref sig .tc) (h2 : b ≠ main_v2) (h1 : b ∉ hostOps0_W) :
    W2 m ρ c (Proc.devRef .tc b) = m ((c : Thread nD τ).loc b) :=
  (W2_keep m ρ c b h2).trans (W1_pass m ρ c b h1)
theorem W3_pass (c : Dev nD) (b : Ref sig .tc) (h3 : b ≠ main_v3) (h2 : b ≠ main_v2) (h1 : b ∉ hostOps0_W) :
    W3 m ρ c (Proc.devRef .tc b) = m ((c : Thread nD τ).loc b) :=
  (W3_keep m ρ c b h3).trans (W2_pass m ρ c b h2 h1)
theorem W4_pass (c : Dev nD) (b : Ref sig .tc) (h4 : b ≠ main_v4) (h3 : b ≠ main_v3) (h2 : b ≠ main_v2) (h1 : b ∉ hostOps0_W) :
    W4 m ρ c (Proc.devRef .tc b) = m ((c : Thread nD τ).loc b) :=
  (W4_keep m ρ c b h4).trans (W3_pass m ρ c b h3 h2 h1)
theorem W5_pass (c : Dev nD) (b : Ref sig .tc) (h5 : b ≠ main_v5) (h4 : b ≠ main_v4) (h3 : b ≠ main_v3) (h2 : b ≠ main_v2)
    (h1 : b ∉ hostOps0_W) : W5 m ρ c (Proc.devRef .tc b) = m ((c : Thread nD τ).loc b) :=
  (W5_keep m ρ c b h5).trans (W4_pass m ρ c b h4 h3 h2 h1)
theorem W6_pass (c : Dev nD) (b : Ref sig .tc) (h : b ∉ hostOps4_W) :
    W6 m ρ c (Proc.devRef .tc b) = W5 m ρ c (Proc.devRef .tc b) :=
  StableHlo.after_of_writes_sub hostOps4 _ hostOps4_writes h

/-! ## What the two host stretches compute -/

/-- After the first host stretch `main_v1` holds column 1 of `e_sim`, one scalar per edge. -/
theorem W1_main_v1 (c : Dev nD) :
    W1 m ρ c (Proc.devRef .tc main_v1) = weightCol (m ((c : Thread nD τ).loc main_arg2)) := by
  have hterm : W1 m ρ c (Proc.devRef .tc main_v1)
      = shapeCast S640000 (extractStridedSlice S640000x1 ![0, 1] (m ((c : Thread nD τ).loc main_arg2)) slices_S640000x128_S640000x1_0_1) shapeCasts_S640000x1_S640000 := by
    after_results
    rfl
  rw [hterm]
  funext j
  obtain ⟨e, rfl⟩ : ∃ e : Fin 640000, j = ix1 e := ⟨j 0, eq_ix1 j⟩
  rw [shapeCast_apply _ _ (ix1 e) (ix2 e (0 : Fin 1)) (by simp [Shape.rowMajor_val_one, Shape.rowMajor_val_two]),
    extractStridedSlice_apply _ _ _ (ix2 e (0 : Fin 1)) (ix2 e (1 : Fin 128)) (fun a => by
      match a with
      | ⟨0, _⟩ => simp
      | ⟨1, _⟩ => simp)]
  rfl

/-- After the second host stretch `main_v6` holds column 1 of what `main_arg1` held before it. -/
theorem W6_main_v6 (c : Dev nD) :
    W6 m ρ c (Proc.devRef .tc main_v6) = scaleCol (W5 m ρ c (Proc.devRef .tc main_arg1)) := by
  have hterm : W6 m ρ c (Proc.devRef .tc main_v6)
      = extractStridedSlice S100000x1 ![0, 1] (W5 m ρ c (Proc.devRef .tc main_arg1)) slices_S100000x2_S100000x1_0_1 := by
    after_results
  rw [hterm]
  funext j
  obtain ⟨n, z, rfl⟩ : ∃ (n : Fin 100000) (z : Fin 1), j = ix2 n z := ⟨j 0, j 1, eq_ix2 j⟩
  obtain rfl : z = 0 := Subsingleton.elim _ _
  rw [extractStridedSlice_apply _ _ _ (ix2 n (0 : Fin 1)) (ix2 n (1 : Fin 2)) (fun a => by
      match a with
      | ⟨0, _⟩ => simp
      | ⟨1, _⟩ => simp)]
  rfl

/-! ## The five stages chained -/

/-- After the two gather regions: the messages of the first edge set. -/
theorem W2_main_v2 (c : Dev nD) (hs : InRange (m ((c : Thread nD τ).loc main_arg4))) :
    W2 m ρ c (Proc.devRef .tc main_v2)
      = gatherScaled (m ((c : Thread nD τ).loc main_arg0)) (weightCol (m ((c : Thread nD τ).loc main_arg2))) (m ((c : Thread nD τ).loc main_arg4)) := by
  have e0 : V1 m ρ c main_arg0 = m ((c : Thread nD τ).loc main_arg0) := W1_pass m ρ c main_arg0 (by decide)
  have e4 : V1 m ρ c main_arg4 = m ((c : Thread nD τ).loc main_arg4) := W1_pass m ρ c main_arg4 (by decide)
  have e1 : V1 m ρ c main_v1 = weightCol (m ((c : Thread nD τ).loc main_arg2)) := W1_main_v1 m ρ c
  have h := final0 (V1 m ρ) c (by rw [e4]; exact hs)
  rw [e0, e1, e4] at h
  exact (W2_arr m ρ c 3).trans h

/-- And of the second edge set. -/
theorem W3_main_v3 (c : Dev nD) (hs : InRange (m ((c : Thread nD τ).loc main_arg6))) :
    W3 m ρ c (Proc.devRef .tc main_v3)
      = gatherMul (m ((c : Thread nD τ).loc main_arg0)) (m ((c : Thread nD τ).loc main_arg3)) (m ((c : Thread nD τ).loc main_arg6)) := by
  have e0 : V2 m ρ c main_arg0 = m ((c : Thread nD τ).loc main_arg0) := W2_pass m ρ c main_arg0 (by decide) (by decide)
  have e3 : V2 m ρ c main_arg3 = m ((c : Thread nD τ).loc main_arg3) := W2_pass m ρ c main_arg3 (by decide) (by decide)
  have e6 : V2 m ρ c main_arg6 = m ((c : Thread nD τ).loc main_arg6) := W2_pass m ρ c main_arg6 (by decide) (by decide)
  have h := final1 (V2 m ρ) c (by rw [e6]; exact hs)
  rw [e0, e3, e6] at h
  exact (W3_arr m ρ c 3).trans h

/-- After the first scatter region: what each node receives on the first edge set. -/
theorem W4_main_v4 (c : Dev nD) (hs : InRange (m ((c : Thread nD τ).loc main_arg4))) :
    W4 m ρ c (Proc.devRef .tc main_v4)
      = segSumArr (gatherScaled (m ((c : Thread nD τ).loc main_arg0)) (weightCol (m ((c : Thread nD τ).loc main_arg2))) (m ((c : Thread nD τ).loc main_arg4)))
          (m ((c : Thread nD τ).loc main_arg5)) := by
  have e2 : V3 m ρ c main_v2 = _ := (W3_keep m ρ c main_v2 (by decide)).trans (W2_main_v2 m ρ c hs)
  have e5 : V3 m ρ c main_arg5 = m ((c : Thread nD τ).loc main_arg5) := W3_pass m ρ c main_arg5 (by decide) (by decide) (by decide)
  have h := final2 (V3 m ρ) c
  rw [e2, e5] at h
  exact (W4_arr m ρ c 2).trans h

/-- After the second scatter region: what each node receives on the second edge set. -/
theorem W5_main_v5 (c : Dev nD) (hs : InRange (m ((c : Thread nD τ).loc main_arg6))) :
    W5 m ρ c (Proc.devRef .tc main_v5)
      = segSumArr (gatherMul (m ((c : Thread nD τ).loc main_arg0)) (m ((c : Thread nD τ).loc main_arg3)) (m ((c : Thread nD τ).loc main_arg6)))
          (m ((c : Thread nD τ).loc main_arg7)) := by
  have e3 : V4 m ρ c main_v3 = _ := (W4_keep m ρ c main_v3 (by decide)).trans (W3_main_v3 m ρ c hs)
  have e7 : V4 m ρ c main_arg7 = m ((c : Thread nD τ).loc main_arg7) := W4_pass m ρ c main_arg7 (by decide) (by decide) (by decide) (by decide)
  have h := final3 (V4 m ρ) c
  rw [e3, e7] at h
  exact (W5_arr m ρ c 2).trans h

/-- THE RESULT BUFFER after the last region is the specification of the launch arrays. -/
theorem W7_main_v7 (c : Dev nD) (hs : InRange (m ((c : Thread nD τ).loc main_arg4))) (hc : InRange (m ((c : Thread nD τ).loc main_arg6))) :
    W7 m ρ c (Proc.devRef .tc main_v7)
      = G (m ((c : Thread nD τ).loc main_arg0)) (m ((c : Thread nD τ).loc main_arg1)) (m ((c : Thread nD τ).loc main_arg2)) (m ((c : Thread nD τ).loc main_arg3))
          (m ((c : Thread nD τ).loc main_arg4)) (m ((c : Thread nD τ).loc main_arg5)) (m ((c : Thread nD τ).loc main_arg6)) (m ((c : Thread nD τ).loc main_arg7)) := by
  have e1 : W5 m ρ c (Proc.devRef .tc main_arg1) = m ((c : Thread nD τ).loc main_arg1) :=
    W5_pass m ρ c main_arg1 (by decide) (by decide) (by decide) (by decide) (by decide)
  have e6 : V6 m ρ c main_v6 = scaleCol (m ((c : Thread nD τ).loc main_arg1)) := by
    show W6 m ρ c (Proc.devRef .tc main_v6) = _
    rw [W6_main_v6, e1]
  have e0 : V6 m ρ c main_arg0 = m ((c : Thread nD τ).loc main_arg0) :=
    (W6_pass m ρ c main_arg0 (by decide)).trans (W5_pass m ρ c main_arg0 (by decide) (by decide) (by decide) (by decide) (by decide))
  have e4 : V6 m ρ c main_v4 = _ :=
    (W6_pass m ρ c main_v4 (by decide)).trans ((W5_keep m ρ c main_v4 (by decide)).trans (W4_main_v4 m ρ c hs))
  have e5 : V6 m ρ c main_v5 = _ := (W6_pass m ρ c main_v5 (by decide)).trans (W5_main_v5 m ρ c hc)
  have h := final4 (V6 m ρ) c
  rw [e6, e0, e4, e5] at h
  exact (W7_arr m ρ c 4).trans h

end Cert.KernelIdeal.Hand

end
-- ==== Proof.LibRowScatter.lean ====
import Idealize.ShloMosaic.PureOps.Ideal
import Idealize.ShloMosaic.Lib.ValueIdx
import Mathlib.Algebra.BigOperators.Group.Finset.Basic
import proofs.«423799_j14568529068221_1_alg».proof.Proof.LibGatherScatter

/-!
# Row segment scatters, read at an index

A segment sum of the rows of an `[n, C]` array (`segment_sum(x, ids, K)`) lowers to a scatter-add of the `n` rows
into `K` rows of zeros at the ids as an `[n, 1]` array: the updates' axis 1 is the window axis (it goes to the
operand's axis 1), the operand's axis 0 is inserted and is the one the index word names. Update `(t, k')` lands on
element `(s, k)` exactly when the id of row `t`, read signed and NOT clamped, is `s`, and `k' = k`; a row whose id is
outside `[0, K)` lands nowhere.
-/

noncomputable section

open scoped BigOperators
open Idealize.ShloMosaic Idealize.ShloMosaic.ValueIdx

namespace Cert.Lib

/-- The dimension numbers of a row segment scatter: operand `[K, C]`, scatter indices `[n, 1]`, updates `[n, C]`. -/
abbrev rowScatterDims (K C n : Nat)
    (wf : ScatterDims.WF ⟨2, ![K, C]⟩ ⟨2, ![n, 1]⟩ ⟨2, ![n, C]⟩ [1] [0] [0] 1) :
    ScatterDims ⟨2, ![K, C]⟩ ⟨2, ![n, 1]⟩ ⟨2, ![n, C]⟩ where
  updateWindowDims := [1]
  insertedWindowDims := [0]
  scatterDimsToOperandDims := [0]
  indexVectorDim := 1
  wf := wf

/-- Update `(t, k')` of a row segment scatter lands on element `(s, k)` exactly when the index word of row `t`, read
    signed, is `s`, and the columns agree. -/
theorem rowScatter_resultIdx_iff {K C n : Nat}
    (wf : ScatterDims.WF ⟨2, ![K, C]⟩ ⟨2, ![n, 1]⟩ ⟨2, ![n, C]⟩ [1] [0] [0] 1)
    (idx : IVec ⟨2, ![n, 1]⟩ 32) (t : Fin n) (k k' : Fin C) (s : Fin K) :
    (rowScatterDims K C n wf).resultIdx? (ix2 t k') idx = some (ix2 s k)
      ↔ (idx (ix2 t 0)).toInt = (s.val : Int) ∧ k' = k := by
  -- axis 0 is inserted and named by the map: the start is the index word read signed, the window coordinate is 0
  have hstart0 : (rowScatterDims K C n wf).start (ix2 t k') idx (0 : Fin 2) = (idx (ix2 t 0)).toInt := by
    unfold ScatterDims.start
    rw [dif_pos (show (0 : Fin 2) ∈ (rowScatterDims K C n wf).scatterDimsToOperandDims from List.mem_singleton.mpr rfl)]
    have hsi : (rowScatterDims K C n wf).siIdx (ix2 t k') ⟨List.idxOf (0 : Fin 2) (rowScatterDims K C n wf).scatterDimsToOperandDims,
        List.idxOf_lt_length_iff.2 (List.mem_singleton.mpr rfl)⟩ = ix2 t 0 := by
      funext b; refine Fin.ext ?_
      match b with
      | ⟨0, _⟩ => rfl
      | ⟨1, _⟩ => rfl
    rw [hsi]
  have hwin0 : (rowScatterDims K C n wf).window (ix2 t k') (0 : Fin 2) = 0 := by
    unfold ScatterDims.window
    rw [dif_neg]
    show (0 : Fin 2) ∉ (⟨2, ![K, C]⟩ : Shape).kept [0]
    simp [Shape.kept]
  -- axis 1 is kept and not named by the map: the start is 0, the window coordinate is the update's column
  have hstart1 : (rowScatterDims K C n wf).start (ix2 t k') idx (1 : Fin 2) = 0 := by
    unfold ScatterDims.start
    rw [dif_neg]
    show (1 : Fin 2) ∉ ([0] : List (Fin 2))
    decide
  have hwin1 : (rowScatterDims K C n wf).window (ix2 t k') (1 : Fin 2) = k'.val := by
    have hk : (1 : Fin 2) ∈ (rowScatterDims K C n wf).sKept := by
      show (1 : Fin 2) ∈ (⟨2, ![K, C]⟩ : Shape).kept [0]
      simp [Shape.kept]
    unfold ScatterDims.window
    rw [dif_pos hk]
    rfl
  have hsz0 : (⟨2, ![K, C]⟩ : Shape).size (0 : Fin 2) = K := rfl
  have hsz1 : (⟨2, ![K, C]⟩ : Shape).size (1 : Fin 2) = C := rfl
  have hs := s.isLt
  have hk' := k'.isLt
  unfold ScatterDims.resultIdx?
  constructor
  · intro h
    split at h
    · rename_i hin
      have h0 := congrArg Fin.val (congrFun (Option.some.inj h) (0 : Fin 2))
      have h1 := congrArg Fin.val (congrFun (Option.some.inj h) (1 : Fin 2))
      have h3 := (hin 0).1
      rw [hstart0, hwin0] at h3
      change ((rowScatterDims K C n wf).start (ix2 t k') idx 0 + ((rowScatterDims K C n wf).window (ix2 t k') 0 : Nat)).toNat = s.val at h0
      change ((rowScatterDims K C n wf).start (ix2 t k') idx 1 + ((rowScatterDims K C n wf).window (ix2 t k') 1 : Nat)).toNat = k.val at h1
      rw [hstart0, hwin0] at h0
      rw [hstart1, hwin1] at h1
      refine ⟨by omega, Fin.ext (by omega)⟩
    · exact absurd h (by simp)
  · rintro ⟨hv, rfl⟩
    have hin0 : 0 ≤ (rowScatterDims K C n wf).start (ix2 t k') idx 0 + ((rowScatterDims K C n wf).window (ix2 t k') 0 : Nat)
        ∧ (rowScatterDims K C n wf).start (ix2 t k') idx 0 + ((rowScatterDims K C n wf).window (ix2 t k') 0 : Nat)
          < ((⟨2, ![K, C]⟩ : Shape).size 0 : Nat) := by
      rw [hstart0, hwin0, hv, hsz0]
      omega
    have hin1 : 0 ≤ (rowScatterDims K C n wf).start (ix2 t k') idx 1 + ((rowScatterDims K C n wf).window (ix2 t k') 1 : Nat)
        ∧ (rowScatterDims K C n wf).start (ix2 t k') idx 1 + ((rowScatterDims K C n wf).window (ix2 t k') 1 : Nat)
          < ((⟨2, ![K, C]⟩ : Shape).size 1 : Nat) := by
      rw [hstart1, hwin1, hsz1]
      omega
    have hin : ∀ a, 0 ≤ (rowScatterDims K C n wf).start (ix2 t k') idx a + ((rowScatterDims K C n wf).window (ix2 t k') a : Nat)
        ∧ (rowScatterDims K C n wf).start (ix2 t k') idx a + ((rowScatterDims K C n wf).window (ix2 t k') a : Nat)
          < ((⟨2, ![K, C]⟩ : Shape).size a : Nat) := by
      intro a
      match a with
      | ⟨0, _⟩ => exact hin0
      | ⟨1, _⟩ => exact hin1
    rw [dif_pos hin]
    congr 1
    have e0 : ((rowScatterDims K C n wf).start (ix2 t k') idx 0 + ((rowScatterDims K C n wf).window (ix2 t k') 0 : Nat)).toNat = s.val := by
      rw [hstart0, hwin0, hv]
      simp
    have e1 : ((rowScatterDims K C n wf).start (ix2 t k') idx 1 + ((rowScatterDims K C n wf).window (ix2 t k') 1 : Nat)).toNat = k'.val := by
      rw [hstart1, hwin1]
      simp
    funext a
    refine Fin.ext ?_
    match a with
    | ⟨0, _⟩ => exact e0
    | ⟨1, _⟩ => exact e1

/-- THE ROW SEGMENT SCATTER-ADD READ AT `(s, k)` (at the ideal instance): the operand's element plus the sum, over the
    rows whose index word is the word of `s`, of the updates' column `k`. -/
theorem hostScatterAdd_rows_apply {K C n : Nat} (hK : K ≤ 2 ^ 31)
    (wf : ScatterDims.WF ⟨2, ![K, C]⟩ ⟨2, ![n, 1]⟩ ⟨2, ![n, C]⟩ [1] [0] [0] 1)
    (x : (⟨2, ![K, C]⟩ : Shape).Idx → EReal) (idx : IVec ⟨2, ![n, 1]⟩ 32) (upd : (⟨2, ![n, C]⟩ : Shape).Idx → EReal)
    (s : Fin K) (k : Fin C) :
    Ideal.hostScatterAdd (rowScatterDims K C n wf) x idx upd (ix2 s k)
      = x (ix2 s k) + ∑ t ∈ Finset.univ.filter (fun t : Fin n => idx (ix2 t 0) = BitVec.ofNat 32 s.val), upd (ix2 t k) := by
  unfold Ideal.hostScatterAdd
  congr 1
  -- the updates that land on `(s, k)` are the column-`k` entries of the rows whose word is the word of `s`
  have hs : s.val < 2 ^ 31 := by have := s.isLt; omega
  refine Finset.sum_nbij' (fun j : (⟨2, ![n, C]⟩ : Shape).Idx => (idxEquiv2 j).1) (fun t => ix2 t k) ?_ ?_ ?_ ?_ ?_
  · intro j hj
    obtain ⟨t, k', rfl⟩ : ∃ (t : Fin n) (k' : Fin C), j = ix2 t k' := ⟨j 0, j 1, eq_ix2 j⟩
    have hj' := (Finset.mem_filter.1 hj).2
    refine Finset.mem_filter.2 ⟨Finset.mem_univ _, ?_⟩
    show idx (ix2 t 0) = BitVec.ofNat 32 s.val
    exact (toInt_eq_iff_eq_ofNat _ _ hs).1 ((rowScatter_resultIdx_iff wf idx t k k' s).1 hj').1
  · intro t ht
    have ht' := (Finset.mem_filter.1 ht).2
    exact Finset.mem_filter.2 ⟨Finset.mem_univ _,
      (rowScatter_resultIdx_iff wf idx t k k s).2 ⟨(toInt_eq_iff_eq_ofNat _ _ hs).2 ht', rfl⟩⟩
  · intro j hj
    obtain ⟨t, k', rfl⟩ : ∃ (t : Fin n) (k' : Fin C), j = ix2 t k' := ⟨j 0, j 1, eq_ix2 j⟩
    have hj' := (Finset.mem_filter.1 hj).2
    obtain rfl := ((rowScatter_resultIdx_iff wf idx t k k' s).1 hj').2
    rfl
  · intro t _
    rfl
  · intro j hj
    obtain ⟨t, k', rfl⟩ : ∃ (t : Fin n) (k' : Fin C), j = ix2 t k' := ⟨j 0, j 1, eq_ix2 j⟩
    have hj' := (Finset.mem_filter.1 hj).2
    obtain rfl := ((rowScatter_resultIdx_iff wf idx t k k' s).1 hj').2
    rfl

end Cert.Lib

end
-- ==== Proof.RefValue.lean ====
import proofs.«423799_j14568529068221_1_alg».proof.Defs
import proofs.«423799_j14568529068221_1_alg».proof.Proof.Gen.ReferenceIdeal.Run
import proofs.«423799_j14568529068221_1_alg».proof.Proof.Gen.ReferenceIdeal.Read
import proofs.«423799_j14568529068221_1_alg».proof.Proof.Spec
import proofs.«423799_j14568529068221_1_alg».proof.Proof.LibGatherScatter
import proofs.«423799_j14568529068221_1_alg».proof.Proof.LibRowScatter
import Idealize.ShloMosaic.PureOps.Ideal.Laws
import Idealize.ShloMosaic.Lib.StableHlo.Predicate
import Mathlib.Algebra.BigOperators.Group.Finset.Basic

/-!
# The reference computes the result function

The reference, read at node `n`, column `d`: two row gathers of the feature table at the source words (a negative
word counted from the end, then kept inside the node range), each multiplied by its edge weights; two segment
scatter-adds of those messages into zeros at the destination words, `a` and `b`; then
`max(½ · (((a + b)² − a²) − b²), 0) + alpha[n, 1] · feat[n, d]`.

Under the range hypothesis a source word is the word of a node number, so it is not negative and the gathered row is
the row the result function names. Under the finiteness hypothesis every message is a product of two real numbers, so
`a` and `b` are real numbers, and for real numbers `½ · (((a + b)² − a²) − b²) = a · b` — the one law here
that fails at the infinities. What is left is commutativity of the product inside each message.
-/

noncomputable section

open scoped BigOperators
open Idealize.ShloMosaic Idealize.ShloMosaic.TcCoe Idealize.SL.Sem Idealize.ShloMosaic.ValueIdx

namespace Cert.ReferenceIdeal.RefValue

open Cert.ReferenceIdeal Cert.Spec

/-! ## Real numbers inside the extended reals -/

/-- The word `0x3F000000` denotes one half. -/
theorem ofBits_half : Ideal.ofBits .f32 0x3F000000#32 = ((1 / 2 : ℝ) : EReal) := by
  simp [Ideal.ofBits, Ideal.ieee, -EReal.coe_mul]; norm_num

/-- A finite sum of real numbers is a real number. -/
theorem real_sum {ι : Type} (s : Finset ι) (g : ι → EReal) (h : ∀ i ∈ s, ∃ r : ℝ, g i = (r : EReal)) :
    ∃ r : ℝ, ∑ i ∈ s, g i = (r : EReal) := by
  classical
  induction s using Finset.induction_on with
  | empty => exact ⟨0, by simp⟩
  | insert a s ha ih =>
    obtain ⟨r, hr⟩ := ih (fun i hi => h i (Finset.mem_insert_of_mem hi))
    obtain ⟨q, hq⟩ := h a (Finset.mem_insert_self a s)
    exact ⟨q + r, by rw [Finset.sum_insert ha, hr, hq, EReal.coe_add]⟩

/-- For real `a`, `b`: half of `((a + b)² − a²) − b²` is `a · b`. The coercion is pushed out of every
    operation and the identity is one of the real field. -/
theorem half_law (a b : ℝ) :
    ((1 / 2 : ℝ) : EReal) * ((((a : EReal) + b) * ((a : EReal) + b) - (a : EReal) * a) - (b : EReal) * b)
      = (a : EReal) * b := by
  rw [← EReal.coe_add, ← EReal.coe_mul, ← EReal.coe_mul, ← EReal.coe_mul, ← EReal.coe_sub, ← EReal.coe_sub,
    ← EReal.coe_mul, ← EReal.coe_mul]
  congr 1
  ring

/-! ## The stages of the result function are real where their inputs are -/

theorem weightCol_finite {esim : SEdge.Idx → EReal} (h : Finite esim) : Finite (weightCol esim) :=
  fun j => h (ix2 (j 0) (1 : Fin 128))

theorem gatherScaled_finite {feat : SFeat.Idx → EReal} {w : SIds.Idx → EReal} (src : SIds.Idx → BitVec 32)
    (hf : Finite feat) (hw : Finite w) : Finite (gatherScaled feat w src) := by
  intro i
  obtain ⟨r, hr⟩ := hf (ix2 (srcRow (src (ix1 (i 0)))) (i 1))
  obtain ⟨q, hq⟩ := hw (ix1 (i 0))
  exact ⟨r * q, by show feat _ * w _ = _; rw [hr, hq, EReal.coe_mul]⟩

theorem gatherMul_finite {feat : SFeat.Idx → EReal} {w : SEdge.Idx → EReal} (src : SIds.Idx → BitVec 32)
    (hf : Finite feat) (hw : Finite w) : Finite (gatherMul feat w src) := by
  intro i
  obtain ⟨r, hr⟩ := hf (ix2 (srcRow (src (ix1 (i 0)))) (i 1))
  obtain ⟨q, hq⟩ := hw i
  exact ⟨r * q, by show feat _ * w _ = _; rw [hr, hq, EReal.coe_mul]⟩

/-- A segment sum of real messages is real at every node and column. -/
theorem segSumArr_real {msg : SEdge.Idx → EReal} (dst : SIds.Idx → BitVec 32) (h : Finite msg) (i : SFeat.Idx) :
    ∃ r : ℝ, segSumArr msg dst i = (r : EReal) :=
  real_sum _ _ (fun e _ => h (ix2 e (i 1)))

/-! ## The source word -/

/-- The word of a node number is not negative: counting it from the end leaves it as it is. -/
theorem normIdx_ofNat (n : Fin 100000) :
    Cert.Lib.normIdx 100000#32 (BitVec.ofNat 32 n.val) = BitVec.ofNat 32 n.val := by
  have h0 : IntOp.cmpi .slt (BitVec.ofNat 32 n.val) 0#32 = 0#1 := by
    apply eq_zero_of_ne_one
    intro h
    have hlt : (BitVec.ofNat 32 n.val).toNat < 2 ^ 31 := by
      rw [BitVec.toNat_ofNat]; have := n.isLt; omega
    have := (StableHlo.Predicate.slt_iff_toNat hlt (by decide)).1 h
    simp at this
  unfold Cert.Lib.normIdx
  rw [h0, select_zero]

/-! ## The generated index functions at coordinates -/

theorem idx_scale (n : Fin 100000) (d : Fin 128) :
    Read.idx_main_v0 (Read.idx_main_v1 (ix2 n d)) = ix2 n (1 : Fin 2) := by
  funext a
  refine Fin.ext ?_
  match a with
  | ⟨0, _⟩ => rfl
  | ⟨1, _⟩ => rfl

theorem idx_weight (t : Fin 640000) (d : Fin 128) :
    Read.idx_main_v3 (Read.idx_main_v11 (ix2 t d)) = ix2 t (1 : Fin 128) := by
  funext a
  refine Fin.ext ?_
  match a with
  | ⟨0, _⟩ => rfl
  | ⟨1, _⟩ => rfl

theorem idx_srcS (t : Fin 640000) : Read.idx_main_v9 (ix2 t (0 : Fin 1)) = ix1 t := by
  funext a
  refine Fin.ext ?_
  match a with
  | ⟨0, _⟩ => rfl

theorem idx_dstS (t : Fin 640000) : Read.idx_main_v14 (ix2 t (0 : Fin 1)) = ix1 t := by
  funext a
  refine Fin.ext ?_
  match a with
  | ⟨0, _⟩ => rfl

theorem idx_srcC (t : Fin 640000) : Read.idx_main_v21 (ix2 t (0 : Fin 1)) = ix1 t := by
  funext a
  refine Fin.ext ?_
  match a with
  | ⟨0, _⟩ => rfl

theorem idx_dstC (t : Fin 640000) : Read.idx_main_v25 (ix2 t (0 : Fin 1)) = ix1 t := by
  funext a
  refine Fin.ext ?_
  match a with
  | ⟨0, _⟩ => rfl

/-! ## The two stages read through their dimension numbers -/

/-- The row gather at `(t, d)`: the table's row at the start word of row `t`, read signed and kept inside the
    node range. -/
theorem gather_apply (x : SFeat.Idx → EReal) (w : SECol.Idx → BitVec 32) (t : Fin 640000) (d : Fin 128) :
    Host.gather gather_S100000x128_S640000x1_S640000x128_1_0_n_n_0_1_1128 x w (ix2 t d)
      = x (ix2 (Cert.Lib.clampRow 100000 (by decide) (w (ix2 t (0 : Fin 1)))) d) :=
  Cert.Lib.gather_rows_apply (by decide) _ x w t d

/-- The row segment scatter-add at `(n, d)`: the operand's entry plus the sum, over the rows whose index word is
    the word of `n`, of the updates' column `d`. -/
theorem scatter_apply (z : SFeat.Idx → EReal) (w : SECol.Idx → BitVec 32) (u : SEdge.Idx → EReal)
    (n : Fin 100000) (d : Fin 128) :
    Host.scatterAdd (F := Ideal) (φ := .f32) scatter_S100000x128_S640000x1_S640000x128_1_0_0_1 z w u (ix2 n d)
      = z (ix2 n d)
        + ∑ t ∈ Finset.univ.filter (fun t : Fin 640000 => w (ix2 t (0 : Fin 1)) = BitVec.ofNat 32 n.val), u (ix2 t d) :=
  Cert.Lib.hostScatterAdd_rows_apply (by decide) _ z w u n d

/-! ## The reference's stages at coordinates -/

variable (x0 : SFeat.Idx → EReal) (x1 : SAlpha.Idx → EReal) (x2 x3 : SEdge.Idx → EReal)
  (x4 x5 x6 x7 : SIds.Idx → BitVec 32)

/-- The self term: column 1 of the per-node pair, spread along the row, times the feature. -/
theorem self_apply (n : Fin 100000) (d : Fin 128) :
    Read.val_main_v2 (F := Ideal) x0 x1 (ix2 n d) = x1 (ix2 n (1 : Fin 2)) * x0 (ix2 n d) := by
  rw [Read.val_main_v2_apply, Read.val_main_v1_apply, Read.val_main_v0_apply, idx_scale, Ideal.mulf_def]

/-- The zeros the first scatter adds into. -/
theorem zerosS_apply (i : SFeat.Idx) : Read.val_main_v13 (F := Ideal) i = 0 := by
  rw [Read.val_main_v13_apply, Read.val_main_cst_apply, Ideal.ofBits_def, Ideal.ofBits_zero_f32]

/-- The zeros the second scatter adds into. -/
theorem zerosC_apply (i : SFeat.Idx) : Read.val_main_v24 (F := Ideal) i = 0 := by
  rw [Read.val_main_v24_apply, Read.val_main_cst_3_apply, Ideal.ofBits_def, Ideal.ofBits_zero_f32]

/-- The first edge set's start word of row `t`: the source word, a negative one counted from the end. -/
theorem wordS_apply (t : Fin 640000) :
    Read.val_main_v9 (F := Ideal) x4 (ix2 t (0 : Fin 1)) = Cert.Lib.normIdx 100000#32 (x4 (ix1 t)) := by
  rw [Read.val_main_v9_apply, idx_srcS, Read.val_main_v8_apply, Read.val_main_v5_apply, Read.val_main_v7_apply,
    Read.val_main_v4_apply, Read.val_main_v6_apply, Read.val_main_c_apply, Read.val_main_c_0_apply]
  rfl

/-- The second edge set's start word of row `t`. -/
theorem wordC_apply (t : Fin 640000) :
    Read.val_main_v21 (F := Ideal) x6 (ix2 t (0 : Fin 1)) = Cert.Lib.normIdx 100000#32 (x6 (ix1 t)) := by
  rw [Read.val_main_v21_apply, idx_srcC, Read.val_main_v20_apply, Read.val_main_v17_apply, Read.val_main_v19_apply,
    Read.val_main_v16_apply, Read.val_main_v18_apply, Read.val_main_c_1_apply, Read.val_main_c_2_apply]
  rfl

/-- Under the range hypothesis the start word selects the row the result function names. -/
theorem rowS_eq (h4 : InRange x4) (t : Fin 640000) :
    Cert.Lib.clampRow 100000 (by decide) (Read.val_main_v9 (F := Ideal) x4 (ix2 t (0 : Fin 1))) = srcRow (x4 (ix1 t)) := by
  obtain ⟨m, hm⟩ := h4 t
  rw [wordS_apply, hm, normIdx_ofNat]
  rfl

theorem rowC_eq (h6 : InRange x6) (t : Fin 640000) :
    Cert.Lib.clampRow 100000 (by decide) (Read.val_main_v21 (F := Ideal) x6 (ix2 t (0 : Fin 1))) = srcRow (x6 (ix1 t)) := by
  obtain ⟨m, hm⟩ := h6 t
  rw [wordC_apply, hm, normIdx_ofNat]
  rfl

/-- The first edge set's message at `(t, d)`: weight times gathered row in the reference, gathered row times weight
    in the result function. -/
theorem msgS_eq (h4 : InRange x4) (t : Fin 640000) (d : Fin 128) :
    Read.val_main_v12 (F := Ideal) x0 x2 x4 (ix2 t d) = gatherScaled x0 (weightCol x2) x4 (ix2 t d) := by
  have hg : Read.val_main_v10 (F := Ideal) x0 x4 (ix2 t d) = x0 (ix2 (srcRow (x4 (ix1 t))) d) := by
    unfold Read.val_main_v10
    rw [gather_apply, rowS_eq x4 h4]
  rw [Read.val_main_v12_apply, Read.val_main_v11_apply, Read.val_main_v3_apply, idx_weight, hg, Ideal.mulf_def]
  exact mul_comm _ _

/-- The second edge set's message at `(t, d)`. -/
theorem msgC_eq (h6 : InRange x6) (t : Fin 640000) (d : Fin 128) :
    Read.val_main_v23 (F := Ideal) x0 x3 x6 (ix2 t d) = gatherMul x0 x3 x6 (ix2 t d) := by
  have hg : Read.val_main_v22 (F := Ideal) x0 x6 (ix2 t d) = x0 (ix2 (srcRow (x6 (ix1 t))) d) := by
    unfold Read.val_main_v22
    rw [gather_apply, rowC_eq x6 h6]
  rw [Read.val_main_v23_apply, hg, Ideal.mulf_def]
  exact mul_comm _ _

/-- What the first scatter leaves at `(n, d)` is the first segment sum. -/
theorem segS_eq (h4 : InRange x4) (n : Fin 100000) (d : Fin 128) :
    Read.val_main_v15 (F := Ideal) x0 x2 x4 x5 (ix2 n d)
      = segSumArr (gatherScaled x0 (weightCol x2) x4) x5 (ix2 n d) := by
  unfold Read.val_main_v15
  rw [scatter_apply, zerosS_apply, zero_add]
  exact Finset.sum_congr
    (Finset.filter_congr fun t _ => by rw [Read.val_main_v14_apply, idx_dstS])
    (fun t _ => msgS_eq x0 x2 x4 h4 t d)

/-- What the second scatter leaves at `(n, d)` is the second segment sum. -/
theorem segC_eq (h6 : InRange x6) (n : Fin 100000) (d : Fin 128) :
    Read.val_main_v26 (F := Ideal) x0 x3 x6 x7 (ix2 n d)
      = segSumArr (gatherMul x0 x3 x6) x7 (ix2 n d) := by
  unfold Read.val_main_v26
  rw [scatter_apply, zerosC_apply, zero_add]
  exact Finset.sum_congr
    (Finset.filter_congr fun t _ => by rw [Read.val_main_v25_apply, idx_dstC])
    (fun t _ => msgC_eq x0 x3 x6 h6 t d)

/-- The half and the zero of the last pointwise steps. -/
theorem half_apply (i : SFeat.Idx) : Read.val_main_v33 (F := Ideal) i = ((1 / 2 : ℝ) : EReal) := by
  rw [Read.val_main_v33_apply, Read.val_main_cst_4_apply, Ideal.ofBits_def, ofBits_half]

theorem floor_apply (i : SFeat.Idx) : Read.val_main_call0_v0 (F := Ideal) i = 0 := by
  rw [Read.val_main_call0_v0_apply, Read.val_main_call0_cst_apply, Ideal.ofBits_def, Ideal.ofBits_zero_f32]

/-- The result function at coordinates. -/
theorem G_apply (n : Fin 100000) (d : Fin 128) :
    G x0 x1 x2 x3 x4 x5 x6 x7 (ix2 n d)
      = max (segSumArr (gatherScaled x0 (weightCol x2) x4) x5 (ix2 n d)
          * segSumArr (gatherMul x0 x3 x6) x7 (ix2 n d)) 0
        + x1 (ix2 n (1 : Fin 2)) * x0 (ix2 n d) := rfl

/-- THE REFERENCE'S LAST STAGE IS THE RESULT FUNCTION, where the float inputs the sums read are real and the source
    words are words of node numbers. -/
theorem val_eq_G (h0 : Finite x0) (h2 : Finite x2) (h3 : Finite x3) (h4 : InRange x4) (h6 : InRange x6) :
    Read.val_main_v36 (F := Ideal) x0 x1 x2 x3 x4 x5 x6 x7 = G x0 x1 x2 x3 x4 x5 x6 x7 := by
  funext i
  obtain ⟨n, d, rfl⟩ : ∃ (n : Fin 100000) (d : Fin 128), i = ix2 n d := ⟨i 0, i 1, eq_ix2 i⟩
  -- the two segment sums are real numbers
  obtain ⟨a, ha⟩ := segSumArr_real x5 (gatherScaled_finite x4 h0 (weightCol_finite h2)) (ix2 n d)
  obtain ⟨b, hb⟩ := segSumArr_real x7 (gatherMul_finite x6 h0 h3) (ix2 n d)
  rw [G_apply, Read.val_main_v36_apply, Read.val_main_v35_apply, Read.val_main_v34_apply, Read.val_main_v32_apply,
    Read.val_main_v30_apply, Read.val_main_v28_apply, Read.val_main_v27_apply, Read.val_main_v29_apply,
    Read.val_main_v31_apply, segS_eq x0 x2 x4 x5 h4, segC_eq x0 x3 x6 x7 h6, half_apply, floor_apply, self_apply,
    ha, hb]
  simp only [Ideal.addf_def, Ideal.subf_def, Ideal.mulf_def, Ideal.maximumf_def]
  rw [half_law]

/-! ## The run -/

/-- Every weakly fair execution of the reference ends with the result function of the launch contents in the result
    buffer and the arguments unchanged, where the four float inputs are real and the two source-word inputs are in
    range. -/
theorem run_G (m' : (ℓ : Loc Cert.ReferenceIdeal.nD Cert.ReferenceIdeal.τ Cert.ReferenceIdeal.sig) → Buf (Elt Ideal) ℓ)
    (ρ' : Dev Cert.ReferenceIdeal.nD → PrngReg)
    (hfin : ∀ c : Dev Cert.ReferenceIdeal.nD,
      Cert.Spec.Finite (S := SFeat) (m' ((c.tc : Thread Cert.ReferenceIdeal.nD Cert.ReferenceIdeal.τ).loc Cert.ReferenceIdeal.main_arg0))
      ∧ Cert.Spec.Finite (S := SAlpha) (m' ((c.tc : Thread Cert.ReferenceIdeal.nD Cert.ReferenceIdeal.τ).loc Cert.ReferenceIdeal.main_arg1))
      ∧ Cert.Spec.Finite (S := SEdge) (m' ((c.tc : Thread Cert.ReferenceIdeal.nD Cert.ReferenceIdeal.τ).loc Cert.ReferenceIdeal.main_arg2))
      ∧ Cert.Spec.Finite (S := SEdge) (m' ((c.tc : Thread Cert.ReferenceIdeal.nD Cert.ReferenceIdeal.τ).loc Cert.ReferenceIdeal.main_arg3))
      ∧ Cert.Spec.InRange (m' ((c.tc : Thread Cert.ReferenceIdeal.nD Cert.ReferenceIdeal.τ).loc Cert.ReferenceIdeal.main_arg4))
      ∧ Cert.Spec.InRange (m' ((c.tc : Thread Cert.ReferenceIdeal.nD Cert.ReferenceIdeal.τ).loc Cert.ReferenceIdeal.main_arg6))) :
    θ_run (Cert.ReferenceIdeal.defs (F := Ideal)) (onTc (τ := Cert.ReferenceIdeal.τ) (Cert.ReferenceIdeal.main (F := Ideal)))
      ⟨m', fun _ => 0, ρ'⟩ (fun r => ∀ c : Dev Cert.ReferenceIdeal.nD,
        r.2.mem ((c.tc : Thread Cert.ReferenceIdeal.nD Cert.ReferenceIdeal.τ).loc Cert.ReferenceIdeal.main_v36)
          = Cert.Spec.G (m' ((c.tc : Thread Cert.ReferenceIdeal.nD Cert.ReferenceIdeal.τ).loc Cert.ReferenceIdeal.main_arg0))
              (m' ((c.tc : Thread Cert.ReferenceIdeal.nD Cert.ReferenceIdeal.τ).loc Cert.ReferenceIdeal.main_arg1))
              (m' ((c.tc : Thread Cert.ReferenceIdeal.nD Cert.ReferenceIdeal.τ).loc Cert.ReferenceIdeal.main_arg2))
              (m' ((c.tc : Thread Cert.ReferenceIdeal.nD Cert.ReferenceIdeal.τ).loc Cert.ReferenceIdeal.main_arg3))
              (m' ((c.tc : Thread Cert.ReferenceIdeal.nD Cert.ReferenceIdeal.τ).loc Cert.ReferenceIdeal.main_arg4))
              (m' ((c.tc : Thread Cert.ReferenceIdeal.nD Cert.ReferenceIdeal.τ).loc Cert.ReferenceIdeal.main_arg5))
              (m' ((c.tc : Thread Cert.ReferenceIdeal.nD Cert.ReferenceIdeal.τ).loc Cert.ReferenceIdeal.main_arg6))
              (m' ((c.tc : Thread Cert.ReferenceIdeal.nD Cert.ReferenceIdeal.τ).loc Cert.ReferenceIdeal.main_arg7))
        ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
        ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
        ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
        ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)) := by
  refine (θ_run Cert.ReferenceIdeal.defs _ _).mono (fun _ h c => ⟨(h c).1.trans ?_, (h c).2⟩)
    (Cert.ReferenceIdeal.Value.run (F := Ideal) m' ρ')
  obtain ⟨h0, _, h2, h3, h4, h6⟩ := hfin c
  rw [Read.val_main_v36_eq]
  exact val_eq_G _ _ _ _ _ _ _ _ h0 h2 h3 h4 h6

end Cert.ReferenceIdeal.RefValue

end
-- ==== Proof.PreFacts.lean ====
import proofs.«423799_j14568529068221_1_alg».proof.Pre_finite_inputs
import proofs.«423799_j14568529068221_1_alg».proof.Proof.Gen.Pre_finite_inputs
import proofs.«423799_j14568529068221_1_alg».proof.Proof.Spec
import Idealize.ShloMosaic.PureOps.Ideal
import Idealize.ShloMosaic.Lib.ValueIdx
import Idealize.ShloMosaic.Lib.Affine
import Idealize.ShloMosaic.Lib.ReduceAll
import Idealize.ShloMosaic.Lib.StableHlo.Predicate

/-!
# What the precondition says of the arguments

The precondition is a conjunction of eight `all`-reductions, each over one whole array: for each of the four real
arrays, `|x| < +∞` at every entry; for each of the two source-word arrays, `0 ≤ w` at every word and `w < 100000` at
every word (both read signed). A conjunction of bits is 1 exactly when every bit is; an `all`-reduction is 1 exactly
when every element's bit is. In the extended reals `|x| = max x (-x)` is below `+∞` only for a real `x` (at either
infinity it IS `+∞`). A 32-bit word whose signed value lies in `[0, 100000)` is the word of that value.
-/

noncomputable section

open Idealize.ShloMosaic Idealize.ShloMosaic.ValueIdx

namespace Cert.PreFacts

/-- The shape with no axes has one index. -/
local instance subsingleton_idx0 : Subsingleton (⟨0, ![]⟩ : Shape).Idx := ⟨fun a b => funext fun d => d.elim0⟩

/-- An extended real whose absolute value `max x (-x)` tests below the pattern of `+∞` is a real number: at `⊥` and
    at `⊤` the absolute value is `⊤`, which is not below itself. -/
theorem real_of_abs_lt_inf (x : EReal)
    (h : Ideal.cmp .olt (max x (-x)) (Ideal.ofBits .f32 0x7F800000#32) = 1#1) : ∃ r : ℝ, x = (r : EReal) := by
  have htop : Ideal.ofBits .f32 0x7F800000#32 = (⊤ : EReal) := by simp [Ideal.ofBits, Ideal.ieee]
  rw [htop] at h
  have h2 : max x (-x) < ⊤ := by
    simpa [Ideal.cmp, StableHlo.Predicate.ofBool_eq_one_iff] using h
  induction x using EReal.rec with
  | bot => simp at h2
  | coe r => exact ⟨r, rfl⟩
  | top => simp at h2

/-- A word that tests `≥ 0` and `< 100000` (signed) is the word of a number below 100000: its signed value `v` is a
    natural below 100000, and a word is the word of its own signed value. -/
theorem word_of_range (w : BitVec 32) (h0 : IntOp.cmpi .sge w (0#32) = 1#1) (h1 : IntOp.cmpi .slt w (100000#32) = 1#1) :
    ∃ n : Fin 100000, w = BitVec.ofNat 32 n.val := by
  rw [IntOp.cmpi_sge, show (0#32 : BitVec 32).toInt = 0 from by decide] at h0
  rw [IntOp.cmpi_slt, show (100000#32 : BitVec 32).toInt = 100000 from by decide] at h1
  refine ⟨⟨w.toInt.toNat, by omega⟩, ?_⟩
  have h2 : w.toInt = ((w.toInt.toNat : Nat) : Int) := by omega
  have h3 := congrArg (BitVec.ofInt 32) h2
  rwa [BitVec.ofInt_toInt, BitVec.ofInt_natCast] at h3

/-- ONE REAL ARRAY: if the `all`-reduction of `|x| < +∞` over the whole array is 1, every entry is a real. -/
theorem finite_of_all {S : Shape} {axes : List (Fin S.rank)} (x : FVec Ideal S .f32)
    (hb : (⟨0, ![]⟩ : Shape).BroadcastsInDim S (![] : Fin 0 → Fin S.rank)) (hr : S.ReducesTo axes ⟨0, ![]⟩)
    (h0 : 0 < (⟨0, ![]⟩ : Shape).numel) (init : IVec ⟨0, ![]⟩ 1)
    (e : Host.reduce IntOp.andi
        (cmpf .olt (Host.absf x) (broadcastInDim S ![] hb (constant ⟨0, ![]⟩ .f32 0x7F800000#32))) init hr h0 ix0 = 1#1) :
    Cert.Spec.Finite x := by
  intro i
  -- the element's bit is the comparison of `max (x i) (-(x i))` with the pattern's value
  exact real_of_abs_lt_inf (x i) (Host.reduce_andi_all _ init hr h0 ix0 e i)

/-- ONE WORD ARRAY: if the `all`-reductions of `w ≥ 0` and of `w < 100000` over the whole array are both 1, every word
    is the word of a node number. -/
theorem inRange_of_all {axes : List (Fin (⟨1, ![640000]⟩ : Shape).rank)} (src : IVec ⟨1, ![640000]⟩ 32)
    (hb : (⟨0, ![]⟩ : Shape).BroadcastsInDim ⟨1, ![640000]⟩ (![] : Fin 0 → Fin (⟨1, ![640000]⟩ : Shape).rank))
    (hr : (⟨1, ![640000]⟩ : Shape).ReducesTo axes ⟨0, ![]⟩)
    (h0 : 0 < (⟨0, ![]⟩ : Shape).numel) (init init' : IVec ⟨0, ![]⟩ 1)
    (e0 : Host.reduce IntOp.andi
        (cmpi .sge src (broadcastInDim ⟨1, ![640000]⟩ ![] hb (constantI ⟨0, ![]⟩ 32 0#32))) init hr h0 ix0 = 1#1)
    (e1 : Host.reduce IntOp.andi
        (cmpi .slt src (broadcastInDim ⟨1, ![640000]⟩ ![] hb (constantI ⟨0, ![]⟩ 32 100000#32))) init' hr h0 ix0 = 1#1) :
    Cert.Spec.InRange src := by
  intro e
  -- a broadcast scalar constant reads the constant at every index
  exact word_of_range (src (ix1 e)) (Host.reduce_andi_all _ init hr h0 ix0 e0 (ix1 e))
    (Host.reduce_andi_all _ init' hr h0 ix0 e1 (ix1 e))

/-- A conjunction of two one-bit scalars that is 1 has both bits 1. -/
theorem and_ix0 (a b : IVec ⟨0, ![]⟩ 1) (h : andi a b ix0 = 1#1) : a ix0 = 1#1 ∧ b ix0 = 1#1 :=
  IntOp.andi_eq_one.1 h

/-- THE PRECONDITION, DECODED: the four real arrays hold reals only, and every word of the two source arrays is the word
    of a node number. -/
theorem of_pre [Cert.Pre_finite_inputs.Facts] (a0 : FVec Ideal Cert.Pre_finite_inputs.S100000x128 .f32)
    (a1 : FVec Ideal Cert.Pre_finite_inputs.S100000x2 .f32) (a2 a3 : FVec Ideal Cert.Pre_finite_inputs.S640000x128 .f32)
    (a4 a5 a6 a7 : IVec Cert.Pre_finite_inputs.S640000 32)
    (h : Cert.Pre_finite_inputs.fn (F := Ideal) a0 a1 a2 a3 a4 a5 a6 a7 = fun _ => 1#1) :
    Cert.Spec.Finite a0 ∧ Cert.Spec.Finite a1 ∧ Cert.Spec.Finite a2 ∧ Cert.Spec.Finite a3
      ∧ Cert.Spec.InRange a4 ∧ Cert.Spec.InRange a6 := by
  have h0 := congrFun h ix0
  dsimp only [Cert.Pre_finite_inputs.fn, Cert.Pre_finite_inputs.fn_part1, Cert.Pre_finite_inputs.fn_part2] at h0
  -- the eight conjuncts, outermost last
  obtain ⟨h0, c8⟩ := and_ix0 _ _ h0
  obtain ⟨h0, c7⟩ := and_ix0 _ _ h0
  obtain ⟨h0, c6⟩ := and_ix0 _ _ h0
  obtain ⟨h0, c5⟩ := and_ix0 _ _ h0
  obtain ⟨h0, c4⟩ := and_ix0 _ _ h0
  obtain ⟨h0, c3⟩ := and_ix0 _ _ h0
  obtain ⟨c1, c2⟩ := and_ix0 _ _ h0
  exact ⟨finite_of_all a0 _ _ _ _ c1, finite_of_all a1 _ _ _ _ c2, finite_of_all a2 _ _ _ _ c3,
    finite_of_all a3 _ _ _ _ c4, inRange_of_all a4 _ _ _ _ _ c5 c6, inRange_of_all a6 _ _ _ _ _ c7 c8⟩

end Cert.PreFacts

end
-- ==== Proof.lean ====
/- The proof of `Cert.Claim`: a five-stage graph aggregation — two row gathers done as one-hot products accumulated
   over node tiles, two segment sums done as one-hot products accumulated over edge tiles, one fused pointwise step — against
   its plain reference, over the extended reals, under the precondition that the float inputs are finite and the source
   words are node numbers. The three frames, the (empty) list of idealization rewrites, and the equality of the two results:
   each program's result array is `Cert.Spec.G` of the argument arrays. -/
import proofs.«423799_j14568529068221_1_alg».proof.Defs
import proofs.«423799_j14568529068221_1_alg».proof.Proof.Gen.Kernel
import proofs.«423799_j14568529068221_1_alg».proof.Proof.Gen.KernelIdeal
import proofs.«423799_j14568529068221_1_alg».proof.Proof.Gen.ReferenceIdeal
import proofs.«423799_j14568529068221_1_alg».proof.Proof.Gen.Pre_finite_inputs
import proofs.«423799_j14568529068221_1_alg».proof.Proof.Gen.ReferenceIdeal.Run
import proofs.«423799_j14568529068221_1_alg».proof.Proof.K.Run
import proofs.«423799_j14568529068221_1_alg».proof.Proof.KI.Run
import proofs.«423799_j14568529068221_1_alg».proof.Proof.KI.Compose
import proofs.«423799_j14568529068221_1_alg».proof.Proof.RefValue
import proofs.«423799_j14568529068221_1_alg».proof.Proof.PreFacts
import Idealize.ShloMosaic.Adequacy
import Idealize.ShloMosaic.Init

noncomputable section

namespace Cert.Proof

open Idealize.ShloMosaic Idealize.ShloMosaic.TcCoe Idealize.SL.Sem

/-- The word-level program runs to the end, faults nowhere and leaves its arguments as launched: the five regions'
    body obligations assembled over the segment kit. -/
theorem frame_k : Cert.frame_Kernel := fun m ρ _ => Cert.Kernel.Hand.frame m ρ

/-- The same for the idealized program. -/
theorem frame_ki : Cert.frame_KernelIdeal := fun m ρ _ => Cert.KernelIdeal.Hand.frame m ρ

/-- The reference is host operations only: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- At the ideal instance both programs end with the result array at the specification `Cert.Spec.G` of the argument
    arrays: the kernel's five stages chained through the buffers between them, the reference's host operations read one
    at a time. The precondition gives the real-valuedness the reference's quadratic form needs and the node range of the
    source words that both gathers need. -/
theorem algebraic : Cert.algebraic_KernelIdeal_ReferenceIdeal := by
  intro m ρ m' ρ' hpre hagree
  have hf := fun c : Dev Cert.KernelIdeal.nD => Cert.PreFacts.of_pre _ _ _ _ _ _ _ _ (hpre c)
  refine ⟨fun c => Cert.Spec.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · refine (θ_run (Cert.KernelIdeal.defs (F := Ideal)) _ _).mono (fun r h c => ?_) (Cert.KernelIdeal.Hand.run_all m ρ)
    exact ⟨(h c _ (Cert.KernelIdeal.Hand.mem_uc Cert.KernelIdeal.main_v7 (by decide))).trans (Cert.KernelIdeal.Hand.W7_main_v7 m ρ c (hf c).2.2.2.2.1 (hf c).2.2.2.2.2),
      (h c _ (Cert.KernelIdeal.Hand.mem_uc Cert.KernelIdeal.main_arg0 (by decide))).trans (Cert.KernelIdeal.Hand.W7_main_arg0 m ρ c),
      (h c _ (Cert.KernelIdeal.Hand.mem_uc Cert.KernelIdeal.main_arg1 (by decide))).trans (Cert.KernelIdeal.Hand.W7_main_arg1 m ρ c),
      (h c _ (Cert.KernelIdeal.Hand.mem_uc Cert.KernelIdeal.main_arg2 (by decide))).trans (Cert.KernelIdeal.Hand.W7_main_arg2 m ρ c),
      (h c _ (Cert.KernelIdeal.Hand.mem_uc Cert.KernelIdeal.main_arg3 (by decide))).trans (Cert.KernelIdeal.Hand.W7_main_arg3 m ρ c),
      (h c _ (Cert.KernelIdeal.Hand.mem_uc Cert.KernelIdeal.main_arg4 (by decide))).trans (Cert.KernelIdeal.Hand.W7_main_arg4 m ρ c),
      (h c _ (Cert.KernelIdeal.Hand.mem_uc Cert.KernelIdeal.main_arg5 (by decide))).trans (Cert.KernelIdeal.Hand.W7_main_arg5 m ρ c),
      (h c _ (Cert.KernelIdeal.Hand.mem_uc Cert.KernelIdeal.main_arg6 (by decide))).trans (Cert.KernelIdeal.Hand.W7_main_arg6 m ρ c),
      (h c _ (Cert.KernelIdeal.Hand.mem_uc Cert.KernelIdeal.main_arg7 (by decide))).trans (Cert.KernelIdeal.Hand.W7_main_arg7 m ρ c)⟩
  · have hf' : ∀ c : Dev Cert.ReferenceIdeal.nD, _ := fun c => by
      have h := hf c
      rw [← (hagree c).1, ← (hagree c).2.1, ← (hagree c).2.2.1, ← (hagree c).2.2.2.1, ← (hagree c).2.2.2.2.1, ← (hagree c).2.2.2.2.2.2.1] at h
      exact h
    refine (θ_run (Cert.ReferenceIdeal.defs (F := Ideal)) _ _).mono (fun r h c => ?_) (Cert.ReferenceIdeal.RefValue.run_G m' ρ' hf')
    refine ⟨(h c).1.trans ?_, (h c).2⟩
    rw [(hagree c).1, (hagree c).2.1, (hagree c).2.2.1, (hagree c).2.2.2.1, (hagree c).2.2.2.2.1, (hagree c).2.2.2.2.2.1, (hagree c).2.2.2.2.2.2.1, (hagree c).2.2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
